-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v9) = v1 c
          ∧ r.2.mem ((c.tc : Thread Cert.ReferenceIdeal.nD Cert.ReferenceIdeal.τ).loc Cert.ReferenceIdeal.main_v12) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S4096x4096 : Shape := ⟨2, ![4096, 4096]⟩
abbrev S256x128 : Shape := ⟨2, ![256, 128]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S256x128 : S_.BroadcastsInDim S256x128 (![] : Fin 0 → Fin S256x128.rank)
  reducesTo_S256x128_S_d0_1 : S256x128.ReducesTo [0, 1] S_

variable [Facts]

def fn {F : FTy → Type} [FloatOps F] (main_arg0 : FVec F S4096x256 .f32) (main_arg1 : FVec F S4096x4096 .f32) (main_arg2 : FVec F S256x128 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  main_v13
-- ==== Kernel.lean ====
abbrev S4096x256 : Shape := ⟨2, ![4096, 256]⟩
abbrev S4096x4096 : Shape := ⟨2, ![4096, 4096]⟩
abbrev S256x128 : Shape := ⟨2, ![256, 128]⟩
abbrev S4096x128 : Shape := ⟨2, ![4096, 128]⟩
abbrev S4096x2x128 : Shape := ⟨3, ![4096, 2, 128]⟩
abbrev S512x256 : Shape := ⟨2, ![512, 256]⟩
abbrev S512x128 : Shape := ⟨2, ![512, 128]⟩
abbrev S1024x4096 : Shape := ⟨2, ![1024, 4096]⟩
abbrev S1024x128 : Shape := ⟨2, ![1024, 128]⟩
abbrev S1024x2x128 : Shape := ⟨3, ![1024, 2, 128]⟩
abbrev S1024x1x128 : Shape := ⟨3, ![1024, 1, 128]⟩

abbrev nBuf : Space → Nat
  | .hbm => 8
  | .vmem => 25
  | .smem => 0
  | _ => 0

abbrev bufTy : (tb : Table) → Fin (tcTables nBuf tb) → BufTy
  | .hbm, ⟨0, _⟩ => ⟨S4096x256, .f32⟩
  | .hbm, ⟨1, _⟩ => ⟨S4096x4096, .f32⟩
  | .hbm, ⟨2, _⟩ => ⟨S256x128, .f32⟩
  | .hbm, ⟨3, _⟩ => ⟨S4096x128, .f32⟩
  | .hbm, ⟨4, _⟩ => ⟨S4096x128, .f32⟩
  | .hbm, ⟨5, _⟩ => ⟨S4096x128, .f32⟩
  | .hbm, ⟨6, _⟩ => ⟨S4096x128, .f32⟩
  | .hbm, ⟨7, _⟩ => ⟨S4096x2x128, .f32⟩
  | .local _ .vmem, ⟨0, _⟩ => ⟨S512x256, .f32⟩
  | .local _ .vmem, ⟨1, _⟩ => ⟨S512x256, .f32⟩
  | .local _ .vmem, ⟨2, _⟩ => ⟨S256x128, .f32⟩
  | .local _ .vmem, ⟨3, _⟩ => ⟨S512x128, .f32⟩
  | .local _ .vmem, ⟨4, _⟩ => ⟨S512x128, .f32⟩
  | .local _ .vmem, ⟨5, _⟩ => ⟨S1024x4096, .f32⟩
  | .local _ .vmem, ⟨6, _⟩ => ⟨S1024x4096, .f32⟩
  | .local _ .vmem, ⟨7, _⟩ => ⟨S4096x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x4096, .f32⟩
  | .local _ .vmem, ⟨15, _⟩ => ⟨S1024x4096, .f32⟩
  | .local _ .vmem, ⟨16, _⟩ => ⟨S4096x128, .f32⟩
  | .local _ .vmem, ⟨17, _⟩ => ⟨S1024x128, .f32⟩
  | .local _ .vmem, ⟨18, _⟩ => ⟨S1024x128, .f32⟩
  | .local _ .vmem, ⟨19, _⟩ => ⟨S1024x128, .f32⟩
  | .local _ .vmem, ⟨20, _⟩ => ⟨S1024x128, .f32⟩
  | .local _ .vmem, ⟨21, _⟩ => ⟨S1024x128, .f32⟩
  | .local _ .vmem, ⟨22, _⟩ => ⟨S1024x128, .f32⟩
  | .local _ .vmem, ⟨23, _⟩ => ⟨S1024x2x128, .f32⟩
  | .local _ .vmem, ⟨24, _⟩ => ⟨S1024x2x128, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1_0 : Ref sig .tc := ⟨.hbm, 4, rfl⟩
abbrev main_v0_1 : Ref sig .tc := ⟨.hbm, 5, rfl⟩
abbrev main_v0_2 : Ref sig .tc := ⟨.hbm, 6, rfl⟩
abbrev main_v0_0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc2_stg4_0 : Ref sig .tc := ⟨.vmem, 21, rfl⟩
abbrev cc2_stg4_1 : Ref sig .tc := ⟨.vmem, 22, rfl⟩
abbrev cc2_stg5_0 : Ref sig .tc := ⟨.vmem, 23, rfl⟩
abbrev cc2_stg5_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc2_sem4_0 : DmaSem sig := 21
abbrev cc2_sem4_1 : DmaSem sig := 22
abbrev cc2_sem5_0 : DmaSem sig := 23
abbrev cc2_sem5_1 : DmaSem sig := 24

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1024x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1024x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4096x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1024x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1024x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1024x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1024x2x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  inb_S512x256_S512x256_0_0 : ∀ a, (![0, 0] : Fin 2 → Nat) a + S512x256.size a ≤ S512x256.size a
  h_S512x256 : 0 < S512x256.numel
  inb_S256x128_S256x128_0_0 : ∀ a, (![0, 0] : Fin 2 → Nat) a + S256x128.size a ≤ S256x128.size a
  h_S256x128 : 0 < S256x128.numel
  inb_S512x128_S512x128_0_0 : ∀ a, (![0, 0] : Fin 2 → Nat) a + S512x128.size a ≤ S512x128.size a
  h_S512x128 : 0 < S512x128.numel
  inb_S1024x4096_S1024x4096_0_0 : ∀ a, (![0, 0] : Fin 2 → Nat) a + S1024x4096.size a ≤ S1024x4096.size a
  h_S1024x4096 : 0 < S1024x4096.numel
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x2x128_S1024x1x128_0_0_0 : ∀ a, (![0, 0, 0] : Fin 3 → Nat) a + S1024x1x128.size a ≤ S1024x2x128.size a
  h_S1024x1x128 : 0 < S1024x1x128.numel
  shapeCasts_S1024x1x128_S1024x128 : S1024x1x128.ShapeCasts S1024x128
  shapeCasts_S1024x128_S1024x1x128 : S1024x128.ShapeCasts S1024x1x128
  inb_S1024x2x128_S1024x1x128_0_1_0 : ∀ a, (![0, 1, 0] : Fin 3 → Nat) a + S1024x1x128.size a ≤ S1024x2x128.size a
  dot_S512x256_S256x128_S512x128_1_0_0_1_n_n_wf : DotDims.WF S512x256 S256x128 S512x128 [1] [0] [0] [1] [] []
  dot_S1024x4096_S4096x128_S1024x128_1_0_0_1_n_n_wf : DotDims.WF S1024x4096 S4096x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S4096x256.size a
  hwx0_0 : ∀ i : grid0.Coords, EltTy.bits .f32 = 32 ∨ (Rect.block (s := S4096x256) S512x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S4096x128.size a
  hwx0_2 : ∀ i : grid0.Coords, EltTy.bits .f32 = 32 ∨ (Rect.block (s := S4096x128) S512x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x4096.size a ≤ S4096x4096.size a
  hwx1_0 : ∀ i : grid1.Coords, EltTy.bits .f32 = 32 ∨ (Rect.block (s := S4096x4096) S1024x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x128.size a ≤ S4096x128.size a
  hwx1_1 : ∀ i : grid1.Coords, EltTy.bits .f32 = 32 ∨ (Rect.block (s := S4096x128) S4096x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S4096x128.size a
  hwx1_2 : ∀ i : grid1.Coords, EltTy.bits .f32 = 32 ∨ (Rect.block (s := S4096x128) S1024x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x128.size a ≤ S4096x128.size a
  hwx1_3 : ∀ i : grid1.Coords, EltTy.bits .f32 = 32 ∨ (Rect.block (s := S4096x128) S1024x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x128.size a ≤ S4096x128.size a
  hwx1_4 : ∀ i : grid1.Coords, EltTy.bits .f32 = 32 ∨ (Rect.block (s := S4096x128) S1024x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x4096.size a ≤ S4096x4096.size a
  hwx2_0 : ∀ i : grid2.Coords, EltTy.bits .f32 = 32 ∨ (Rect.block (s := S4096x4096) S1024x4096.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S4096x128.size a ≤ S4096x128.size a
  hwx2_1 : ∀ i : grid2.Coords, EltTy.bits .f32 = 32 ∨ (Rect.block (s := S4096x128) S4096x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x128.size a ≤ S4096x128.size a
  hwx2_2 : ∀ i : grid2.Coords, EltTy.bits .f32 = 32 ∨ (Rect.block (s := S4096x128) S1024x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x128.size a ≤ S4096x128.size a
  hwx2_3 : ∀ i : grid2.Coords, EltTy.bits .f32 = 32 ∨ (Rect.block (s := S4096x128) S1024x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1024x128.size a ≤ S4096x128.size a
  hwx2_4 : ∀ i : grid2.Coords, EltTy.bits .f32 = 32 ∨ (Rect.block (s := S4096x128) S1024x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1024x2x128.size a ≤ S4096x2x128.size a
  hwx2_5 : ∀ i : grid2.Coords, EltTy.bits .f32 = 32 ∨ (Rect.block (s := S4096x2x128) S1024x2x128.size (cc2_transform_5 i) (hinb2_5 i)).WholeWords (EltTy.packing .f32)

variable [Facts₀]

def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf
def dot_S1024x4096_S4096x128_S1024x128_1_0_0_1_n_n : DotDims S1024x4096 S4096x128 S1024x128 where
  lhsContracting := [1]
  rhsContracting := [0]
  lhsNonContracting := [0]
  rhsNonContracting := [1]
  lhsBatch := []
  rhsBatch := []
  wf := dot_S1024x4096_S4096x128_S1024x128_1_0_0_1_n_n_wf

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S512x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S1024x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v0) S4096x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v0) S1024x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_call0_v1_0) S1024x128.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v0_1) S1024x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg1) S1024x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v1_0) S4096x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_call0_v0) S1024x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v0_1) S1024x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v0_2) S1024x128.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v0_0) S1024x2x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S4096x256 : Shape := ⟨2, ![4096, 256]⟩
abbrev S4096x4096 : Shape := ⟨2, ![4096, 4096]⟩
abbrev S256x128 : Shape := ⟨2, ![256, 128]⟩
abbrev S4096x128 : Shape := ⟨2, ![4096, 128]⟩
abbrev S_ : Shape := ⟨0, ![]⟩
abbrev S4096x1x128 : Shape := ⟨3, ![4096, 1, 128]⟩
abbrev S4096x2x128 : Shape := ⟨3, ![4096, 2, 128]⟩

abbrev nBuf : Space → Nat
  | .hbm => 22
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x4096, .f32⟩
  | .hbm, ⟨2, _⟩ => ⟨S256x128, .f32⟩
  | .hbm, ⟨3, _⟩ => ⟨S4096x128, .f32⟩
  | .hbm, ⟨4, _⟩ => ⟨S_, .f32⟩
  | .hbm, ⟨5, _⟩ => ⟨S4096x128, .f32⟩
  | .hbm, ⟨6, _⟩ => ⟨S4096x128, .f32⟩
  | .hbm, ⟨7, _⟩ => ⟨S4096x4096, .i32⟩
  | .hbm, ⟨8, _⟩ => ⟨S4096x4096, .i32⟩
  | .hbm, ⟨9, _⟩ => ⟨S_, .i32⟩
  | .hbm, ⟨10, _⟩ => ⟨S4096x4096, .i32⟩
  | .hbm, ⟨11, _⟩ => ⟨S4096x4096, .i32⟩
  | .hbm, ⟨12, _⟩ => ⟨S4096x4096, .i1⟩
  | .hbm, ⟨13, _⟩ => ⟨S4096x4096, .f32⟩
  | .hbm, ⟨14, _⟩ => ⟨S4096x4096, .f32⟩
  | .hbm, ⟨15, _⟩ => ⟨S4096x128, .f32⟩
  | .hbm, ⟨16, _⟩ => ⟨S4096x4096, .f32⟩
  | .hbm, ⟨17, _⟩ => ⟨S4096x4096, .f32⟩
  | .hbm, ⟨18, _⟩ => ⟨S4096x128, .f32⟩
  | .hbm, ⟨19, _⟩ => ⟨S4096x1x128, .f32⟩
  | .hbm, ⟨20, _⟩ => ⟨S4096x1x128, .f32⟩
  | .hbm, ⟨21, _⟩ => ⟨S4096x2x128, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  bcast_S_S4096x128 : S_.BroadcastsInDim S4096x128 (![] : Fin 0 → Fin S4096x128.rank)
  bcast_S_S4096x4096 : S_.BroadcastsInDim S4096x4096 (![] : Fin 0 → Fin S4096x4096.rank)
  bcast_S4096x128_S4096x1x128_0_2 : S4096x128.BroadcastsInDim S4096x1x128 (![0, 2] : Fin 2 → Fin S4096x1x128.rank)
  concatenates_S4096x1x128_S4096x1x128_S4096x2x128_d1 : Shape.Concatenates [S4096x1x128, S4096x1x128] S4096x2x128 1
  dot_S4096x256_S256x128_S4096x128_1_0_0_1_n_n_wf : DotDims.WF S4096x256 S256x128 S4096x128 [1] [0] [0] [1] [] []
  dot_S4096x4096_S4096x128_S4096x128_1_0_0_1_n_n_wf : DotDims.WF S4096x4096 S4096x128 S4096x128 [1] [0] [0] [1] [] []
  dot_S4096x4096_S4096x4096_S4096x4096_1_0_0_1_n_n_wf : DotDims.WF S4096x4096 S4096x4096 S4096x4096 [1] [0] [0] [1] [] []

variable [Facts₀]

def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def dot_S4096x4096_S4096x128_S4096x128_1_0_0_1_n_n : DotDims S4096x4096 S4096x128 S4096x128 where
  lhsContracting := [1]
  rhsContracting := [0]
  lhsNonContracting := [0]
  rhsNonContracting := [1]
  lhsBatch := []
  rhsBatch := []
  wf := dot_S4096x4096_S4096x128_S4096x128_1_0_0_1_n_n_wf
def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.BitsSupportBody.lean ====
/-
  The first pass, `support = max (feature · W) 0`, one block of 512 rows per grid point (8 points).
  Window 0 is the block of `feature` rows, window 1 all of `W` (fetched once), window 2 the block of
  result rows.  At every point the body stores, over the whole result block, the payload
  `max (x · w) 0` of the two input blocks; so the result block after the body is that payload.
-/
import proofs.«179354_g65609920414006_cont_sun_m_687_5_alg».proof.Proof.Gen.Kernel.Launch
import proofs.«179354_g65609920414006_cont_sun_m_687_5_alg».proof.Proof.Gen.Kernel.Skeleton
import proofs.«179354_g65609920414006_cont_sun_m_687_5_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rowsF0 : Rect S512x256 := Rect.unit (s := S512x256) ![0, 0] S512x256.size inb_S512x256_S512x256_0_0
abbrev wholeW0 : Rect S256x128 := Rect.unit (s := S256x128) ![0, 0] S256x128.size inb_S256x128_S256x128_0_0
abbrev rowsS0 : Rect S512x128 := Rect.unit (s := S512x128) ![0, 0] S512x128.size inb_S512x128_S512x128_0_0

/-- The result block after the body: its one store, over the whole block, of `max (x · w) 0`. -/
def out0_2 (x0 : Vec F S512x256 .f32) (x1 : Vec F S256x128 .f32) : Vec F S512x128 .f32 :=
  View.canon [⟨rowsS0, k0_pay1 (View.ld x0 rowsF0) (View.ld x1 wholeW0)⟩]

/-- The first pass's proof data: arrays as found; inputs left in place, the result block at `out0_2`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-! ## The two input blocks as the body finds them

Both input windows are whole blocks (never cut), are live at every point, and the body only reads them.  So each
one's current staging buffer holds the array's block of the point: the rows of `feature` because they are brought
in afresh at each point, all of `W` because its block index never moves after the first point brought it in. -/

/-- The staging buffer of the `feature` rows holds the rows of the point. -/
theorem featureRows_staged (c : Dev nD) (t : Fin cfg0.N) (d) : (dat0 V c).before 0 t d = iblk0 V c 0 t := by
  have hleft : ∀ s, (cfg0.win 0).cut (cfg0.grid.coords s) ((dat0 V c).after 0 s) = (dat0 V c).blockOf 0 s := fun s => by
    rw [after0_0]; unfold Dat.blockOf iblk0; rw [A_eq0]
  rw [(dat0 V c).before_in_eq_fetched 0 rfl (fun _ => rfl) (fun _ _ _ => rfl) hleft t d]
  unfold Dat.fetched Dat.blockOf iblk0; rw [A_eq0]; rfl

/-- The staging buffer of `W` holds all of `W`, at the first point (which brings it in) and at every later one
    (which finds it there). -/
theorem weights_staged (c : Dev nD) (t : Fin cfg0.N) (d) : (dat0 V c).before 1 t d = iblk0 V c 1 t := by
  have hleft : ∀ s, (cfg0.win 1).cut (cfg0.grid.coords s) ((dat0 V c).after 1 s) = (dat0 V c).blockOf 1 s := fun s => by
    rw [after0_1]; unfold Dat.blockOf iblk0; rw [A_eq0]
  rw [(dat0 V c).before_in_eq_fetched 1 rfl (fun _ => rfl) (fun _ _ _ => rfl) hleft t d]
  unfold Dat.fetched Dat.blockOf iblk0; rw [A_eq0]; rfl

/-! ## The one store fills the result block -/

/-- The body's only store is over the rectangle that is the whole result block, so every index of the block lies
    under it. -/
theorem resultStore_covers (p : Vec F S512x128 .f32) (y : S512x128.Idx) :
    ∃ pc ∈ ([⟨rowsS0, p⟩] : List (View.Piece (Elt F) S512x128 .f32)), y ∈ pc.1.set :=
  View.cover_of_tiled [⟨rowsS0, p⟩] S512x128.size (by rfl) y

/-! ## The body on whole buffers -/

set_option maxHeartbeats 1000000 in
/-- Run on three whole buffers — the first reading `x`, the second reading `w`, the third holding anything — the
    body reads `x` and `w`, reads the third buffer without using what it read, and overwrites the third buffer
    whole with `max (x · w) 0`: the first two are left as they were and the third reads `out0_2 x w`. -/
theorem support_body_run (c : Dev nD) (E : Set ℕ) (i : grid0.Coords)
    (bx : Memref sig .tc .vmem S512x256 .f32) (hbx : bx.IsWhole)
    (bw : Memref sig .tc .vmem S256x128 .f32) (hbw : bw.IsWhole)
    (bo : Memref sig .tc .vmem S512x128 .f32) (hbo : bo.IsWhole)
    (x : Vec F S512x256 .f32) (w : Vec F S256x128 .f32) (K : PUnit → sProp 𝕄) :
    iprop(owns (c : Thread nD τ) bx fullShare x ∗ owns (c : Thread nD τ) bw fullShare w
        ∗ (∃ y, owns (c : Thread nD τ) bo fullShare y)
        ∗ (iprop(owns (c : Thread nD τ) bx fullShare x ∗ owns (c : Thread nD τ) bw fullShare w
            ∗ owns (c : Thread nD τ) bo fullShare (out0_2 x w)) -∗ K ⟨⟩))
      ⊢ wp frame (wpE (defs₀ (F := F)) Variants.none c none) E (cc0__support_body i bx hbx bw hbw bo hbo) K := by
  simp only [cc0__support_body_eq_skeleton]; unfold cc0__support_body_skel
  unfold owns
  iintro ⟨⟨%fx, %hx, Hx⟩, ⟨%fw, %hw, Hw⟩, ⟨%y, %fo, -, Ho⟩, Hk⟩
  subst hx; subst hw
  sl_exec
  sl_step
  iapply Hk
  isplitl [Hx]
  · iexists fx; isplitr
    · ipureintro; rfl
    · iexact Hx
  isplitl [Hw]
  · iexists fw; isplitr
    · ipureintro; rfl
    · iexact Hw
  iexists _; isplitr
  on_goal 2 => iexact Ho
  ipureintro
  unfold out0_2
  exact View.read_writes_eq_canon bo.view fo _ (resultStore_covers _)

/-! ## The body at a point of the grid -/

/-- The invariant is the same at every point: the body touches nothing of it. -/
theorem invariant_same (c : Dev nD) (k k' : Fin (cfg0.N + 1)) : (dat0 V c).Φ k = (dat0 V c).Φ k' := rfl

/-- The core owes nothing, at every point alike. -/
theorem owes_same (c : Dev nD) (k k' : Fin (cfg0.N + 1)) : (dat0 V c).owesAt () k = (dat0 V c).owesAt () k' := rfl

/-- What the body is handed at point `t`: the invariant, what the core owes, and the three current staging buffers
    at what they then hold. -/
def pointEntry0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What it hands back: the same invariant and debt, and the three buffers at what the proof data say it leaves. -/
def pointExit0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- At point `t` the first two buffers hold the rows of `feature` of the point and all of `W`; the third holds
    whatever it holds.  The body leaves the first two alone and fills the third with `max (rows · W) 0`, which is
    what the proof data name; the invariant and the debt are not looked at. -/
theorem support_body_at_point (c : Dev nD) (t : Fin cfg0.N) :
    pointEntry0 V c t ⊢ wp frame (wpE (defs₀ (F := F)) Variants.none c none) Set.univ (bodyAt0 t) (fun _ => pointExit0 V c t) := by
  unfold pointEntry0 pointExit0 bodyAt0
  rw [invariant_same V c t.succ t.castSucc, owes_same V c t.succ t.castSucc, after0_0, after0_1, after0_2]
  simp only [featureRows_staged, weights_staged]
  iintro ⟨Hinv, Hdebt, ⟨%d0, Hx⟩, ⟨%d1, Hw⟩, ⟨%d2, Ho⟩⟩
  iapply (support_body_run c Set.univ _ _ _ _ _ _ _ (iblk0 V c 0 t) (iblk0 V c 1 t) _)
  isplitl [Hx]; · iexact Hx
  isplitl [Hw]; · iexact Hw
  isplitl [Ho]; · iexists _; iexact Ho
  iintro ⟨Hx, Hw, Ho⟩
  isplitl [Hinv]; · iexact Hinv
  isplitl [Hdebt]; · iexact Hdebt
  isplitl [Hx]; · iexact Hx
  isplitl [Hw]; · iexact Hw
  iexact Ho

/-- The body obligation of the first pass, at every point. -/
theorem body_obligation0 (c : Dev nD) : BodyObligation (dat0 (F := F) V c) (defs₀ (F := F)) Variants.none () Set.univ := fun t => by
  rw [bigSep_W0, bigSep_W0]
  exact support_body_at_point V c t

end Cert.Kernel.Frame

end
-- ==== Proof.BitsPassOneBody.lean ====
/-
  The second pass, one block of 1024 rows per grid point (4 points): `t = adj_rows · support` and
  `low = t + support_rows`.  Window 0 is the block of `adj` rows, window 1 all of `support` (fetched
  once), window 2 the block of `support` rows, windows 3 and 4 the blocks of the two results.
  Windows 1 and 2 read ONE array, so each holds it at half the share.
-/
import proofs.«179354_g65609920414006_cont_sun_m_687_5_alg».proof.Proof.Gen.Kernel.Launch
import proofs.«179354_g65609920414006_cont_sun_m_687_5_alg».proof.Proof.Gen.Kernel.Skeleton
import proofs.«179354_g65609920414006_cont_sun_m_687_5_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rowsA1 : Rect S1024x4096 := Rect.unit (s := S1024x4096) ![0, 0] S1024x4096.size inb_S1024x4096_S1024x4096_0_0
abbrev wholeS1 : Rect S4096x128 := Rect.unit (s := S4096x128) ![0, 0] S4096x128.size inb_S4096x128_S4096x128_0_0
abbrev rowsN1 : Rect S1024x128 := Rect.unit (s := S1024x128) ![0, 0] S1024x128.size inb_S1024x128_S1024x128_0_0

/-- The block of `t` after the body: the product of the `adj` rows with all of `support`. -/
def out1_3 (x0 : Vec F S1024x4096 .f32) (x1 : Vec F S4096x128 .f32) : Vec F S1024x128 .f32 :=
  View.canon [⟨rowsN1, k1_pay1 (View.ld x0 rowsA1) (View.ld x1 wholeS1)⟩]

/-- The block of `low` after the body: that product plus the `support` rows. -/
def out1_4 (x0 : Vec F S1024x4096 .f32) (x1 : Vec F S4096x128 .f32) (x2 : Vec F S1024x128 .f32) : Vec F S1024x128 .f32 :=
  View.canon [⟨rowsN1, k1_pay2 (View.ld x0 rowsA1) (View.ld x1 wholeS1) (View.ld x2 rowsN1)⟩]

/-- The second pass's proof data; the two windows on `support` hold it at complementary half shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t)
    | ⟨4, _⟩ => out1_4 (iblk1 V c 0 t) (iblk1 V c 1 t) (iblk1 V c 2 t)
  Φ _ := Pipeline.ΦA spec1 c
  q w := match w with
    | ⟨1, _⟩ => fullShare.left
    | ⟨2, _⟩ => fullShare.right
    | _ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) := by dsimp only [dat1]
theorem after1_4 (c : Dev nD) (t : Fin cfg1.N) : (dat1 V c).after 4 t = out1_4 (iblk1 V c 0 t) (iblk1 V c 1 t) (iblk1 V c 2 t) := by dsimp only [dat1]

/-! ## What the body finds in the three input buffers

An input window's body leaves its block where it found it, no window is cut and none is ever idle, so at every
point the current buffer of the window holds the block of that point: fetched there, or, for all of `support`
(fetched at the first point only), still there from the first point since its block index never moves. -/

/-- The buffer of the `adj` rows holds the row block of point `t`. -/
theorem adjRows_found1 (c : Dev nD) (t : Fin cfg1.N) (d) : (dat1 V c).before 0 t d = iblk1 V c 0 t := by
  have hkeep : ∀ t, (cfg1.win 0).cut (cfg1.grid.coords t) ((dat1 V c).after 0 t) = (dat1 V c).blockOf 0 t := by
    intro t; rw [after1_0]; unfold Dat.blockOf iblk1; rw [A_eq1]
  rw [(dat1 V c).before_in_eq_fetched 0 rfl (fun _ => rfl) (fun _ _ _ => rfl) hkeep t d]
  unfold Dat.fetched Dat.blockOf iblk1; rw [A_eq1]; rfl

/-- The buffer of all of `support` holds all of it at every point, though it is fetched only at the first. -/
theorem support_found1 (c : Dev nD) (t : Fin cfg1.N) (d) : (dat1 V c).before 1 t d = iblk1 V c 1 t := by
  have hkeep : ∀ t, (cfg1.win 1).cut (cfg1.grid.coords t) ((dat1 V c).after 1 t) = (dat1 V c).blockOf 1 t := by
    intro t; rw [after1_1]; unfold Dat.blockOf iblk1; rw [A_eq1]
  rw [(dat1 V c).before_in_eq_fetched 1 rfl (fun _ => rfl) (fun _ _ _ => rfl) hkeep t d]
  unfold Dat.fetched Dat.blockOf iblk1; rw [A_eq1]; rfl

/-- The buffer of the `support` rows holds the row block of point `t`. -/
theorem supportRows_found1 (c : Dev nD) (t : Fin cfg1.N) (d) : (dat1 V c).before 2 t d = iblk1 V c 2 t := by
  have hkeep : ∀ t, (cfg1.win 2).cut (cfg1.grid.coords t) ((dat1 V c).after 2 t) = (dat1 V c).blockOf 2 t := by
    intro t; rw [after1_2]; unfold Dat.blockOf iblk1; rw [A_eq1]
  rw [(dat1 V c).before_in_eq_fetched 2 rfl (fun _ => rfl) (fun _ _ _ => rfl) hkeep t d]
  unfold Dat.fetched Dat.blockOf iblk1; rw [A_eq1]; rfl

/-! ## The one store into each result buffer covers it -/

/-- A single store of the whole 1024 × 128 block covers the block, whatever it stores. -/
theorem wholeBlock_covers1 (p0 : Vec F S1024x128 .f32) (y : S1024x128.Idx) :
    ∃ pc ∈ ([⟨rowsN1, p0⟩] : List (View.Piece (Elt F) S1024x128 .f32)), y ∈ pc.1.set :=
  View.cover_of_tiled [⟨rowsN1, p0⟩] S1024x128.size (by rfl) y

/-! ## The body on whole buffers -/

set_option maxHeartbeats 1000000 in
/-- The body, on five whole buffers of which the first three read `x0` (a block of `adj` rows), `x1` (all of
    `support`) and `x2` (a block of `support` rows) and the last two hold anything: it loads the three inputs,
    loads each result buffer once without using what it read, and stores the product over the fourth and the
    product plus `x2` over the fifth; the inputs are left as found. -/
theorem pass1_body_on_buffers (c : Dev nD) (E : Set ℕ) (i : grid1.Coords)
    (arg1 : Memref sig .tc .vmem S1024x4096 .f32) (harg1 : arg1.IsWhole)
    (arg2 : Memref sig .tc .vmem S4096x128 .f32) (harg2 : arg2.IsWhole)
    (arg3 : Memref sig .tc .vmem S1024x128 .f32) (harg3 : arg3.IsWhole)
    (arg4 : Memref sig .tc .vmem S1024x128 .f32) (harg4 : arg4.IsWhole)
    (arg5 : Memref sig .tc .vmem S1024x128 .f32) (harg5 : arg5.IsWhole)
    (x0 : Vec F S1024x4096 .f32) (x1 : Vec F S4096x128 .f32) (x2 : Vec F S1024x128 .f32) (K : PUnit → sProp 𝕄) :
    iprop(owns (c : Thread nD τ) arg1 fullShare x0 ∗ owns (c : Thread nD τ) arg2 fullShare x1
        ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
            ∗ owns (c : Thread nD τ) arg3 fullShare x2
            ∗ owns (c : Thread nD τ) arg4 fullShare (out1_3 x0 x1)
            ∗ owns (c : Thread nD τ) arg5 fullShare (out1_4 x0 x1 x2)) -∗ K ⟨⟩))
      ⊢ wp frame (wpE (defs₀ (F := F)) Variants.none c none) E
          (cc1__pass1_body i arg1 harg1 arg2 harg2 arg3 harg3 arg4 harg4 arg5 harg5) K := by
  simp only [cc1__pass1_body_eq_skeleton]; unfold cc1__pass1_body_skel
  unfold owns
  iintro ⟨⟨%f1, %hf1, H1⟩, ⟨%f2, %hf2, H2⟩, ⟨%f3, %hf3, H3⟩, ⟨%d4, %f4, -, H4⟩, ⟨%d5, %f5, -, H5⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (wholeBlock_covers1 _)
  iexists _; isplitr
  swap; · iexact H5
  ipureintro
  exact View.read_writes_eq_canon _ _ _ (wholeBlock_covers1 _)

/-! ## The body at a point of the grid -/

/-- What the body is handed at point `t`: the invariant, what the core owes, and the current buffer of each of the
    five windows at what it then holds. -/
def pass1_handed (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- What the body hands back: the invariant and the debts unchanged, the three input buffers at their blocks, the
    two result buffers at the product and at the product plus the `support` rows. -/
def pass1_returned (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the three input buffers hold the point's blocks, so the body's run on whole buffers
    applies; the invariant and the debts are not touched. -/
theorem pass1_body_at_point (c : Dev nD) (t : Fin cfg1.N) :
    pass1_handed V c t ⊢ wp frame (wpE (defs₀ (F := F)) Variants.none c none) Set.univ (bodyAt1 t)
      (fun _ => pass1_returned V c t) := by
  unfold pass1_handed pass1_returned bodyAt1
  simp only [adjRows_found1, support_found1, supportRows_found1]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (pass1_body_on_buffers c Set.univ _ _ _ _ _ _ _ _ _ _ _
    (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of the second pass, at every point. -/
theorem body_obligation1 (c : Dev nD) : BodyObligation (dat1 (F := F) V c) (defs₀ (F := F)) Variants.none () Set.univ := by
  intro t
  rw [bigSep_W1, bigSep_W1]
  exact pass1_body_at_point V c t

end Cert.Kernel.Frame

end
-- ==== Proof.BitsPassTwoBody.lean ====
/-
  The third pass, one block of 1024 rows per grid point (4 points): `mid = adj_rows · t - support_rows`,
  and the stacked result whose slice `[:, 0, :]` is the block of `low` and `[:, 1, :]` the block of `mid`.
  Window 0 is the block of `adj` rows, window 1 all of `t` (fetched once), windows 2 and 3 the blocks of
  `support` and `low` rows, window 4 the block of `mid`, window 5 the block (1024 × 2 × 128) of the
  stacked result, written by two stores that together tile it.
-/
import proofs.«179354_g65609920414006_cont_sun_m_687_5_alg».proof.Proof.Gen.Kernel.Launch
import proofs.«179354_g65609920414006_cont_sun_m_687_5_alg».proof.Proof.Gen.Kernel.Skeleton
import proofs.«179354_g65609920414006_cont_sun_m_687_5_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rowsA2 : Rect S1024x4096 := Rect.unit (s := S1024x4096) ![0, 0] S1024x4096.size inb_S1024x4096_S1024x4096_0_0
abbrev wholeT2 : Rect S4096x128 := Rect.unit (s := S4096x128) ![0, 0] S4096x128.size inb_S4096x128_S4096x128_0_0
abbrev rowsN2 : Rect S1024x128 := Rect.unit (s := S1024x128) ![0, 0] S1024x128.size inb_S1024x128_S1024x128_0_0
/-- The slice `[:, 0, :]` of the stacked block, -/
abbrev slice0 : Rect S1024x2x128 := Rect.unit (s := S1024x2x128) ![0, 0, 0] S1024x1x128.size inb_S1024x2x128_S1024x1x128_0_0_0
/-- and the slice `[:, 1, :]`. -/
abbrev slice1 : Rect S1024x2x128 := Rect.unit (s := S1024x2x128) ![0, 1, 0] S1024x1x128.size inb_S1024x2x128_S1024x1x128_0_1_0

/-- The block of `mid` after the body. -/
def out2_4 (x0 : Vec F S1024x4096 .f32) (x1 : Vec F S4096x128 .f32) (x2 : Vec F S1024x128 .f32) : Vec F S1024x128 .f32 :=
  View.canon [⟨rowsN2, k2_pay1 (View.ld x0 rowsA2) (View.ld x1 wholeT2) (View.ld x2 rowsN2)⟩]

/-- The stacked block after the body: its two stores, the later first. -/
def out2_5 (x0 : Vec F S1024x4096 .f32) (x1 : Vec F S4096x128 .f32) (x2 : Vec F S1024x128 .f32) (x3 : Vec F S1024x128 .f32) : Vec F S1024x2x128 .f32 :=
  View.canon [⟨slice1, k2_pay3 (View.ld x0 rowsA2) (View.ld x1 wholeT2) (View.ld x2 rowsN2)⟩, ⟨slice0, k2_pay2 (View.ld x3 rowsN2)⟩]

/-- The third pass's proof data. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t)
    | ⟨5, _⟩ => out2_5 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) := by dsimp only [dat2]
theorem after2_5 (c : Dev nD) (t : Fin cfg2.N) : (dat2 V c).after 5 t = out2_5 (iblk2 V c 0 t) (iblk2 V c 1 t) (iblk2 V c 2 t) (iblk2 V c 3 t) := by dsimp only [dat2]

/-! ## What the body finds in its input blocks

Windows 0, 2 and 3 move to a new block of rows at every point and are fetched there; window 1 is all of `t`,
fetched at the first point and left where it is afterwards, its block index never moving. In both cases the body
leaves the staging buffer as it found it, so at every point the buffer holds the window's block of its array. -/

/-- The block of `adj` rows is in window 0's staging buffer at every point. -/
theorem before2_0 (c : Dev nD) (t : Fin cfg2.N) (d) : (dat2 V c).before 0 t d = iblk2 V c 0 t := by
  have hkeep : ∀ t, (cfg2.win 0).cut (cfg2.grid.coords t) ((dat2 V c).after 0 t) = (dat2 V c).blockOf 0 t := fun t => by
    rw [after2_0]; unfold Dat.blockOf iblk2; rw [A_eq2]; try rfl
  rw [(dat2 V c).before_in_eq_fetched 0 rfl (fun _ => rfl) (fun _ _ _ => rfl) hkeep t d]
  unfold Dat.fetched Dat.blockOf iblk2; rw [A_eq2]; try rfl

/-- All of `t` is in window 1's staging buffer at every point, though fetched at the first only. -/
theorem before2_1 (c : Dev nD) (t : Fin cfg2.N) (d) : (dat2 V c).before 1 t d = iblk2 V c 1 t := by
  have hkeep : ∀ t, (cfg2.win 1).cut (cfg2.grid.coords t) ((dat2 V c).after 1 t) = (dat2 V c).blockOf 1 t := fun t => by
    rw [after2_1]; unfold Dat.blockOf iblk2; rw [A_eq2]; try rfl
  rw [(dat2 V c).before_in_eq_fetched 1 rfl (fun _ => rfl) (fun _ _ _ => rfl) hkeep t d]
  unfold Dat.fetched Dat.blockOf iblk2; rw [A_eq2]; try rfl

/-- The block of `support` rows is in window 2's staging buffer at every point. -/
theorem before2_2 (c : Dev nD) (t : Fin cfg2.N) (d) : (dat2 V c).before 2 t d = iblk2 V c 2 t := by
  have hkeep : ∀ t, (cfg2.win 2).cut (cfg2.grid.coords t) ((dat2 V c).after 2 t) = (dat2 V c).blockOf 2 t := fun t => by
    rw [after2_2]; unfold Dat.blockOf iblk2; rw [A_eq2]; try rfl
  rw [(dat2 V c).before_in_eq_fetched 2 rfl (fun _ => rfl) (fun _ _ _ => rfl) hkeep t d]
  unfold Dat.fetched Dat.blockOf iblk2; rw [A_eq2]; try rfl

/-- The block of `low` rows is in window 3's staging buffer at every point. -/
theorem before2_3 (c : Dev nD) (t : Fin cfg2.N) (d) : (dat2 V c).before 3 t d = iblk2 V c 3 t := by
  have hkeep : ∀ t, (cfg2.win 3).cut (cfg2.grid.coords t) ((dat2 V c).after 3 t) = (dat2 V c).blockOf 3 t := fun t => by
    rw [after2_3]; unfold Dat.blockOf iblk2; rw [A_eq2]; try rfl
  rw [(dat2 V c).before_in_eq_fetched 3 rfl (fun _ => rfl) (fun _ _ _ => rfl) hkeep t d]
  unfold Dat.fetched Dat.blockOf iblk2; rw [A_eq2]; try rfl

/-! ## The stores cover their blocks -/

/-- The one store of `mid` is the whole block (1024 × 128). -/
theorem cover2_4 (p0 : Vec F S1024x128 .f32) (y : S1024x128.Idx) :
    ∃ pc ∈ ([⟨rowsN2, p0⟩] : List (View.Piece (Elt F) S1024x128 .f32)), y ∈ pc.1.set :=
  View.cover_of_tiled [⟨rowsN2, p0⟩] S1024x128.size (by rfl) y

/-- The slices `[:, 1, :]` and `[:, 0, :]`, each 1024 × 1 × 128, are the two tiles of the stacked block along its
    middle axis: every index lies in one of them. -/
theorem cover2_5 (p1 p0 : Vec F S1024x1x128 .f32) (y : S1024x2x128.Idx) :
    ∃ pc ∈ ([⟨slice1, p1⟩, ⟨slice0, p0⟩] : List (View.Piece (Elt F) S1024x2x128 .f32)), y ∈ pc.1.set :=
  View.cover_of_tiled [⟨slice1, p1⟩, ⟨slice0, p0⟩] S1024x1x128.size (by rfl) y

/-! ## The body on whole staging buffers -/

set_option maxHeartbeats 1000000 in
/-- The body reads the rows of `adj`, all of `t` and the rows of `support`, stores `adj_rows · t - support_rows` over the
    whole block of `mid`, reads the rows of `low`, and stores them into slice `[:, 0, :]` and the value of `mid` into
    slice `[:, 1, :]` of the stacked block. What it loads of an output block before storing there is used by nothing.
    The four inputs are left as found; the outputs, whatever they held, end at the canon of their stores. -/
theorem sound_kernel2 (c : Dev nD) (E : Set ℕ) (i : grid2.Coords)
    (arg1 : Memref sig .tc .vmem S1024x4096 .f32) (harg1 : arg1.IsWhole)
    (arg2 : Memref sig .tc .vmem S4096x128 .f32) (harg2 : arg2.IsWhole)
    (arg3 : Memref sig .tc .vmem S1024x128 .f32) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x2x128 .f32) (harg6 : arg6.IsWhole)
    (x0 : Vec F S1024x4096 .f32) (x1 : Vec F S4096x128 .f32) (x2 : Vec F S1024x128 .f32) (x3 : Vec F S1024x128 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out2_4 x0 x1 x2)
            ∗ owns (c : Thread nD τ) arg6 fullShare (out2_5 x0 x1 x2 x3)) -∗ K ⟨⟩))
      ⊢ wp frame (wpE (defs₀ (F := F)) Variants.none c none) E
          (cc2__pass2_body i arg1 harg1 arg2 harg2 arg3 harg3 arg4 harg4 arg5 harg5 arg6 harg6) K := by
  simp only [cc2__pass2_body_eq_skeleton]; unfold cc2__pass2_body_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover2_4 _)
  iexists _; isplitr
  swap; · iexact H5
  ipureintro
  exact View.read_writes_eq_canon _ _ _ (cover2_5 _ _)

/-! ## The body obligation, at a generic point -/

/-- What the pipeline hands the body at point `t`: the invariant, the core's debt, and the six windows' current
    staging buffers, each whole and at what the proof data says it holds there, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what the body hands back. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the four input buffers hold their blocks, so the body's triple applies at those blocks;
    the invariant and the core's debt are not touched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the third pass, at every point. -/
theorem body_obligation2 (c : Dev nD) : BodyObligation (dat2 (F := F) V c) (defs₀ (F := F)) Variants.none () Set.univ := fun t => by
  rw [bigSep_W2, bigSep_W2]
  exact sound_body2 V c t

end Cert.Kernel.Frame

end
-- ==== Proof.BitsRun.lean ====
/-
  The run of the whole program: three passes one after the other, no host operation between them.

  Between two passes a core holds every unscoped buffer whole.  `W0` is the launch memory; `W1` differs from it in
  the `support` array, which holds what the first pass's write-backs leave; `W2` differs from `W1` in the arrays
  `t1` and `low`; `W3` differs from `W2` in `mid` and the stacked result.  Each pass is entered from every unscoped
  buffer at the contents before it and left at the contents after it; its arrays are split out of the unscoped
  buffers at entry and put back at exit.  The second pass hands ONE array (`support`) to two of its windows: the
  buffer's full share is split into its two halves at entry, one per window, and the halves — both still at
  the entry contents, the windows being inputs — are joined again at exit.
  The run ends with every unscoped buffer at `W3`; the arguments are written by no pass.
-/
import proofs.«179354_g65609920414006_cont_sun_m_687_5_alg».proof.Proof.BitsSupportBody
import proofs.«179354_g65609920414006_cont_sun_m_687_5_alg».proof.Proof.BitsPassOneBody
import proofs.«179354_g65609920414006_cont_sun_m_687_5_alg».proof.Proof.BitsPassTwoBody
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

/-! ## The second pass's arrays and the buffers behind them -/

section Shared
variable (V : (c : Dev nD) → (b : Ref sig .tc) → Buf (Elt F) ((c : Thread nD τ).loc b))

/-- The five windows' arrays at contents read off `V'`, windows 1 and 2 at the two halves of the share, are the four
    buffers behind them whole at `V'`: the shared buffer's halves split or joined. -/
theorem arrays1_iff (c : Dev nD) (V' : (b : Ref sig .tc) → Buf (Elt F) ((c : Thread nD τ).loc b))
    (G : (w : Fin cfg1.W) → Buf (Elt F) ((cfg1.win w).arr.view.loc (c : Thread nD τ)))
    (hG : ∀ w, G w = V' (Pipeline.arrRef spec1 w)) :
    ((dat1 V c).arrays G : sProp 𝕄) ⊣⊢ Pipeline.arrBufs spec1 c V' := by
  obtain rfl : G = fun w => V' (Pipeline.arrRef spec1 w) := funext hG
  unfold Dat.arrays Pipeline.arrBufs
  rw [bigSep_W1]
  rw [bigSep_eq_bigSepL_of_eq [main_arg1, main_call0_v0, main_call0_v1_0, main_v0_1] (by decide) (by decide)]
  rw [(arr_whole1 0).set_eq_univ, (arr_whole1 1).set_eq_univ, (arr_whole1 3).set_eq_univ, (arr_whole1 4).set_eq_univ]
  rw [show (dat1 V c).share 0 = fullShare from rfl, show (dat1 V c).share 1 = fullShare.left from rfl,
    show (dat1 V c).share 2 = fullShare.right from rfl, show (dat1 V c).share 3 = fullShare from rfl,
    show (dat1 V c).share 4 = fullShare from rfl]
  have hsh := pointsTo_share (Ix := Unit) (Name := ℕ) (U := UR sig nD τ) (Lvl := ℕ) (ℓ := (c : Thread nD τ).loc main_call0_v0) (I := Finset.univ) (f := V' main_call0_v0)
    (PosShare.mem_left_op_right fullShare)
  show _ ⊣⊢ iprop((((c : Thread nD τ).loc main_arg1) ↦{fullShare} V' main_arg1) ∗ (((c : Thread nD τ).loc main_call0_v0) ↦{fullShare} V' main_call0_v0)
    ∗ (((c : Thread nD τ).loc main_call0_v1_0) ↦{fullShare} V' main_call0_v1_0) ∗ (((c : Thread nD τ).loc main_v0_1) ↦{fullShare} V' main_v0_1))
  refine ⟨?_, ?_⟩
  · iintro ⟨H0, H1, H2, H3, H4⟩
    isplitl [H0]; · iexact H0
    isplitl [H1 H2]
    · iapply hsh.2
      isplitl [H1]; · iexact H1
      iexact H2
    isplitl [H3]; · iexact H3
    iexact H4
  · iintro ⟨H0, H12, H3, H4⟩
    ihave H' := hsh.1 $$ H12
    icases H' with ⟨H1, H2⟩
    isplitl [H0]; · iexact H0
    isplitl [H1]; · iexact H1
    isplitl [H2]; · iexact H2
    isplitl [H3]; · iexact H3
    iexact H4

end Shared

variable (m : (ℓ : Loc nD τ sig) → Buf (Elt F) ℓ) (ρ : Dev nD → PrngReg)

/-! ## The buffer contents between the passes -/

/-- Core `c`'s buffers at launch. -/
abbrev W0 : Dev nD → Valuation τ sig (Elt F) := fun c b => m ((c : Dev nD), b)
abbrev V0 : (c : Dev nD) → (b : Ref sig .tc) → Buf (Elt F) ((c : Thread nD τ).loc b) := fun c b => W0 m c b

/-- After the first pass: its arrays at what its write-backs leave, every other buffer as launched. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the second pass: `t1` and `low` at what its write-backs leave, every other buffer as before it. -/
def W2 (c : Dev nD) : Valuation τ sig (Elt F) :=
  Function.update (Function.update (W1 m c) main_call0_v1_0 ((dat1 (V1 m) c).arrAt 3 cfg1.N)) main_v0_1 ((dat1 (V1 m) c).arrAt 4 cfg1.N)
abbrev V2 : (c : Dev nD) → (b : Ref sig .tc) → Buf (Elt F) ((c : Thread nD τ).loc b) := fun c b => W2 m c b
theorem W2_t1 (c : Dev nD) : V2 m c main_call0_v1_0 = (dat1 (V1 m) c).arrAt 3 cfg1.N := by
  show W2 m c (Proc.devRef .tc main_call0_v1_0) = _
  unfold W2
  rw [Function.update_of_ne (StableHlo.devRef_ne_of_ne (by decide) : (Proc.devRef .tc main_call0_v1_0 : DevRef τ sig) ≠ Proc.devRef .tc main_v0_1)]
  exact Function.update_self ..
theorem W2_low (c : Dev nD) : V2 m c main_v0_1 = (dat1 (V1 m) c).arrAt 4 cfg1.N := by
  show W2 m c (Proc.devRef .tc main_v0_1) = _
  unfold W2
  exact Function.update_self ..
theorem W2_of_ne (c : Dev nD) (b : Ref sig .tc) (h1 : b ≠ main_call0_v1_0) (h2 : b ≠ main_v0_1) : V2 m c b = V1 m c b := by
  show W2 m c (Proc.devRef .tc b) = W1 m c (Proc.devRef .tc b)
  unfold W2
  rw [Function.update_of_ne (StableHlo.devRef_ne_of_ne h2 : (Proc.devRef .tc b : DevRef τ sig) ≠ Proc.devRef .tc main_v0_1),
    Function.update_of_ne (StableHlo.devRef_ne_of_ne h1 : (Proc.devRef .tc b : DevRef τ sig) ≠ Proc.devRef .tc main_call0_v1_0)]
theorem hF1 (c : Dev nD) (w : Fin cfg1.W) : (dat1 (V1 m) c).arrAt w cfg1.N = V2 m c (Pipeline.arrRef spec1 w) :=
  match w with
  | ⟨0, _⟩ => (((dat1 (V1 m) c).arrAt_in 0 rfl _).trans (A_eq1 (V1 m) c 0)).trans (W2_of_ne m c main_arg1 (by decide) (by decide)).symm
  | ⟨1, _⟩ => (((dat1 (V1 m) c).arrAt_in 1 rfl _).trans (A_eq1 (V1 m) c 1)).trans (W2_of_ne m c main_call0_v0 (by decide) (by decide)).symm
  | ⟨2, _⟩ => (((dat1 (V1 m) c).arrAt_in 2 rfl _).trans (A_eq1 (V1 m) c 2)).trans (W2_of_ne m c main_call0_v0 (by decide) (by decide)).symm
  | ⟨3, _⟩ => (W2_t1 m c).symm
  | ⟨4, _⟩ => (W2_low m c).symm
theorem hrest1 (c : Dev nD) : ∀ b, b ∉ Finset.univ.image (Pipeline.arrRef spec1) → V2 m c b = V1 m c b :=
  fun b hb => W2_of_ne m c b (fun e => hb (Finset.mem_image.mpr ⟨3, Finset.mem_univ _, e.symm⟩))
    (fun e => hb (Finset.mem_image.mpr ⟨4, Finset.mem_univ _, e.symm⟩))

/-- After the third pass: its arrays at what its write-backs leave, every other buffer as before it. -/
def W3 (c : Dev nD) : Valuation τ sig (Elt F) :=
  Pipeline.withArrays spec2 c (W2 m c) fun w => (dat2 (V2 m) c).arrAt w cfg2.N
theorem W3_arr (c : Dev nD) (w : Fin cfg2.W) :
    W3 m c (Proc.devRef .tc (Pipeline.arrRef spec2 w)) = (dat2 (V2 m) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m c (Proc.devRef .tc b) = W2 m c (Proc.devRef .tc b) := by
  unfold W3; exact Pipeline.withArrays_of_ne spec2 c _ _ b hb
abbrev V3 : (c : Dev nD) → (b : Ref sig .tc) → Buf (Elt F) ((c : Thread nD τ).loc b) := fun c b => W3 m c b
theorem hF2 (c : Dev nD) (w : Fin cfg2.W) : (dat2 (V2 m) c).arrAt w cfg2.N = V3 m c (Pipeline.arrRef spec2 w) :=
  (W3_arr m c w).symm
theorem hrest2 (c : Dev nD) : ∀ b, b ∉ Finset.univ.image (Pipeline.arrRef spec2) → V3 m c b = V2 m c b :=
  fun b hb => W3_of_ne m c b fun w e => hb (Finset.mem_image.mpr ⟨w, Finset.mem_univ _, e⟩)

/-! ## The proof data family and the thread state -/

/-- No pass has a prefetched table. -/
abbrev adm : (p : Fin 3) → (pcfgs (F := F) p).Adm := fun p => (cfgs p).toPCfg_adm
/-- Every pass's proof data, each at the contents its pass is entered with. -/
def pdats : (p : Fin 3) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
  | ⟨2, _⟩ => fun c => dat2 (V2 m) c
abbrev 𝒱₀ : Variants := Variants.none
/-- No core owes another anything. -/
abbrev L : GSem nD τ sig → Finset Unit := fun _ => ∅
abbrev lv : GSem nD τ sig → Unit → ℕ := fun _ _ => 0
/-- What rides beside the buffers between the passes: the generator register at some state, and nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W3 m c) ∗ ∃ r, prngReg c r)

-- a library lemma stated over the pinned configuration unifies with it only when unification may unfold plain
-- definitions in a metavariable's type
set_option backward.isDefEq.respectTransparency.types false in
/-- Pass 0 over the thread state: entered from every unscoped buffer at `W0`, left at `W1`. Its arrays are split
    out of the unscoped buffers and put back at the exit contents; the generator register goes into the pass's
    invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with it only when unification may unfold plain
-- definitions in a metavariable's type
set_option backward.isDefEq.respectTransparency.types false in
/-- Pass 1 over the thread state: entered from every unscoped buffer at `W1`, left at `W2`. Two of its windows read ONE
    array: the buffers behind its arrays are split out of the unscoped buffers, the shared one's share halved between
    the two windows (`arrays1_iff`), and at exit the halves are joined and the buffers put back. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit : (unscopedBufs (Ix := Unit) (Name := ℕ) (U := UR sig nD τ) (Lvl := ℕ) c (V1 m c) : sProp 𝕄)
        ⊢ iprop((dat1 (V1 m) c).arrays ((dat1 (V1 m) c).arrAt · 0) ∗ Pipeline.unscopedRest spec1 c (V1 m c)) := by
      rw [Pipeline.unscopedBufs_split₀ cfgs 1 winFacts₀1.arr_unscoped c (V1 m c)]
      exact sep_mono (arrays1_iff (V1 m) c (V1 m c) _ (fun w => A_eq1 (V1 m) c w)).2 .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (V1 m c))
        ⊢ (unscopedBufs (Ix := Unit) (Name := ℕ) (U := UR sig nD τ) (Lvl := ℕ) c (V2 m c) : sProp 𝕄) := by
      rw [Pipeline.unscopedBufs_split₀ cfgs 1 winFacts₀1.arr_unscoped c (V2 m c)]
      refine sep_mono (arrays1_iff (V1 m) c (V2 m c) _ (hF1 m c)).1 (Entails.of_eq ?_)
      unfold Pipeline.unscopedRest
      exact bigSep_congr fun b hb => by rw [hrest1 m c b (Finset.mem_sdiff.mp hb).2]
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

-- a library lemma stated over the pinned configuration unifies with it only when unification may unfold plain
-- definitions in a metavariable's type
set_option backward.isDefEq.respectTransparency.types false in
/-- Pass 2 over the thread state: entered from every unscoped buffer at `W2`, left at `W3`. Its arrays are split
    out of the unscoped buffers and put back at the exit contents; the generator register goes into the pass's
    invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V2 m) c).loose
  hwaits := Pipeline.hwaits_of_owed_zero _ _ _ _ L lv 2 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V2 m c) (V3 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's three passes in order. -/
abbrev segs : List (Pipeline.Seg (pcfgs (F := F)) adm (pdats m) () defs₀ 𝒱₀ L lv) :=
  [ .region (reg0 m), .region (reg1 m), .region (reg2 m) ]
/-- @main is the run of the three passes. -/
theorem main_run (c : Dev nD) : main (F := F) c = Pipeline.Seg.run (segs m) := (main_chain c).trans (by chain_rfl)

-- the launch theorem's implicit arguments are found by unifying its conclusion with this one, which takes unfolding
-- plain definitions in a metavariable's type
set_option backward.isDefEq.respectTransparency.types false in
/-- THE RUN, at any float values: from any memory with zero counters every weakly fair execution of @main on the
    TensorCore terminates, nothing faulting, and the final memory holds every unscoped buffer at `W3`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

/-! ## What the run leaves, buffer by buffer -/

/-- No pass writes `feature`: it ends as launched. -/
theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := W2_of_ne m c main_arg0 (by decide) (by decide)
    _ = (dat0 (V0 m) c).arrAt 0 cfg0.N := W1_arr m c 0
    _ = m ((c : Thread nD τ).loc main_arg0) := ((dat0 (V0 m) c).arrAt_in 0 rfl _).trans (A_eq0 (V0 m) c 0)
/-- No pass writes `adj`. -/
theorem W3_main_arg1 (c : Dev nD) : W3 m c (Proc.devRef .tc main_arg1) = m ((c : Thread nD τ).loc main_arg1) :=
  calc W3 m c (Proc.devRef .tc main_arg1)
    _ = (dat2 (V2 m) c).arrAt 0 cfg2.N := W3_arr m c 0
    _ = V2 m c main_arg1 := ((dat2 (V2 m) c).arrAt_in 0 rfl _).trans (A_eq2 (V2 m) c 0)
    _ = V1 m c main_arg1 := W2_of_ne m c main_arg1 (by decide) (by decide)
    _ = m ((c : Thread nD τ).loc main_arg1) := W1_of_ne m c main_arg1 (by decide)
/-- No pass writes `W`. -/
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := W2_of_ne m c main_arg2 (by decide) (by decide)
    _ = (dat0 (V0 m) c).arrAt 1 cfg0.N := W1_arr m c 1
    _ = m ((c : Thread nD τ).loc main_arg2) := ((dat0 (V0 m) c).arrAt_in 1 rfl _).trans (A_eq0 (V0 m) c 1)

/-- The three results, as the passes' proof data name them. -/
theorem W3_stacked (c : Dev nD) : W3 m c (Proc.devRef .tc main_v0_0) = (dat2 (V2 m) c).arrAt 5 cfg2.N := W3_arr m c 5
theorem W3_mid (c : Dev nD) : W3 m c (Proc.devRef .tc main_v0_2) = (dat2 (V2 m) c).arrAt 4 cfg2.N := W3_arr m c 4
theorem W3_low (c : Dev nD) : W3 m c (Proc.devRef .tc main_v0_1) = (dat1 (V1 m) c).arrAt 4 cfg1.N :=
  calc W3 m c (Proc.devRef .tc main_v0_1)
    _ = (dat2 (V2 m) c).arrAt 3 cfg2.N := W3_arr m c 3
    _ = V2 m c main_v0_1 := ((dat2 (V2 m) c).arrAt_in 3 rfl _).trans (A_eq2 (V2 m) c 3)
    _ = (dat1 (V1 m) c).arrAt 4 cfg1.N := W2_low m c

/-- What each pass is entered with, in terms of the launch memory and the passes before it. -/
theorem V1_support (c : Dev nD) : V1 m c main_call0_v0 = (dat0 (V0 m) c).arrAt 2 cfg0.N := W1_arr m c 2
theorem V1_main_arg1 (c : Dev nD) : V1 m c main_arg1 = m ((c : Thread nD τ).loc main_arg1) := W1_of_ne m c main_arg1 (by decide)
theorem V2_support (c : Dev nD) : V2 m c main_call0_v0 = V1 m c main_call0_v0 := W2_of_ne m c main_call0_v0 (by decide) (by decide)
theorem V2_main_arg1 (c : Dev nD) : V2 m c main_arg1 = m ((c : Thread nD τ).loc main_arg1) :=
  (W2_of_ne m c main_arg1 (by decide) (by decide)).trans (V1_main_arg1 m c)

/-- THE FRAME, at any float values: the run, read at the three argument arrays. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c)⟩) (run_main m ρ)

end Cert.Kernel.Frame

end
-- ==== Proof.SupportBody.lean ====
/-
  The first pass, `support = max (feature · W) 0`, one block of 512 rows per grid point (8 points).
  Window 0 is the block of `feature` rows, window 1 all of `W` (fetched once), window 2 the block of
  result rows.  At every point the body stores, over the whole result block, the payload
  `max (x · w) 0` of the two input blocks; so the result block after the body is that payload.
-/
import proofs.«179354_g65609920414006_cont_sun_m_687_5_alg».proof.Proof.Gen.KernelIdeal.Launch
import proofs.«179354_g65609920414006_cont_sun_m_687_5_alg».proof.Proof.Gen.KernelIdeal.Skeleton
import proofs.«179354_g65609920414006_cont_sun_m_687_5_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rowsF0 : Rect S512x256 := Rect.unit (s := S512x256) ![0, 0] S512x256.size inb_S512x256_S512x256_0_0
abbrev wholeW0 : Rect S256x128 := Rect.unit (s := S256x128) ![0, 0] S256x128.size inb_S256x128_S256x128_0_0
abbrev rowsS0 : Rect S512x128 := Rect.unit (s := S512x128) ![0, 0] S512x128.size inb_S512x128_S512x128_0_0

/-- The result block after the body: its one store, over the whole block, of `max (x · w) 0`. -/
def out0_2 (x0 : Vec F S512x256 .f32) (x1 : Vec F S256x128 .f32) : Vec F S512x128 .f32 :=
  View.canon [⟨rowsS0, k0_pay1 (View.ld x0 rowsF0) (View.ld x1 wholeW0)⟩]

/-- The first pass's proof data: arrays as found; inputs left in place, the result block at `out0_2`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-! ## The two input blocks as the body finds them

Both input windows are whole blocks (never cut), are live at every point, and the body only reads them.  So each
one's current staging buffer holds the array's block of the point: the rows of `feature` because they are brought
in afresh at each point, all of `W` because its block index never moves after the first point brought it in. -/

/-- The staging buffer of the `feature` rows holds the rows of the point. -/
theorem featureRows_staged (c : Dev nD) (t : Fin cfg0.N) (d) : (dat0 V c).before 0 t d = iblk0 V c 0 t := by
  have hleft : ∀ s, (cfg0.win 0).cut (cfg0.grid.coords s) ((dat0 V c).after 0 s) = (dat0 V c).blockOf 0 s := fun s => by
    rw [after0_0]; unfold Dat.blockOf iblk0; rw [A_eq0]
  rw [(dat0 V c).before_in_eq_fetched 0 rfl (fun _ => rfl) (fun _ _ _ => rfl) hleft t d]
  unfold Dat.fetched Dat.blockOf iblk0; rw [A_eq0]; rfl

/-- The staging buffer of `W` holds all of `W`, at the first point (which brings it in) and at every later one
    (which finds it there). -/
theorem weights_staged (c : Dev nD) (t : Fin cfg0.N) (d) : (dat0 V c).before 1 t d = iblk0 V c 1 t := by
  have hleft : ∀ s, (cfg0.win 1).cut (cfg0.grid.coords s) ((dat0 V c).after 1 s) = (dat0 V c).blockOf 1 s := fun s => by
    rw [after0_1]; unfold Dat.blockOf iblk0; rw [A_eq0]
  rw [(dat0 V c).before_in_eq_fetched 1 rfl (fun _ => rfl) (fun _ _ _ => rfl) hleft t d]
  unfold Dat.fetched Dat.blockOf iblk0; rw [A_eq0]; rfl

/-! ## The one store fills the result block -/

/-- The body's only store is over the rectangle that is the whole result block, so every index of the block lies
    under it. -/
theorem resultStore_covers (p : Vec F S512x128 .f32) (y : S512x128.Idx) :
    ∃ pc ∈ ([⟨rowsS0, p⟩] : List (View.Piece (Elt F) S512x128 .f32)), y ∈ pc.1.set :=
  View.cover_of_tiled [⟨rowsS0, p⟩] S512x128.size (by rfl) y

/-! ## The body on whole buffers -/

set_option maxHeartbeats 1000000 in
/-- Run on three whole buffers — the first reading `x`, the second reading `w`, the third holding anything — the
    body reads `x` and `w`, reads the third buffer without using what it read, and overwrites the third buffer
    whole with `max (x · w) 0`: the first two are left as they were and the third reads `out0_2 x w`. -/
theorem support_body_run (c : Dev nD) (E : Set ℕ) (i : grid0.Coords)
    (bx : Memref sig .tc .vmem S512x256 .f32) (hbx : bx.IsWhole)
    (bw : Memref sig .tc .vmem S256x128 .f32) (hbw : bw.IsWhole)
    (bo : Memref sig .tc .vmem S512x128 .f32) (hbo : bo.IsWhole)
    (x : Vec F S512x256 .f32) (w : Vec F S256x128 .f32) (K : PUnit → sProp 𝕄) :
    iprop(owns (c : Thread nD τ) bx fullShare x ∗ owns (c : Thread nD τ) bw fullShare w
        ∗ (∃ y, owns (c : Thread nD τ) bo fullShare y)
        ∗ (iprop(owns (c : Thread nD τ) bx fullShare x ∗ owns (c : Thread nD τ) bw fullShare w
            ∗ owns (c : Thread nD τ) bo fullShare (out0_2 x w)) -∗ K ⟨⟩))
      ⊢ wp frame (wpE (defs₀ (F := F)) Variants.none c none) E (cc0__support_body i bx hbx bw hbw bo hbo) K := by
  simp only [cc0__support_body_eq_skeleton]; unfold cc0__support_body_skel
  unfold owns
  iintro ⟨⟨%fx, %hx, Hx⟩, ⟨%fw, %hw, Hw⟩, ⟨%y, %fo, -, Ho⟩, Hk⟩
  subst hx; subst hw
  sl_exec
  sl_step
  iapply Hk
  isplitl [Hx]
  · iexists fx; isplitr
    · ipureintro; rfl
    · iexact Hx
  isplitl [Hw]
  · iexists fw; isplitr
    · ipureintro; rfl
    · iexact Hw
  iexists _; isplitr
  on_goal 2 => iexact Ho
  ipureintro
  unfold out0_2
  exact View.read_writes_eq_canon bo.view fo _ (resultStore_covers _)

/-! ## The body at a point of the grid -/

/-- The invariant is the same at every point: the body touches nothing of it. -/
theorem invariant_same (c : Dev nD) (k k' : Fin (cfg0.N + 1)) : (dat0 V c).Φ k = (dat0 V c).Φ k' := rfl

/-- The core owes nothing, at every point alike. -/
theorem owes_same (c : Dev nD) (k k' : Fin (cfg0.N + 1)) : (dat0 V c).owesAt () k = (dat0 V c).owesAt () k' := rfl

/-- What the body is handed at point `t`: the invariant, what the core owes, and the three current staging buffers
    at what they then hold. -/
def pointEntry0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What it hands back: the same invariant and debt, and the three buffers at what the proof data say it leaves. -/
def pointExit0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- At point `t` the first two buffers hold the rows of `feature` of the point and all of `W`; the third holds
    whatever it holds.  The body leaves the first two alone and fills the third with `max (rows · W) 0`, which is
    what the proof data name; the invariant and the debt are not looked at. -/
theorem support_body_at_point (c : Dev nD) (t : Fin cfg0.N) :
    pointEntry0 V c t ⊢ wp frame (wpE (defs₀ (F := F)) Variants.none c none) Set.univ (bodyAt0 t) (fun _ => pointExit0 V c t) := by
  unfold pointEntry0 pointExit0 bodyAt0
  rw [invariant_same V c t.succ t.castSucc, owes_same V c t.succ t.castSucc, after0_0, after0_1, after0_2]
  simp only [featureRows_staged, weights_staged]
  iintro ⟨Hinv, Hdebt, ⟨%d0, Hx⟩, ⟨%d1, Hw⟩, ⟨%d2, Ho⟩⟩
  iapply (support_body_run c Set.univ _ _ _ _ _ _ _ (iblk0 V c 0 t) (iblk0 V c 1 t) _)
  isplitl [Hx]; · iexact Hx
  isplitl [Hw]; · iexact Hw
  isplitl [Ho]; · iexists _; iexact Ho
  iintro ⟨Hx, Hw, Ho⟩
  isplitl [Hinv]; · iexact Hinv
  isplitl [Hdebt]; · iexact Hdebt
  isplitl [Hx]; · iexact Hx
  isplitl [Hw]; · iexact Hw
  iexact Ho

/-- The body obligation of the first pass, at every point. -/
theorem body_obligation0 (c : Dev nD) : BodyObligation (dat0 (F := F) V c) (defs₀ (F := F)) Variants.none () Set.univ := fun t => by
  rw [bigSep_W0, bigSep_W0]
  exact support_body_at_point V c t

end Cert.KernelIdeal.Frame

end
-- ==== Proof.PassOneBody.lean ====
/-
  The second pass, one block of 1024 rows per grid point (4 points): `t = adj_rows · support` and
  `low = t + support_rows`.  Window 0 is the block of `adj` rows, window 1 all of `support` (fetched
  once), window 2 the block of `support` rows, windows 3 and 4 the blocks of the two results.
  Windows 1 and 2 read ONE array, so each holds it at half the share.
-/
import proofs.«179354_g65609920414006_cont_sun_m_687_5_alg».proof.Proof.Gen.KernelIdeal.Launch
import proofs.«179354_g65609920414006_cont_sun_m_687_5_alg».proof.Proof.Gen.KernelIdeal.Skeleton
import proofs.«179354_g65609920414006_cont_sun_m_687_5_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rowsA1 : Rect S1024x4096 := Rect.unit (s := S1024x4096) ![0, 0] S1024x4096.size inb_S1024x4096_S1024x4096_0_0
abbrev wholeS1 : Rect S4096x128 := Rect.unit (s := S4096x128) ![0, 0] S4096x128.size inb_S4096x128_S4096x128_0_0
abbrev rowsN1 : Rect S1024x128 := Rect.unit (s := S1024x128) ![0, 0] S1024x128.size inb_S1024x128_S1024x128_0_0

/-- The block of `t` after the body: the product of the `adj` rows with all of `support`. -/
def out1_3 (x0 : Vec F S1024x4096 .f32) (x1 : Vec F S4096x128 .f32) : Vec F S1024x128 .f32 :=
  View.canon [⟨rowsN1, k1_pay1 (View.ld x0 rowsA1) (View.ld x1 wholeS1)⟩]

/-- The block of `low` after the body: that product plus the `support` rows. -/
def out1_4 (x0 : Vec F S1024x4096 .f32) (x1 : Vec F S4096x128 .f32) (x2 : Vec F S1024x128 .f32) : Vec F S1024x128 .f32 :=
  View.canon [⟨rowsN1, k1_pay2 (View.ld x0 rowsA1) (View.ld x1 wholeS1) (View.ld x2 rowsN1)⟩]

/-- The second pass's proof data; the two windows on `support` hold it at complementary half shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t)
    | ⟨4, _⟩ => out1_4 (iblk1 V c 0 t) (iblk1 V c 1 t) (iblk1 V c 2 t)
  Φ _ := Pipeline.ΦA spec1 c
  q w := match w with
    | ⟨1, _⟩ => fullShare.left
    | ⟨2, _⟩ => fullShare.right
    | _ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) := by dsimp only [dat1]
theorem after1_4 (c : Dev nD) (t : Fin cfg1.N) : (dat1 V c).after 4 t = out1_4 (iblk1 V c 0 t) (iblk1 V c 1 t) (iblk1 V c 2 t) := by dsimp only [dat1]

/-! ## What the body finds in the three input buffers

An input window's body leaves its block where it found it, no window is cut and none is ever idle, so at every
point the current buffer of the window holds the block of that point: fetched there, or, for all of `support`
(fetched at the first point only), still there from the first point since its block index never moves. -/

/-- The buffer of the `adj` rows holds the row block of point `t`. -/
theorem adjRows_found1 (c : Dev nD) (t : Fin cfg1.N) (d) : (dat1 V c).before 0 t d = iblk1 V c 0 t := by
  have hkeep : ∀ t, (cfg1.win 0).cut (cfg1.grid.coords t) ((dat1 V c).after 0 t) = (dat1 V c).blockOf 0 t := by
    intro t; rw [after1_0]; unfold Dat.blockOf iblk1; rw [A_eq1]
  rw [(dat1 V c).before_in_eq_fetched 0 rfl (fun _ => rfl) (fun _ _ _ => rfl) hkeep t d]
  unfold Dat.fetched Dat.blockOf iblk1; rw [A_eq1]; rfl

/-- The buffer of all of `support` holds all of it at every point, though it is fetched only at the first. -/
theorem support_found1 (c : Dev nD) (t : Fin cfg1.N) (d) : (dat1 V c).before 1 t d = iblk1 V c 1 t := by
  have hkeep : ∀ t, (cfg1.win 1).cut (cfg1.grid.coords t) ((dat1 V c).after 1 t) = (dat1 V c).blockOf 1 t := by
    intro t; rw [after1_1]; unfold Dat.blockOf iblk1; rw [A_eq1]
  rw [(dat1 V c).before_in_eq_fetched 1 rfl (fun _ => rfl) (fun _ _ _ => rfl) hkeep t d]
  unfold Dat.fetched Dat.blockOf iblk1; rw [A_eq1]; rfl

/-- The buffer of the `support` rows holds the row block of point `t`. -/
theorem supportRows_found1 (c : Dev nD) (t : Fin cfg1.N) (d) : (dat1 V c).before 2 t d = iblk1 V c 2 t := by
  have hkeep : ∀ t, (cfg1.win 2).cut (cfg1.grid.coords t) ((dat1 V c).after 2 t) = (dat1 V c).blockOf 2 t := by
    intro t; rw [after1_2]; unfold Dat.blockOf iblk1; rw [A_eq1]
  rw [(dat1 V c).before_in_eq_fetched 2 rfl (fun _ => rfl) (fun _ _ _ => rfl) hkeep t d]
  unfold Dat.fetched Dat.blockOf iblk1; rw [A_eq1]; rfl

/-! ## The one store into each result buffer covers it -/

/-- A single store of the whole 1024 × 128 block covers the block, whatever it stores. -/
theorem wholeBlock_covers1 (p0 : Vec F S1024x128 .f32) (y : S1024x128.Idx) :
    ∃ pc ∈ ([⟨rowsN1, p0⟩] : List (View.Piece (Elt F) S1024x128 .f32)), y ∈ pc.1.set :=
  View.cover_of_tiled [⟨rowsN1, p0⟩] S1024x128.size (by rfl) y

/-! ## The body on whole buffers -/

set_option maxHeartbeats 1000000 in
/-- The body, on five whole buffers of which the first three read `x0` (a block of `adj` rows), `x1` (all of
    `support`) and `x2` (a block of `support` rows) and the last two hold anything: it loads the three inputs,
    loads each result buffer once without using what it read, and stores the product over the fourth and the
    product plus `x2` over the fifth; the inputs are left as found. -/
theorem pass1_body_on_buffers (c : Dev nD) (E : Set ℕ) (i : grid1.Coords)
    (arg1 : Memref sig .tc .vmem S1024x4096 .f32) (harg1 : arg1.IsWhole)
    (arg2 : Memref sig .tc .vmem S4096x128 .f32) (harg2 : arg2.IsWhole)
    (arg3 : Memref sig .tc .vmem S1024x128 .f32) (harg3 : arg3.IsWhole)
    (arg4 : Memref sig .tc .vmem S1024x128 .f32) (harg4 : arg4.IsWhole)
    (arg5 : Memref sig .tc .vmem S1024x128 .f32) (harg5 : arg5.IsWhole)
    (x0 : Vec F S1024x4096 .f32) (x1 : Vec F S4096x128 .f32) (x2 : Vec F S1024x128 .f32) (K : PUnit → sProp 𝕄) :
    iprop(owns (c : Thread nD τ) arg1 fullShare x0 ∗ owns (c : Thread nD τ) arg2 fullShare x1
        ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
            ∗ owns (c : Thread nD τ) arg3 fullShare x2
            ∗ owns (c : Thread nD τ) arg4 fullShare (out1_3 x0 x1)
            ∗ owns (c : Thread nD τ) arg5 fullShare (out1_4 x0 x1 x2)) -∗ K ⟨⟩))
      ⊢ wp frame (wpE (defs₀ (F := F)) Variants.none c none) E
          (cc1__pass1_body i arg1 harg1 arg2 harg2 arg3 harg3 arg4 harg4 arg5 harg5) K := by
  simp only [cc1__pass1_body_eq_skeleton]; unfold cc1__pass1_body_skel
  unfold owns
  iintro ⟨⟨%f1, %hf1, H1⟩, ⟨%f2, %hf2, H2⟩, ⟨%f3, %hf3, H3⟩, ⟨%d4, %f4, -, H4⟩, ⟨%d5, %f5, -, H5⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (wholeBlock_covers1 _)
  iexists _; isplitr
  swap; · iexact H5
  ipureintro
  exact View.read_writes_eq_canon _ _ _ (wholeBlock_covers1 _)

/-! ## The body at a point of the grid -/

/-- What the body is handed at point `t`: the invariant, what the core owes, and the current buffer of each of the
    five windows at what it then holds. -/
def pass1_handed (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- What the body hands back: the invariant and the debts unchanged, the three input buffers at their blocks, the
    two result buffers at the product and at the product plus the `support` rows. -/
def pass1_returned (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the three input buffers hold the point's blocks, so the body's run on whole buffers
    applies; the invariant and the debts are not touched. -/
theorem pass1_body_at_point (c : Dev nD) (t : Fin cfg1.N) :
    pass1_handed V c t ⊢ wp frame (wpE (defs₀ (F := F)) Variants.none c none) Set.univ (bodyAt1 t)
      (fun _ => pass1_returned V c t) := by
  unfold pass1_handed pass1_returned bodyAt1
  simp only [adjRows_found1, support_found1, supportRows_found1]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (pass1_body_on_buffers c Set.univ _ _ _ _ _ _ _ _ _ _ _
    (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of the second pass, at every point. -/
theorem body_obligation1 (c : Dev nD) : BodyObligation (dat1 (F := F) V c) (defs₀ (F := F)) Variants.none () Set.univ := by
  intro t
  rw [bigSep_W1, bigSep_W1]
  exact pass1_body_at_point V c t

end Cert.KernelIdeal.Frame

end
-- ==== Proof.PassTwoBody.lean ====
/-
  The third pass, one block of 1024 rows per grid point (4 points): `mid = adj_rows · t - support_rows`,
  and the stacked result whose slice `[:, 0, :]` is the block of `low` and `[:, 1, :]` the block of `mid`.
  Window 0 is the block of `adj` rows, window 1 all of `t` (fetched once), windows 2 and 3 the blocks of
  `support` and `low` rows, window 4 the block of `mid`, window 5 the block (1024 × 2 × 128) of the
  stacked result, written by two stores that together tile it.
-/
import proofs.«179354_g65609920414006_cont_sun_m_687_5_alg».proof.Proof.Gen.KernelIdeal.Launch
import proofs.«179354_g65609920414006_cont_sun_m_687_5_alg».proof.Proof.Gen.KernelIdeal.Skeleton
import proofs.«179354_g65609920414006_cont_sun_m_687_5_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rowsA2 : Rect S1024x4096 := Rect.unit (s := S1024x4096) ![0, 0] S1024x4096.size inb_S1024x4096_S1024x4096_0_0
abbrev wholeT2 : Rect S4096x128 := Rect.unit (s := S4096x128) ![0, 0] S4096x128.size inb_S4096x128_S4096x128_0_0
abbrev rowsN2 : Rect S1024x128 := Rect.unit (s := S1024x128) ![0, 0] S1024x128.size inb_S1024x128_S1024x128_0_0
/-- The slice `[:, 0, :]` of the stacked block, -/
abbrev slice0 : Rect S1024x2x128 := Rect.unit (s := S1024x2x128) ![0, 0, 0] S1024x1x128.size inb_S1024x2x128_S1024x1x128_0_0_0
/-- and the slice `[:, 1, :]`. -/
abbrev slice1 : Rect S1024x2x128 := Rect.unit (s := S1024x2x128) ![0, 1, 0] S1024x1x128.size inb_S1024x2x128_S1024x1x128_0_1_0

/-- The block of `mid` after the body. -/
def out2_4 (x0 : Vec F S1024x4096 .f32) (x1 : Vec F S4096x128 .f32) (x2 : Vec F S1024x128 .f32) : Vec F S1024x128 .f32 :=
  View.canon [⟨rowsN2, k2_pay1 (View.ld x0 rowsA2) (View.ld x1 wholeT2) (View.ld x2 rowsN2)⟩]

/-- The stacked block after the body: its two stores, the later first. -/
def out2_5 (x0 : Vec F S1024x4096 .f32) (x1 : Vec F S4096x128 .f32) (x2 : Vec F S1024x128 .f32) (x3 : Vec F S1024x128 .f32) : Vec F S1024x2x128 .f32 :=
  View.canon [⟨slice1, k2_pay3 (View.ld x0 rowsA2) (View.ld x1 wholeT2) (View.ld x2 rowsN2)⟩, ⟨slice0, k2_pay2 (View.ld x3 rowsN2)⟩]

/-- The third pass's proof data. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t)
    | ⟨5, _⟩ => out2_5 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) := by dsimp only [dat2]
theorem after2_5 (c : Dev nD) (t : Fin cfg2.N) : (dat2 V c).after 5 t = out2_5 (iblk2 V c 0 t) (iblk2 V c 1 t) (iblk2 V c 2 t) (iblk2 V c 3 t) := by dsimp only [dat2]

/-! ## What the body finds in its input blocks

Windows 0, 2 and 3 move to a new block of rows at every point and are fetched there; window 1 is all of `t`,
fetched at the first point and left where it is afterwards, its block index never moving. In both cases the body
leaves the staging buffer as it found it, so at every point the buffer holds the window's block of its array. -/

/-- The block of `adj` rows is in window 0's staging buffer at every point. -/
theorem before2_0 (c : Dev nD) (t : Fin cfg2.N) (d) : (dat2 V c).before 0 t d = iblk2 V c 0 t := by
  have hkeep : ∀ t, (cfg2.win 0).cut (cfg2.grid.coords t) ((dat2 V c).after 0 t) = (dat2 V c).blockOf 0 t := fun t => by
    rw [after2_0]; unfold Dat.blockOf iblk2; rw [A_eq2]; try rfl
  rw [(dat2 V c).before_in_eq_fetched 0 rfl (fun _ => rfl) (fun _ _ _ => rfl) hkeep t d]
  unfold Dat.fetched Dat.blockOf iblk2; rw [A_eq2]; try rfl

/-- All of `t` is in window 1's staging buffer at every point, though fetched at the first only. -/
theorem before2_1 (c : Dev nD) (t : Fin cfg2.N) (d) : (dat2 V c).before 1 t d = iblk2 V c 1 t := by
  have hkeep : ∀ t, (cfg2.win 1).cut (cfg2.grid.coords t) ((dat2 V c).after 1 t) = (dat2 V c).blockOf 1 t := fun t => by
    rw [after2_1]; unfold Dat.blockOf iblk2; rw [A_eq2]; try rfl
  rw [(dat2 V c).before_in_eq_fetched 1 rfl (fun _ => rfl) (fun _ _ _ => rfl) hkeep t d]
  unfold Dat.fetched Dat.blockOf iblk2; rw [A_eq2]; try rfl

/-- The block of `support` rows is in window 2's staging buffer at every point. -/
theorem before2_2 (c : Dev nD) (t : Fin cfg2.N) (d) : (dat2 V c).before 2 t d = iblk2 V c 2 t := by
  have hkeep : ∀ t, (cfg2.win 2).cut (cfg2.grid.coords t) ((dat2 V c).after 2 t) = (dat2 V c).blockOf 2 t := fun t => by
    rw [after2_2]; unfold Dat.blockOf iblk2; rw [A_eq2]; try rfl
  rw [(dat2 V c).before_in_eq_fetched 2 rfl (fun _ => rfl) (fun _ _ _ => rfl) hkeep t d]
  unfold Dat.fetched Dat.blockOf iblk2; rw [A_eq2]; try rfl

/-- The block of `low` rows is in window 3's staging buffer at every point. -/
theorem before2_3 (c : Dev nD) (t : Fin cfg2.N) (d) : (dat2 V c).before 3 t d = iblk2 V c 3 t := by
  have hkeep : ∀ t, (cfg2.win 3).cut (cfg2.grid.coords t) ((dat2 V c).after 3 t) = (dat2 V c).blockOf 3 t := fun t => by
    rw [after2_3]; unfold Dat.blockOf iblk2; rw [A_eq2]; try rfl
  rw [(dat2 V c).before_in_eq_fetched 3 rfl (fun _ => rfl) (fun _ _ _ => rfl) hkeep t d]
  unfold Dat.fetched Dat.blockOf iblk2; rw [A_eq2]; try rfl

/-! ## The stores cover their blocks -/

/-- The one store of `mid` is the whole block (1024 × 128). -/
theorem cover2_4 (p0 : Vec F S1024x128 .f32) (y : S1024x128.Idx) :
    ∃ pc ∈ ([⟨rowsN2, p0⟩] : List (View.Piece (Elt F) S1024x128 .f32)), y ∈ pc.1.set :=
  View.cover_of_tiled [⟨rowsN2, p0⟩] S1024x128.size (by rfl) y

/-- The slices `[:, 1, :]` and `[:, 0, :]`, each 1024 × 1 × 128, are the two tiles of the stacked block along its
    middle axis: every index lies in one of them. -/
theorem cover2_5 (p1 p0 : Vec F S1024x1x128 .f32) (y : S1024x2x128.Idx) :
    ∃ pc ∈ ([⟨slice1, p1⟩, ⟨slice0, p0⟩] : List (View.Piece (Elt F) S1024x2x128 .f32)), y ∈ pc.1.set :=
  View.cover_of_tiled [⟨slice1, p1⟩, ⟨slice0, p0⟩] S1024x1x128.size (by rfl) y

/-! ## The body on whole staging buffers -/

set_option maxHeartbeats 1000000 in
/-- The body reads the rows of `adj`, all of `t` and the rows of `support`, stores `adj_rows · t - support_rows` over the
    whole block of `mid`, reads the rows of `low`, and stores them into slice `[:, 0, :]` and the value of `mid` into
    slice `[:, 1, :]` of the stacked block. What it loads of an output block before storing there is used by nothing.
    The four inputs are left as found; the outputs, whatever they held, end at the canon of their stores. -/
theorem sound_kernel2 (c : Dev nD) (E : Set ℕ) (i : grid2.Coords)
    (arg1 : Memref sig .tc .vmem S1024x4096 .f32) (harg1 : arg1.IsWhole)
    (arg2 : Memref sig .tc .vmem S4096x128 .f32) (harg2 : arg2.IsWhole)
    (arg3 : Memref sig .tc .vmem S1024x128 .f32) (harg3 : arg3.IsWhole)
    (arg4 : Memref sig .tc .vmem S1024x128 .f32) (harg4 : arg4.IsWhole)
    (arg5 : Memref sig .tc .vmem S1024x128 .f32) (harg5 : arg5.IsWhole)
    (arg6 : Memref sig .tc .vmem S1024x2x128 .f32) (harg6 : arg6.IsWhole)
    (x0 : Vec F S1024x4096 .f32) (x1 : Vec F S4096x128 .f32) (x2 : Vec F S1024x128 .f32) (x3 : Vec F S1024x128 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out2_4 x0 x1 x2)
            ∗ owns (c : Thread nD τ) arg6 fullShare (out2_5 x0 x1 x2 x3)) -∗ K ⟨⟩))
      ⊢ wp frame (wpE (defs₀ (F := F)) Variants.none c none) E
          (cc2__pass2_body i arg1 harg1 arg2 harg2 arg3 harg3 arg4 harg4 arg5 harg5 arg6 harg6) K := by
  simp only [cc2__pass2_body_eq_skeleton]; unfold cc2__pass2_body_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover2_4 _)
  iexists _; isplitr
  swap; · iexact H5
  ipureintro
  exact View.read_writes_eq_canon _ _ _ (cover2_5 _ _)

/-! ## The body obligation, at a generic point -/

/-- What the pipeline hands the body at point `t`: the invariant, the core's debt, and the six windows' current
    staging buffers, each whole and at what the proof data says it holds there, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what the body hands back. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the four input buffers hold their blocks, so the body's triple applies at those blocks;
    the invariant and the core's debt are not touched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the third pass, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Frame

end
-- ==== Proof.Run.lean ====
/-
  The run of the whole program: three passes one after the other, no host operation between them.

  Between two passes a core holds every unscoped buffer whole.  `W0` is the launch memory; `W1` differs from it in
  the `support` array, which holds what the first pass's write-backs leave; `W2` differs from `W1` in the arrays
  `t1` and `low`; `W3` differs from `W2` in `mid` and the stacked result.  Each pass is entered from every unscoped
  buffer at the contents before it and left at the contents after it; its arrays are split out of the unscoped
  buffers at entry and put back at exit.  The second pass hands ONE array (`support`) to two of its windows: the
  buffer's full share is split into its two halves at entry, one per window, and the halves — both still at
  the entry contents, the windows being inputs — are joined again at exit.
  The run ends with every unscoped buffer at `W3`; the arguments are written by no pass.
-/
import proofs.«179354_g65609920414006_cont_sun_m_687_5_alg».proof.Proof.SupportBody
import proofs.«179354_g65609920414006_cont_sun_m_687_5_alg».proof.Proof.PassOneBody
import proofs.«179354_g65609920414006_cont_sun_m_687_5_alg».proof.Proof.PassTwoBody
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

/-! ## The second pass's arrays and the buffers behind them -/

section Shared
variable (V : (c : Dev nD) → (b : Ref sig .tc) → Buf (Elt F) ((c : Thread nD τ).loc b))

/-- The five windows' arrays at contents read off `V'`, windows 1 and 2 at the two halves of the share, are the four
    buffers behind them whole at `V'`: the shared buffer's halves split or joined. -/
theorem arrays1_iff (c : Dev nD) (V' : (b : Ref sig .tc) → Buf (Elt F) ((c : Thread nD τ).loc b))
    (G : (w : Fin cfg1.W) → Buf (Elt F) ((cfg1.win w).arr.view.loc (c : Thread nD τ)))
    (hG : ∀ w, G w = V' (Pipeline.arrRef spec1 w)) :
    ((dat1 V c).arrays G : sProp 𝕄) ⊣⊢ Pipeline.arrBufs spec1 c V' := by
  obtain rfl : G = fun w => V' (Pipeline.arrRef spec1 w) := funext hG
  unfold Dat.arrays Pipeline.arrBufs
  rw [bigSep_W1]
  rw [bigSep_eq_bigSepL_of_eq [main_arg1, main_call0_v0, main_call0_v1_0, main_v0_1] (by decide) (by decide)]
  rw [(arr_whole1 0).set_eq_univ, (arr_whole1 1).set_eq_univ, (arr_whole1 3).set_eq_univ, (arr_whole1 4).set_eq_univ]
  rw [show (dat1 V c).share 0 = fullShare from rfl, show (dat1 V c).share 1 = fullShare.left from rfl,
    show (dat1 V c).share 2 = fullShare.right from rfl, show (dat1 V c).share 3 = fullShare from rfl,
    show (dat1 V c).share 4 = fullShare from rfl]
  have hsh := pointsTo_share (Ix := Unit) (Name := ℕ) (U := UR sig nD τ) (Lvl := ℕ) (ℓ := (c : Thread nD τ).loc main_call0_v0) (I := Finset.univ) (f := V' main_call0_v0)
    (PosShare.mem_left_op_right fullShare)
  show _ ⊣⊢ iprop((((c : Thread nD τ).loc main_arg1) ↦{fullShare} V' main_arg1) ∗ (((c : Thread nD τ).loc main_call0_v0) ↦{fullShare} V' main_call0_v0)
    ∗ (((c : Thread nD τ).loc main_call0_v1_0) ↦{fullShare} V' main_call0_v1_0) ∗ (((c : Thread nD τ).loc main_v0_1) ↦{fullShare} V' main_v0_1))
  refine ⟨?_, ?_⟩
  · iintro ⟨H0, H1, H2, H3, H4⟩
    isplitl [H0]; · iexact H0
    isplitl [H1 H2]
    · iapply hsh.2
      isplitl [H1]; · iexact H1
      iexact H2
    isplitl [H3]; · iexact H3
    iexact H4
  · iintro ⟨H0, H12, H3, H4⟩
    ihave H' := hsh.1 $$ H12
    icases H' with ⟨H1, H2⟩
    isplitl [H0]; · iexact H0
    isplitl [H1]; · iexact H1
    isplitl [H2]; · iexact H2
    isplitl [H3]; · iexact H3
    iexact H4

end Shared

variable (m : (ℓ : Loc nD τ sig) → Buf (Elt F) ℓ) (ρ : Dev nD → PrngReg)

/-! ## The buffer contents between the passes -/

/-- Core `c`'s buffers at launch. -/
abbrev W0 : Dev nD → Valuation τ sig (Elt F) := fun c b => m ((c : Dev nD), b)
abbrev V0 : (c : Dev nD) → (b : Ref sig .tc) → Buf (Elt F) ((c : Thread nD τ).loc b) := fun c b => W0 m c b

/-- After the first pass: its arrays at what its write-backs leave, every other buffer as launched. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the second pass: `t1` and `low` at what its write-backs leave, every other buffer as before it. -/
def W2 (c : Dev nD) : Valuation τ sig (Elt F) :=
  Function.update (Function.update (W1 m c) main_call0_v1_0 ((dat1 (V1 m) c).arrAt 3 cfg1.N)) main_v0_1 ((dat1 (V1 m) c).arrAt 4 cfg1.N)
abbrev V2 : (c : Dev nD) → (b : Ref sig .tc) → Buf (Elt F) ((c : Thread nD τ).loc b) := fun c b => W2 m c b
theorem W2_t1 (c : Dev nD) : V2 m c main_call0_v1_0 = (dat1 (V1 m) c).arrAt 3 cfg1.N := by
  show W2 m c (Proc.devRef .tc main_call0_v1_0) = _
  unfold W2
  rw [Function.update_of_ne (StableHlo.devRef_ne_of_ne (by decide) : (Proc.devRef .tc main_call0_v1_0 : DevRef τ sig) ≠ Proc.devRef .tc main_v0_1)]
  exact Function.update_self ..
theorem W2_low (c : Dev nD) : V2 m c main_v0_1 = (dat1 (V1 m) c).arrAt 4 cfg1.N := by
  show W2 m c (Proc.devRef .tc main_v0_1) = _
  unfold W2
  exact Function.update_self ..
theorem W2_of_ne (c : Dev nD) (b : Ref sig .tc) (h1 : b ≠ main_call0_v1_0) (h2 : b ≠ main_v0_1) : V2 m c b = V1 m c b := by
  show W2 m c (Proc.devRef .tc b) = W1 m c (Proc.devRef .tc b)
  unfold W2
  rw [Function.update_of_ne (StableHlo.devRef_ne_of_ne h2 : (Proc.devRef .tc b : DevRef τ sig) ≠ Proc.devRef .tc main_v0_1),
    Function.update_of_ne (StableHlo.devRef_ne_of_ne h1 : (Proc.devRef .tc b : DevRef τ sig) ≠ Proc.devRef .tc main_call0_v1_0)]
theorem hF1 (c : Dev nD) (w : Fin cfg1.W) : (dat1 (V1 m) c).arrAt w cfg1.N = V2 m c (Pipeline.arrRef spec1 w) :=
  match w with
  | ⟨0, _⟩ => (((dat1 (V1 m) c).arrAt_in 0 rfl _).trans (A_eq1 (V1 m) c 0)).trans (W2_of_ne m c main_arg1 (by decide) (by decide)).symm
  | ⟨1, _⟩ => (((dat1 (V1 m) c).arrAt_in 1 rfl _).trans (A_eq1 (V1 m) c 1)).trans (W2_of_ne m c main_call0_v0 (by decide) (by decide)).symm
  | ⟨2, _⟩ => (((dat1 (V1 m) c).arrAt_in 2 rfl _).trans (A_eq1 (V1 m) c 2)).trans (W2_of_ne m c main_call0_v0 (by decide) (by decide)).symm
  | ⟨3, _⟩ => (W2_t1 m c).symm
  | ⟨4, _⟩ => (W2_low m c).symm
theorem hrest1 (c : Dev nD) : ∀ b, b ∉ Finset.univ.image (Pipeline.arrRef spec1) → V2 m c b = V1 m c b :=
  fun b hb => W2_of_ne m c b (fun e => hb (Finset.mem_image.mpr ⟨3, Finset.mem_univ _, e.symm⟩))
    (fun e => hb (Finset.mem_image.mpr ⟨4, Finset.mem_univ _, e.symm⟩))

/-- After the third pass: its arrays at what its write-backs leave, every other buffer as before it. -/
def W3 (c : Dev nD) : Valuation τ sig (Elt F) :=
  Pipeline.withArrays spec2 c (W2 m c) fun w => (dat2 (V2 m) c).arrAt w cfg2.N
theorem W3_arr (c : Dev nD) (w : Fin cfg2.W) :
    W3 m c (Proc.devRef .tc (Pipeline.arrRef spec2 w)) = (dat2 (V2 m) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m c (Proc.devRef .tc b) = W2 m c (Proc.devRef .tc b) := by
  unfold W3; exact Pipeline.withArrays_of_ne spec2 c _ _ b hb
abbrev V3 : (c : Dev nD) → (b : Ref sig .tc) → Buf (Elt F) ((c : Thread nD τ).loc b) := fun c b => W3 m c b
theorem hF2 (c : Dev nD) (w : Fin cfg2.W) : (dat2 (V2 m) c).arrAt w cfg2.N = V3 m c (Pipeline.arrRef spec2 w) :=
  (W3_arr m c w).symm
theorem hrest2 (c : Dev nD) : ∀ b, b ∉ Finset.univ.image (Pipeline.arrRef spec2) → V3 m c b = V2 m c b :=
  fun b hb => W3_of_ne m c b fun w e => hb (Finset.mem_image.mpr ⟨w, Finset.mem_univ _, e⟩)

/-! ## The proof data family and the thread state -/

/-- No pass has a prefetched table. -/
abbrev adm : (p : Fin 3) → (pcfgs (F := F) p).Adm := fun p => (cfgs p).toPCfg_adm
/-- Every pass's proof data, each at the contents its pass is entered with. -/
def pdats : (p : Fin 3) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
  | ⟨2, _⟩ => fun c => dat2 (V2 m) c
abbrev 𝒱₀ : Variants := Variants.none
/-- No core owes another anything. -/
abbrev L : GSem nD τ sig → Finset Unit := fun _ => ∅
abbrev lv : GSem nD τ sig → Unit → ℕ := fun _ _ => 0
/-- What rides beside the buffers between the passes: the generator register at some state, and nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W3 m c) ∗ ∃ r, prngReg c r)

-- a library lemma stated over the pinned configuration unifies with it only when unification may unfold plain
-- definitions in a metavariable's type
set_option backward.isDefEq.respectTransparency.types false in
/-- Pass 0 over the thread state: entered from every unscoped buffer at `W0`, left at `W1`. Its arrays are split
    out of the unscoped buffers and put back at the exit contents; the generator register goes into the pass's
    invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with it only when unification may unfold plain
-- definitions in a metavariable's type
set_option backward.isDefEq.respectTransparency.types false in
/-- Pass 1 over the thread state: entered from every unscoped buffer at `W1`, left at `W2`. Two of its windows read ONE
    array: the buffers behind its arrays are split out of the unscoped buffers, the shared one's share halved between
    the two windows (`arrays1_iff`), and at exit the halves are joined and the buffers put back. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit : (unscopedBufs (Ix := Unit) (Name := ℕ) (U := UR sig nD τ) (Lvl := ℕ) c (V1 m c) : sProp 𝕄)
        ⊢ iprop((dat1 (V1 m) c).arrays ((dat1 (V1 m) c).arrAt · 0) ∗ Pipeline.unscopedRest spec1 c (V1 m c)) := by
      rw [Pipeline.unscopedBufs_split₀ cfgs 1 winFacts₀1.arr_unscoped c (V1 m c)]
      exact sep_mono (arrays1_iff (V1 m) c (V1 m c) _ (fun w => A_eq1 (V1 m) c w)).2 .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (V1 m c))
        ⊢ (unscopedBufs (Ix := Unit) (Name := ℕ) (U := UR sig nD τ) (Lvl := ℕ) c (V2 m c) : sProp 𝕄) := by
      rw [Pipeline.unscopedBufs_split₀ cfgs 1 winFacts₀1.arr_unscoped c (V2 m c)]
      refine sep_mono (arrays1_iff (V1 m) c (V2 m c) _ (hF1 m c)).1 (Entails.of_eq ?_)
      unfold Pipeline.unscopedRest
      exact bigSep_congr fun b hb => by rw [hrest1 m c b (Finset.mem_sdiff.mp hb).2]
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

-- a library lemma stated over the pinned configuration unifies with it only when unification may unfold plain
-- definitions in a metavariable's type
set_option backward.isDefEq.respectTransparency.types false in
/-- Pass 2 over the thread state: entered from every unscoped buffer at `W2`, left at `W3`. Its arrays are split
    out of the unscoped buffers and put back at the exit contents; the generator register goes into the pass's
    invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V2 m) c).loose
  hwaits := Pipeline.hwaits_of_owed_zero _ _ _ _ L lv 2 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V2 m c) (V3 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's three passes in order. -/
abbrev segs : List (Pipeline.Seg (pcfgs (F := F)) adm (pdats m) () defs₀ 𝒱₀ L lv) :=
  [ .region (reg0 m), .region (reg1 m), .region (reg2 m) ]
/-- @main is the run of the three passes. -/
theorem main_run (c : Dev nD) : main (F := F) c = Pipeline.Seg.run (segs m) := (main_chain c).trans (by chain_rfl)

-- the launch theorem's implicit arguments are found by unifying its conclusion with this one, which takes unfolding
-- plain definitions in a metavariable's type
set_option backward.isDefEq.respectTransparency.types false in
/-- THE RUN, at any float values: from any memory with zero counters every weakly fair execution of @main on the
    TensorCore terminates, nothing faulting, and the final memory holds every unscoped buffer at `W3`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

/-! ## What the run leaves, buffer by buffer -/

/-- No pass writes `feature`: it ends as launched. -/
theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := W2_of_ne m c main_arg0 (by decide) (by decide)
    _ = (dat0 (V0 m) c).arrAt 0 cfg0.N := W1_arr m c 0
    _ = m ((c : Thread nD τ).loc main_arg0) := ((dat0 (V0 m) c).arrAt_in 0 rfl _).trans (A_eq0 (V0 m) c 0)
/-- No pass writes `adj`. -/
theorem W3_main_arg1 (c : Dev nD) : W3 m c (Proc.devRef .tc main_arg1) = m ((c : Thread nD τ).loc main_arg1) :=
  calc W3 m c (Proc.devRef .tc main_arg1)
    _ = (dat2 (V2 m) c).arrAt 0 cfg2.N := W3_arr m c 0
    _ = V2 m c main_arg1 := ((dat2 (V2 m) c).arrAt_in 0 rfl _).trans (A_eq2 (V2 m) c 0)
    _ = V1 m c main_arg1 := W2_of_ne m c main_arg1 (by decide) (by decide)
    _ = m ((c : Thread nD τ).loc main_arg1) := W1_of_ne m c main_arg1 (by decide)
/-- No pass writes `W`. -/
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := W2_of_ne m c main_arg2 (by decide) (by decide)
    _ = (dat0 (V0 m) c).arrAt 1 cfg0.N := W1_arr m c 1
    _ = m ((c : Thread nD τ).loc main_arg2) := ((dat0 (V0 m) c).arrAt_in 1 rfl _).trans (A_eq0 (V0 m) c 1)

/-- The three results, as the passes' proof data name them. -/
theorem W3_stacked (c : Dev nD) : W3 m c (Proc.devRef .tc main_v0_0) = (dat2 (V2 m) c).arrAt 5 cfg2.N := W3_arr m c 5
theorem W3_mid (c : Dev nD) : W3 m c (Proc.devRef .tc main_v0_2) = (dat2 (V2 m) c).arrAt 4 cfg2.N := W3_arr m c 4
theorem W3_low (c : Dev nD) : W3 m c (Proc.devRef .tc main_v0_1) = (dat1 (V1 m) c).arrAt 4 cfg1.N :=
  calc W3 m c (Proc.devRef .tc main_v0_1)
    _ = (dat2 (V2 m) c).arrAt 3 cfg2.N := W3_arr m c 3
    _ = V2 m c main_v0_1 := ((dat2 (V2 m) c).arrAt_in 3 rfl _).trans (A_eq2 (V2 m) c 3)
    _ = (dat1 (V1 m) c).arrAt 4 cfg1.N := W2_low m c

/-- What each pass is entered with, in terms of the launch memory and the passes before it. -/
theorem V1_support (c : Dev nD) : V1 m c main_call0_v0 = (dat0 (V0 m) c).arrAt 2 cfg0.N := W1_arr m c 2
theorem V1_main_arg1 (c : Dev nD) : V1 m c main_arg1 = m ((c : Thread nD τ).loc main_arg1) := W1_of_ne m c main_arg1 (by decide)
theorem V2_support (c : Dev nD) : V2 m c main_call0_v0 = V1 m c main_call0_v0 := W2_of_ne m c main_call0_v0 (by decide) (by decide)
theorem V2_main_arg1 (c : Dev nD) : V2 m c main_arg1 = m ((c : Thread nD τ).loc main_arg1) :=
  (W2_of_ne m c main_arg1 (by decide) (by decide)).trans (V1_main_arg1 m c)

/-- THE FRAME, at any float values: the run, read at the three argument arrays. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c)⟩) (run_main m ρ)

end Cert.KernelIdeal.Frame

end
-- ==== Proof.Spec.lean ====
/-
  The mathematics both programs compute, as functions of whole arrays over the extended reals.

  With `S = support f w = max (f · w) 0` (a 4096 × 128 array), the kernel's three passes leave
    `prod a S`              (the product `adj · S`),
    `low a S  = adj · S + S`,
    `subProd a (prod a S) S = adj · (adj · S) - S`,
  and the stacked array whose slice `[:, 0, :]` is the first and `[:, 1, :]` the second result.
  The reference forms `(adj + I) · S` and `(adj · adj - I) · S` with `I` the identity matrix
  (`eye`); `refLow` and `refMid` spell those.  That the two spellings agree is a statement about
  real matrices (distributivity, and exchanging two finite sums); it is proved where every entry is real.
-/
import Idealize.ShloMosaic.PureOps.Ideal
import Idealize.ShloMosaic.Lib.ValueIdx

noncomputable section

namespace Cert.Spec

open Idealize.ShloMosaic Idealize.ShloMosaic.ValueIdx

/-- feature : 4096 × 256 -/
abbrev SFeat : Shape := ⟨2, ![4096, 256]⟩
/-- adj : 4096 × 4096 -/
abbrev SAdj : Shape := ⟨2, ![4096, 4096]⟩
/-- W : 256 × 128 -/
abbrev SWt : Shape := ⟨2, ![256, 128]⟩
/-- a node array : 4096 × 128 -/
abbrev SNode : Shape := ⟨2, ![4096, 128]⟩
/-- the stacked result : 4096 × 2 × 128 -/
abbrev SPair : Shape := ⟨3, ![4096, 2, 128]⟩

/-- An array all of whose entries are real numbers (neither infinity). -/
def IsReal {s : Shape} (x : s.Idx → EReal) : Prop := ∀ i, ∃ r : ℝ, x i = (r : EReal)

/-- `max (f · w) 0`, entry `(p, q)`: the sum over `k` of `f p k * w k q`, cut below at zero. -/
def supportAt (f : SFeat.Idx → EReal) (w : SWt.Idx → EReal) (p : Fin 4096) (q : Fin 128) : EReal :=
  max (∑ k : Fin 256, f (ix2 p k) * w (ix2 k q)) 0

def support (f : SFeat.Idx → EReal) (w : SWt.Idx → EReal) : SNode.Idx → EReal :=
  fun i => supportAt f w (i 0) (i 1)

/-- `a · s`, entry `(p, q)`. -/
def prodAt (a : SAdj.Idx → EReal) (s : SNode.Idx → EReal) (p : Fin 4096) (q : Fin 128) : EReal :=
  ∑ k : Fin 4096, a (ix2 p k) * s (ix2 k q)

def prod (a : SAdj.Idx → EReal) (s : SNode.Idx → EReal) : SNode.Idx → EReal :=
  fun i => prodAt a s (i 0) (i 1)

/-- `a · s + s`. -/
def low (a : SAdj.Idx → EReal) (s : SNode.Idx → EReal) : SNode.Idx → EReal :=
  fun i => prod a s i + s i

/-- `a · t - s`. -/
def subProd (a : SAdj.Idx → EReal) (t s : SNode.Idx → EReal) : SNode.Idx → EReal :=
  fun i => prod a t i - s i

/-- The two node arrays side by side on a new middle axis of extent two. -/
def stacked (lo mi : SNode.Idx → EReal) : SPair.Idx → EReal :=
  fun i => if (i 1).val = 0 then lo (ix2 (i 0) (i 2)) else mi (ix2 (i 0) (i 2))

/-- The identity matrix's entry. -/
def eye (p k : Fin 4096) : EReal := (((if p = k then 1 else 0 : ℕ) : ℝ) : EReal)

/-- `(a + I) · s`, entry by entry. -/
def refLow (a : SAdj.Idx → EReal) (s : SNode.Idx → EReal) : SNode.Idx → EReal :=
  fun i => ∑ k : Fin 4096, (a (ix2 (i 0) k) + eye (i 0) k) * s (ix2 k (i 1))

/-- `(a · a - I) · s`, entry by entry. -/
def refMid (a : SAdj.Idx → EReal) (s : SNode.Idx → EReal) : SNode.Idx → EReal :=
  fun i => ∑ k : Fin 4096, ((∑ l : Fin 4096, a (ix2 (i 0) l) * a (ix2 l k)) - eye (i 0) k) * s (ix2 k (i 1))

end Cert.Spec

end
-- ==== Proof.SupportValue.lean ====
/-
  What the first pass leaves in the `support` array: block `t` of the array is the body's payload of
  rows `512 t … 512 t + 511` of `feature` and all of `W`; a matrix product into a zero accumulator is the plain
  sum over the contracted axis, so entry `(p, q)` is `max (∑ k, feature p k * W k q) 0`; the eight blocks
  cover the array.
-/
import proofs.«179354_g65609920414006_cont_sun_m_687_5_alg».proof.Proof.SupportBody
import proofs.«179354_g65609920414006_cont_sun_m_687_5_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Frame
open Idealize.ShloMosaic Idealize.ShloMosaic.TcCoe Idealize.ShloMosaic.ValueIdx
open Idealize.SL Idealize.SL.Sem
open Idealize.ShloMosaic.Pipeline (Dat)

-- the TensorCore's buffer contents when the region is entered, at the extended reals
variable (V : (c : Dev nD) → (b : Ref sig .tc) → Buf (Elt Ideal) ((c : Thread nD τ).loc b))

/-- The offsets of a whole-block rectangle are zero on both axes. -/
theorem support_zeroOffsets : (![0, 0] : Fin 2 → Nat) = fun _ => 0 := funext fun a => by
  match a with
  | ⟨0, _⟩ => rfl
  | ⟨1, _⟩ => rfl

/-! ## The product's operand indices, axis by axis -/

theorem lhs_support_0 (i : S512x128.Idx) (q : dot_S512x256_S256x128_S512x128_1_0_0_1_n_n.contr.Idx) :
    (dot_S512x256_S256x128_S512x128_1_0_0_1_n_n.lhsIdx i q 0).val = (i 0).val := by
  unfold DotDims.lhsIdx
  rw [dif_neg (show ¬(0 : Fin S512x256.rank) ∈ dot_S512x256_S256x128_S512x128_1_0_0_1_n_n.lhsBatch by decide), dif_pos (show (0 : Fin S512x256.rank) ∈ dot_S512x256_S256x128_S512x128_1_0_0_1_n_n.lhsNonContracting by decide)]
  rfl
theorem lhs_support_1 (i : S512x128.Idx) (q : dot_S512x256_S256x128_S512x128_1_0_0_1_n_n.contr.Idx) :
    (dot_S512x256_S256x128_S512x128_1_0_0_1_n_n.lhsIdx i q 1).val = (q ⟨0, by decide⟩).val :=
  dot_S512x256_S256x128_S512x128_1_0_0_1_n_n.lhsIdx_val_of_single rfl i q
theorem rhs_support_0 (i : S512x128.Idx) (q : dot_S512x256_S256x128_S512x128_1_0_0_1_n_n.contr.Idx) :
    (dot_S512x256_S256x128_S512x128_1_0_0_1_n_n.rhsIdx i q 0).val = (q ⟨0, by decide⟩).val :=
  dot_S512x256_S256x128_S512x128_1_0_0_1_n_n.rhsIdx_val_of_single rfl i q
theorem rhs_support_1 (i : S512x128.Idx) (q : dot_S512x256_S256x128_S512x128_1_0_0_1_n_n.contr.Idx) :
    (dot_S512x256_S256x128_S512x128_1_0_0_1_n_n.rhsIdx i q 1).val = (i 1).val := by
  unfold DotDims.rhsIdx
  rw [dif_neg (show ¬(1 : Fin S256x128.rank) ∈ dot_S512x256_S256x128_S512x128_1_0_0_1_n_n.rhsBatch by decide), dif_pos (show (1 : Fin S256x128.rank) ∈ dot_S512x256_S256x128_S512x128_1_0_0_1_n_n.rhsNonContracting by decide)]
  rfl

/-- The block product into a zero accumulator, entry `(p, q)`: the sum over `k` of `x p k * w k q`. -/
theorem support_product_apply (x : FVec Ideal S512x256 .f32) (w : FVec Ideal S256x128 .f32) (p : Fin 512) (q : Fin 128) :
    FloatOps.matmul dot_S512x256_S256x128_S512x128_1_0_0_1_n_n none x w (constant (F := Ideal) S512x128 .f32 0x00000000#32) (ix2 p q)
      = ∑ k : Fin 256, x (ix2 p k) * w (ix2 k q) := by
  refine (Ideal.matmul_constant_zero_apply dot_S512x256_S256x128_S512x128_1_0_0_1_n_n none x w (ix2 p q)).trans ?_
  rw [← Equiv.sum_comp (ValueIdx.contrEquiv1 dot_S512x256_S256x128_S512x128_1_0_0_1_n_n 256 rfl rfl).symm]
  refine Finset.sum_congr rfl fun k _ => ?_
  have hk := ValueIdx.contrEquiv1_symm_val dot_S512x256_S256x128_S512x128_1_0_0_1_n_n 256 rfl rfl k
  have el : dot_S512x256_S256x128_S512x128_1_0_0_1_n_n.lhsIdx (ix2 p q) ((ValueIdx.contrEquiv1 dot_S512x256_S256x128_S512x128_1_0_0_1_n_n 256 rfl rfl).symm k) = ix2 p k := funext fun a => Fin.ext (by
    match a with
    | ⟨0, _⟩ => exact lhs_support_0 _ _
    | ⟨1, _⟩ => exact (lhs_support_1 _ _).trans hk)
  have er : dot_S512x256_S256x128_S512x128_1_0_0_1_n_n.rhsIdx (ix2 p q) ((ValueIdx.contrEquiv1 dot_S512x256_S256x128_S512x128_1_0_0_1_n_n 256 rfl rfl).symm k) = ix2 k q := funext fun a => Fin.ext (by
    match a with
    | ⟨0, _⟩ => exact (rhs_support_0 _ _).trans hk
    | ⟨1, _⟩ => exact rhs_support_1 _ _)
  rw [el, er]

/-- The body's payload, entry `(p, q)`: `max (∑ k, x p k * w k q) 0`. -/
theorem support_payload_apply (x : Vec Ideal S512x256 .f32) (w : Vec Ideal S256x128 .f32) (p : Fin 512) (q : Fin 128) :
    k0_pay1 (F := Ideal) x w (ix2 p q) = max (∑ k : Fin 256, x (ix2 p k) * w (ix2 k q)) 0 := by
  unfold k0_pay1
  refine (maximumf_apply _ _ (ix2 p q)).trans ?_
  refine congrArg₂ max (support_product_apply x w p q) ?_
  exact Ideal.ofBits_zero_f32

/-- Row `p` of block `n` (of eight blocks of 512 rows) is a row of the array. -/
theorem support_block_row_lt (n : Nat) (hn : n < 8) (p : Fin 512) : n * 512 + p.val < 4096 := by
  have := p.isLt; omega

/-- The payload of a block `x` that is rows `512 n …` of `f`, with `w` all of `g`, is that block of rows of
    `support f g`: entry `j` of the payload is entry `i` of `support f g` when `i` is `j` moved down `512 n` rows. -/
theorem support_payload_rows (x : Vec Ideal S512x256 .f32) (w : Vec Ideal S256x128 .f32)
    (f : Cert.Spec.SFeat.Idx → EReal) (g : Cert.Spec.SWt.Idx → EReal) (n : Nat) (hn : n < 8)
    (hx : ∀ (p : Fin 512) (k : Fin 256), x (ix2 p k) = f (ix2 (⟨n * 512 + p.val, support_block_row_lt n hn p⟩ : Fin 4096) k))
    (hw : ∀ (k : Fin 256) (q : Fin 128), w (ix2 k q) = g (ix2 k q))
    (j : S512x128.Idx) (i : Cert.Spec.SNode.Idx)
    (h0 : (i 0).val = n * 512 + (j 0).val) (h1 : (i 1).val = (j 1).val) :
    k0_pay1 (F := Ideal) x w j = Cert.Spec.support f g i := by
  obtain ⟨p, q, rfl⟩ : ∃ (p : Fin 512) (q : Fin 128), j = ix2 p q := ⟨j 0, j 1, eq_ix2 j⟩
  obtain ⟨r, q', rfl⟩ : ∃ (r : Fin 4096) (q' : Fin 128), i = ix2 r q' := ⟨i 0, i 1, eq_ix2 i⟩
  have hr : r = ⟨n * 512 + p.val, support_block_row_lt n hn p⟩ := Fin.ext h0
  have hq : q' = q := Fin.ext h1
  subst hr hq
  rw [support_payload_apply]
  show _ = max (∑ k : Fin 256, f (ix2 _ k) * g (ix2 k _)) 0
  simp only [hx, hw]

/-! ## The index maps over the grid, and each input block read off its array -/

/-- Point `t` fetches block `(t, 0)` of `feature`, block `(0, 0)` of `W`, and writes back block `(t, 0)` of the result. -/
theorem support_index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The `feature` block at point `t` is rows `512 t … 512 t + 511` of the array. -/
theorem support_feature_block_apply (c : Dev nD) (t : Fin cfg0.N) (ht : t.val < 8) (p : Fin 512) (k : Fin 256) :
    (iblk0 V c 0 t : Vec Ideal S512x256 .f32) (ix2 p k)
      = (V c main_arg0 : S4096x256.Idx → Elt Ideal .f32) (ix2 (⟨t.val * 512 + p.val, support_block_row_lt t.val ht p⟩ : Fin 4096) k) := by
  obtain ⟨e0, e1, -, -, -, -⟩ := support_index_facts t
  show V c main_arg0 (((cfg0.win 0).blk t).view.emb (ix2 p k)) = V c main_arg0 _
  refine congrArg (V c main_arg0) ?_
  funext a; apply Fin.ext
  match a with
  | ⟨0, _⟩ => show win0_0.index t (0 : Fin 2) * 512 + 1 * p.val = t.val * 512 + p.val; omega
  | ⟨1, _⟩ => show win0_0.index t (1 : Fin 2) * 256 + 1 * k.val = k.val; omega

/-- The `W` block at every point is the whole array. -/
theorem support_weight_block_apply (c : Dev nD) (t : Fin cfg0.N) (k : Fin 256) (q : Fin 128) :
    (iblk0 V c 1 t : Vec Ideal S256x128 .f32) (ix2 k q) = (V c main_arg2 : S256x128.Idx → Elt Ideal .f32) (ix2 k q) := by
  obtain ⟨-, -, e2, e3, -, -⟩ := support_index_facts t
  show V c main_arg2 (((cfg0.win 1).blk t).view.emb (ix2 k q)) = V c main_arg2 _
  refine congrArg (V c main_arg2) ?_
  funext a; apply Fin.ext
  match a with
  | ⟨0, _⟩ => show win0_1.index t (0 : Fin 2) * 256 + 1 * k.val = k.val; omega
  | ⟨1, _⟩ => show win0_1.index t (1 : Fin 2) * 128 + 1 * q.val = q.val; omega

/-! ## From the blocks to the array -/

/-- What point `t` writes back is block `t` of `support` of the two arrays as the pass finds them. -/
theorem support_flushed (c : Dev nD) (t : Fin cfg0.N) :
    (dat0 V c).flushed 2 t = ((cfg0.win 2).blk t).view.read (Elt Ideal) (Cert.Spec.support (V c main_arg0) (V c main_arg2)) := by
  have ht : t.val < 8 := Nat.lt_of_lt_of_eq t.isLt N_0
  show (cfg0.win 2).cut (grid0.coords t) ((dat0 V c).after 2 t) = _
  rw [after0_2]
  unfold out0_2
  rw [View.canon_unit_zero support_zeroOffsets]
  simp only [View.ld_unit_zero (S := S512x256) support_zeroOffsets, View.ld_unit_zero (S := S256x128) support_zeroOffsets]
  obtain ⟨-, -, -, -, e4, e5⟩ := support_index_facts t
  funext j
  show k0_pay1 (F := Ideal) (iblk0 V c 0 t) (iblk0 V c 1 t) (win0_2.xinj (grid0.coords t) j)
    = Cert.Spec.support (V c main_arg0) (V c main_arg2) (((cfg0.win 2).blk t).view.emb j)
  refine support_payload_rows (iblk0 V c 0 t) (iblk0 V c 1 t) (V c main_arg0) (V c main_arg2) t.val ht
    (support_feature_block_apply V c t ht) (support_weight_block_apply V c t) (win0_2.xinj (grid0.coords t) j) (((cfg0.win 2).blk t).view.emb j) ?_ ?_
  · show win0_2.index t (0 : Fin 2) * 512 + 1 * (j 0).val = t.val * 512 + (j 0).val; omega
  · show win0_2.index t (1 : Fin 2) * 128 + 1 * (j 1).val = (j 1).val; omega

/-- An index of the result array is in point `t`'s block iff each coordinate is in the block's range on its axis. -/
theorem support_mem_block (t : Fin cfg0.N) (i : S4096x128.Idx) :
    i ∈ ((cfg0.win 2).blk t).view.set ↔ ∀ a : Fin 2, win0_2.index t a * S512x128.size a ≤ (i a).val ∧ (i a).val < win0_2.index t a * S512x128.size a + S512x128.size a := by
  show i ∈ ((View.whole main_call0_v0).slice (win0_2.rect t)).set ↔ _
  rw [View.set_slice_whole, Rect.mem_set_unit]
  exact Iff.rfl

/-- Row `r` of the result array is in the block of point `r / 512`: the eight blocks cover the array. -/
theorem support_cover (i : S4096x128.Idx) :
    ∃ t : Fin cfg0.N, (cfg0.win 2).flush t = true ∧ i ∈ ((cfg0.win 2).blk t).view.set := by
  have hi0 : (i 0).val < 4096 := (i 0).isLt
  have hi1 : (i 1).val < 128 := (i 1).isLt
  have hN : cfg0.N = 8 := N_0
  let t : Fin cfg0.N := ⟨(i 0).val / 512, by rw [hN]; omega⟩
  have htv : t.val = (i 0).val / 512 := rfl
  obtain ⟨-, -, -, -, e4, e5⟩ := support_index_facts t
  refine ⟨t, flush0_2 t, ?_⟩
  rw [support_mem_block]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 128 ≤ (i 1).val ∧ (i 1).val < win0_2.index t (1 : Fin 2) * 128 + 128; omega

/-- After the first pass the `support` array is `max (feature · W) 0` of the arrays the pass found. -/
theorem support_final (c : Dev nD) :
    (dat0 V c).arrAt 2 cfg0.N = Cert.Spec.support (V c main_arg0) (V c main_arg2) := by
  exact (dat0 V c).arrAt_eq_of_cover 2 (Cert.Spec.support (V c main_arg0) (V c main_arg2))
    (fun t _ => support_flushed V c t) support_cover

end Cert.KernelIdeal.Val

end
-- ==== Proof.PassOneValue.lean ====
/-
  What the second pass leaves: block `t` of `t1` is the product of rows `1024 t …` of `adj` with all of
  `support`, block `t` of `low` that product plus the same rows of `support`; four blocks cover each array.
-/
import proofs.«179354_g65609920414006_cont_sun_m_687_5_alg».proof.Proof.PassOneBody
import proofs.«179354_g65609920414006_cont_sun_m_687_5_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Frame
open Idealize.ShloMosaic Idealize.ShloMosaic.TcCoe Idealize.ShloMosaic.ValueIdx
open Idealize.SL Idealize.SL.Sem
open Idealize.ShloMosaic.Pipeline (Dat)

-- the TensorCore's buffer contents when the region is entered, at the extended reals
variable (V : (c : Dev nD) → (b : Ref sig .tc) → Buf (Elt Ideal) ((c : Thread nD τ).loc b))

namespace PassOne

/-! ## The body's two results at an index -/

-- the four axis readings of the contraction of the `adj` rows (axis 1) with `support` (axis 0)
theorem prodLhs_row (i : S1024x128.Idx) (q : dot_S1024x4096_S4096x128_S1024x128_1_0_0_1_n_n.contr.Idx) :
    (dot_S1024x4096_S4096x128_S1024x128_1_0_0_1_n_n.lhsIdx i q 0).val = (i 0).val := by
  unfold DotDims.lhsIdx
  rw [dif_neg (show ¬(0 : Fin S1024x4096.rank) ∈ dot_S1024x4096_S4096x128_S1024x128_1_0_0_1_n_n.lhsBatch by decide), dif_pos (show (0 : Fin S1024x4096.rank) ∈ dot_S1024x4096_S4096x128_S1024x128_1_0_0_1_n_n.lhsNonContracting by decide)]
  rfl
theorem prodLhs_contr (i : S1024x128.Idx) (q : dot_S1024x4096_S4096x128_S1024x128_1_0_0_1_n_n.contr.Idx) :
    (dot_S1024x4096_S4096x128_S1024x128_1_0_0_1_n_n.lhsIdx i q 1).val = (q ⟨0, by decide⟩).val :=
  dot_S1024x4096_S4096x128_S1024x128_1_0_0_1_n_n.lhsIdx_val_of_single rfl i q
theorem prodRhs_contr (i : S1024x128.Idx) (q : dot_S1024x4096_S4096x128_S1024x128_1_0_0_1_n_n.contr.Idx) :
    (dot_S1024x4096_S4096x128_S1024x128_1_0_0_1_n_n.rhsIdx i q 0).val = (q ⟨0, by decide⟩).val :=
  dot_S1024x4096_S4096x128_S1024x128_1_0_0_1_n_n.rhsIdx_val_of_single rfl i q
theorem prodRhs_col (i : S1024x128.Idx) (q : dot_S1024x4096_S4096x128_S1024x128_1_0_0_1_n_n.contr.Idx) :
    (dot_S1024x4096_S4096x128_S1024x128_1_0_0_1_n_n.rhsIdx i q 1).val = (i 1).val := by
  unfold DotDims.rhsIdx
  rw [dif_neg (show ¬(1 : Fin S4096x128.rank) ∈ dot_S1024x4096_S4096x128_S1024x128_1_0_0_1_n_n.rhsBatch by decide), dif_pos (show (1 : Fin S4096x128.rank) ∈ dot_S1024x4096_S4096x128_S1024x128_1_0_0_1_n_n.rhsNonContracting by decide)]
  rfl

/-- Entry `(p, q)` of the product block: the sum over `k` of row `p` of the `adj` block times column `q` of `support`. -/
theorem rowsTimesSupport_apply (x0 : Vec Ideal S1024x4096 .f32) (x1 : Vec Ideal S4096x128 .f32) (p : Fin 1024) (q : Fin 128) :
    k1_pay1 (F := Ideal) x0 x1 (ix2 p q) = ∑ k : Fin 4096, x0 (ix2 p k) * x1 (ix2 k q) := by
  unfold k1_pay1
  rw [shapeCast_self]
  simp only [matmul]
  rw [Ideal.matmul_constant_zero_apply, ← Equiv.sum_comp (ValueIdx.contrEquiv1 dot_S1024x4096_S4096x128_S1024x128_1_0_0_1_n_n 4096 rfl rfl).symm]
  refine Finset.sum_congr rfl fun k _ => ?_
  have hk := ValueIdx.contrEquiv1_symm_val dot_S1024x4096_S4096x128_S1024x128_1_0_0_1_n_n 4096 rfl rfl k
  have el : dot_S1024x4096_S4096x128_S1024x128_1_0_0_1_n_n.lhsIdx (ix2 p q) ((ValueIdx.contrEquiv1 dot_S1024x4096_S4096x128_S1024x128_1_0_0_1_n_n 4096 rfl rfl).symm k) = ix2 p k := funext fun a => Fin.ext (by
    match a with
    | ⟨0, _⟩ => exact prodLhs_row _ _
    | ⟨1, _⟩ => exact (prodLhs_contr _ _).trans hk)
  have er : dot_S1024x4096_S4096x128_S1024x128_1_0_0_1_n_n.rhsIdx (ix2 p q) ((ValueIdx.contrEquiv1 dot_S1024x4096_S4096x128_S1024x128_1_0_0_1_n_n 4096 rfl rfl).symm k) = ix2 k q := funext fun a => Fin.ext (by
    match a with
    | ⟨0, _⟩ => exact (prodRhs_contr _ _).trans hk
    | ⟨1, _⟩ => exact prodRhs_col _ _)
  rw [el, er]

/-- Entry `(p, q)` of the `low` block: that sum plus entry `(p, q)` of the block of `support` rows. -/
theorem rowsTimesSupportPlus_apply (x0 : Vec Ideal S1024x4096 .f32) (x1 : Vec Ideal S4096x128 .f32) (x2 : Vec Ideal S1024x128 .f32)
    (p : Fin 1024) (q : Fin 128) :
    k1_pay2 (F := Ideal) x0 x1 x2 (ix2 p q) = (∑ k : Fin 4096, x0 (ix2 p k) * x1 (ix2 k q)) + x2 (ix2 p q) := by
  unfold k1_pay2
  rw [shapeCast_self, addf_apply, rowsTimesSupport_apply]

/-! ## From the blocks to the arrays -/

theorem zeroOffsets : (![0, 0] : Fin 2 → Nat) = fun _ => 0 := funext fun a => by fin_cases a <;> rfl

/-- The block as the body leaves it for `t1`, entry by entry. -/
theorem prodBlock_eq (x0 : Vec Ideal S1024x4096 .f32) (x1 : Vec Ideal S4096x128 .f32) :
    out1_3 (F := Ideal) x0 x1 = fun j => ∑ k : Fin 4096, x0 (ix2 (j 0) k) * x1 (ix2 k (j 1)) := by
  unfold out1_3
  rw [View.canon_unit_zero zeroOffsets]
  simp only [View.ld_unit_zero (S := S1024x4096) zeroOffsets, View.ld_unit_zero (S := S4096x128) zeroOffsets]
  funext j
  obtain ⟨p, q, rfl⟩ : ∃ (p : Fin 1024) (q : Fin 128), j = ix2 p q := ⟨j 0, j 1, eq_ix2 j⟩
  exact rowsTimesSupport_apply x0 x1 p q

/-- The block as the body leaves it for `low`, entry by entry. -/
theorem lowBlock_eq (x0 : Vec Ideal S1024x4096 .f32) (x1 : Vec Ideal S4096x128 .f32) (x2 : Vec Ideal S1024x128 .f32) :
    out1_4 (F := Ideal) x0 x1 x2 = fun j => (∑ k : Fin 4096, x0 (ix2 (j 0) k) * x1 (ix2 k (j 1))) + x2 (ix2 (j 0) (j 1)) := by
  unfold out1_4
  rw [View.canon_unit_zero zeroOffsets]
  simp only [View.ld_unit_zero (S := S1024x4096) zeroOffsets, View.ld_unit_zero (S := S4096x128) zeroOffsets,
    View.ld_unit_zero (S := S1024x128) zeroOffsets]
  funext j
  obtain ⟨p, q, rfl⟩ : ∃ (p : Fin 1024) (q : Fin 128), j = ix2 p q := ⟨j 0, j 1, eq_ix2 j⟩
  exact rowsTimesSupportPlus_apply x0 x1 x2 p q

/-- The index maps over the four points: every row-block window sits at block row `t`, block column 0;
    the window on all of `support` at block (0, 0). -/
theorem blockIndex : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- Point `t`'s three input blocks, at their literal shapes: 1024 rows of `adj`, all of `support`, 1024 rows of `support`. -/
abbrev adjRowsAt (c : Dev nD) (t : Fin cfg1.N) : Vec Ideal S1024x4096 .f32 := iblk1 V c 0 t
abbrev supportAllAt (c : Dev nD) (t : Fin cfg1.N) : Vec Ideal S4096x128 .f32 := iblk1 V c 1 t
abbrev supportRowsAt (c : Dev nD) (t : Fin cfg1.N) : Vec Ideal S1024x128 .f32 := iblk1 V c 2 t

/-- Entry `(p, k)` of the block of `adj` rows at point `t` is entry `(1024 t + p, k)` of `adj`. -/
theorem adjRows_apply (c : Dev nD) (t : Fin cfg1.N) (p : Fin 1024) (k : Fin 4096) (r : Fin 4096)
    (hr : r.val = 1024 * t.val + p.val) :
    adjRowsAt V c t (ix2 p k) = (V c main_arg1 : S4096x4096.Idx → Elt Ideal .f32) (ix2 r k) := by
  obtain ⟨e0, e1, -⟩ := blockIndex t
  show iblk1 V c _ t _ = _
  unfold iblk1
  rw [View.read_apply]
  show V c main_arg1 _ = V c main_arg1 _
  congr 1
  funext a
  apply Fin.ext
  match a with
  | ⟨0, _⟩ => show win1_0.index t 0 * 1024 + 1 * p.val = r.val; rw [e0, hr]; omega
  | ⟨1, _⟩ => show win1_0.index t 1 * 4096 + 1 * k.val = k.val; rw [e1]; omega

/-- The block of all of `support` is `support`. -/
theorem supportAll_apply (c : Dev nD) (t : Fin cfg1.N) (k : Fin 4096) (q : Fin 128) :
    supportAllAt V c t (ix2 k q) = (V c main_call0_v0 : S4096x128.Idx → Elt Ideal .f32) (ix2 k q) := by
  obtain ⟨-, -, e0, e1, -⟩ := blockIndex t
  show iblk1 V c _ t _ = _
  unfold iblk1
  rw [View.read_apply]
  show V c main_call0_v0 _ = V c main_call0_v0 _
  congr 1
  funext a
  apply Fin.ext
  match a with
  | ⟨0, _⟩ => show win1_1.index t 0 * 4096 + 1 * k.val = k.val; rw [e0]; omega
  | ⟨1, _⟩ => show win1_1.index t 1 * 128 + 1 * q.val = q.val; rw [e1]; omega

/-- Entry `(p, q)` of the block of `support` rows at point `t` is entry `(1024 t + p, q)` of `support`. -/
theorem supportRows_apply (c : Dev nD) (t : Fin cfg1.N) (p : Fin 1024) (q : Fin 128) (r : Fin 4096)
    (hr : r.val = 1024 * t.val + p.val) :
    supportRowsAt V c t (ix2 p q) = (V c main_call0_v0 : S4096x128.Idx → Elt Ideal .f32) (ix2 r q) := by
  obtain ⟨-, -, -, -, e0, e1, -⟩ := blockIndex t
  show iblk1 V c _ t _ = _
  unfold iblk1
  rw [View.read_apply]
  show V c main_call0_v0 _ = V c main_call0_v0 _
  congr 1
  funext a
  apply Fin.ext
  match a with
  | ⟨0, _⟩ => show win1_2.index t 0 * 1024 + 1 * p.val = r.val; rw [e0, hr]; omega
  | ⟨1, _⟩ => show win1_2.index t 1 * 128 + 1 * q.val = q.val; rw [e1]; omega

/-- Row `p` of point `t`'s product block is row `1024 t + p` of `adj · support`. -/
theorem prodBlock_entry (c : Dev nD) (t : Fin cfg1.N) (p : Fin 1024) (q : Fin 128) (r : Fin 4096) (s : Fin 128)
    (hr : r.val = 1024 * t.val + p.val) (hs : s.val = q.val) :
    ∑ k : Fin 4096, adjRowsAt V c t (ix2 p k) * supportAllAt V c t (ix2 k q)
      = Cert.Spec.prodAt (V c main_arg1) (V c main_call0_v0) r s := by
  obtain rfl : s = q := Fin.ext hs
  unfold Cert.Spec.prodAt
  refine Finset.sum_congr rfl fun k _ => ?_
  rw [adjRows_apply V c t p k r hr, supportAll_apply V c t k s]

/-- What point `t` writes back to `t1` is block `t` of `adj · support`. -/
theorem flushed_prod (c : Dev nD) (t : Fin cfg1.N) :
    (dat1 V c).flushed 3 t
      = ((cfg1.win 3).blk t).view.read (Elt Ideal) (Cert.Spec.prod (V c main_arg1) (V c main_call0_v0)) := by
  show (cfg1.win 3).cut (grid1.coords t) ((dat1 V c).after 3 t) = _
  rw [after1_3, prodBlock_eq (iblk1 V c 0 t) (iblk1 V c 1 t)]
  obtain ⟨-, -, -, -, -, -, e0, e1, -⟩ := blockIndex t
  funext j
  show (∑ k : Fin 4096, adjRowsAt V c t (ix2 (j 0) k) * supportAllAt V c t (ix2 k (j 1)))
    = Cert.Spec.prodAt (V c main_arg1) (V c main_call0_v0) (((cfg1.win 3).blk t).view.emb j 0) (((cfg1.win 3).blk t).view.emb j 1)
  refine prodBlock_entry V c t (j 0) (j 1) _ _ ?_ ?_
  · show win1_3.index t 0 * 1024 + 1 * (j 0).val = 1024 * t.val + (j 0).val; rw [e0]; omega
  · show win1_3.index t 1 * 128 + 1 * (j 1).val = (j 1).val; rw [e1]; omega

/-- What point `t` writes back to `low` is block `t` of `adj · support + support`. -/
theorem flushed_low (c : Dev nD) (t : Fin cfg1.N) :
    (dat1 V c).flushed 4 t
      = ((cfg1.win 4).blk t).view.read (Elt Ideal) (Cert.Spec.low (V c main_arg1) (V c main_call0_v0)) := by
  show (cfg1.win 4).cut (grid1.coords t) ((dat1 V c).after 4 t) = _
  rw [after1_4, lowBlock_eq (iblk1 V c 0 t) (iblk1 V c 1 t) (iblk1 V c 2 t)]
  obtain ⟨-, -, -, -, -, -, -, -, e0, e1⟩ := blockIndex t
  funext j
  have hr : (((cfg1.win 4).blk t).view.emb j 0).val = 1024 * t.val + (j 0).val := by
    show win1_4.index t 0 * 1024 + 1 * (j 0).val = 1024 * t.val + (j 0).val; rw [e0]; omega
  have hs : (((cfg1.win 4).blk t).view.emb j 1).val = (j 1).val := by
    show win1_4.index t 1 * 128 + 1 * (j 1).val = (j 1).val; rw [e1]; omega
  show (∑ k : Fin 4096, adjRowsAt V c t (ix2 (j 0) k) * supportAllAt V c t (ix2 k (j 1)))
      + supportRowsAt V c t (ix2 (j 0) (j 1))
    = Cert.Spec.prodAt (V c main_arg1) (V c main_call0_v0) (((cfg1.win 4).blk t).view.emb j 0) (((cfg1.win 4).blk t).view.emb j 1)
      + (V c main_call0_v0 : S4096x128.Idx → Elt Ideal .f32) (((cfg1.win 4).blk t).view.emb j)
  rw [prodBlock_entry V c t (j 0) (j 1) _ _ hr hs, supportRows_apply V c t (j 0) (j 1) _ hr]
  congr 2
  funext a
  apply Fin.ext
  match a with
  | ⟨0, _⟩ => rfl
  | ⟨1, _⟩ => exact hs.symm

/-- Row `r` of `t1` lies in the block of point `r / 1024`. -/
theorem prodBlocks_cover (i : S4096x128.Idx) :
    ∃ t : Fin cfg1.N, (cfg1.win 3).flush t = true ∧ i ∈ ((cfg1.win 3).blk t).view.set := by
  have hi0 : (i 0).val < 4096 := (i 0).isLt
  have hi1 : (i 1).val < 128 := (i 1).isLt
  have hN : grid1.N = 4 := N_1
  let t : Fin cfg1.N := ⟨(i 0).val / 1024, by show (i 0).val / 1024 < grid1.N; rw [hN]; omega⟩
  have ht : t.val = (i 0).val / 1024 := rfl
  obtain ⟨-, -, -, -, -, -, e0, e1, -⟩ := blockIndex t
  refine ⟨t, flush1_3 t, ?_⟩
  show i ∈ ((View.whole main_call0_v1_0).slice (win1_3.rect t)).set
  rw [View.set_slice_whole, Rect.mem_set_unit]
  intro a
  match a with
  | ⟨0, _⟩ => show win1_3.index t 0 * 1024 ≤ (i 0).val ∧ (i 0).val < win1_3.index t 0 * 1024 + 1024; rw [e0, ht]; omega
  | ⟨1, _⟩ => show win1_3.index t 1 * 128 ≤ (i 1).val ∧ (i 1).val < win1_3.index t 1 * 128 + 128; rw [e1]; omega

/-- Row `r` of `low` lies in the block of point `r / 1024`. -/
theorem lowBlocks_cover (i : S4096x128.Idx) :
    ∃ t : Fin cfg1.N, (cfg1.win 4).flush t = true ∧ i ∈ ((cfg1.win 4).blk t).view.set := by
  have hi0 : (i 0).val < 4096 := (i 0).isLt
  have hi1 : (i 1).val < 128 := (i 1).isLt
  have hN : grid1.N = 4 := N_1
  let t : Fin cfg1.N := ⟨(i 0).val / 1024, by show (i 0).val / 1024 < grid1.N; rw [hN]; omega⟩
  have ht : t.val = (i 0).val / 1024 := rfl
  obtain ⟨-, -, -, -, -, -, -, -, e0, e1⟩ := blockIndex t
  refine ⟨t, flush1_4 t, ?_⟩
  show i ∈ ((View.whole main_v0_1).slice (win1_4.rect t)).set
  rw [View.set_slice_whole, Rect.mem_set_unit]
  intro a
  match a with
  | ⟨0, _⟩ => show win1_4.index t 0 * 1024 ≤ (i 0).val ∧ (i 0).val < win1_4.index t 0 * 1024 + 1024; rw [e0, ht]; omega
  | ⟨1, _⟩ => show win1_4.index t 1 * 128 ≤ (i 1).val ∧ (i 1).val < win1_4.index t 1 * 128 + 128; rw [e1]; omega

end PassOne

open PassOne

/-- After the second pass the array `t1` is `adj · support` of the arrays the pass found, -/
theorem prod_final (c : Dev nD) :
    (dat1 V c).arrAt 3 cfg1.N = Cert.Spec.prod (V c main_arg1) (V c main_call0_v0) := by
  exact (dat1 V c).arrAt_eq_of_cover 3 _ (fun t _ => flushed_prod V c t) prodBlocks_cover

/-- and the array `low` is `adj · support + support`. -/
theorem low_final (c : Dev nD) :
    (dat1 V c).arrAt 4 cfg1.N = Cert.Spec.low (V c main_arg1) (V c main_call0_v0) := by
  exact (dat1 V c).arrAt_eq_of_cover 4 _ (fun t _ => flushed_low V c t) lowBlocks_cover

end Cert.KernelIdeal.Val

end
-- ==== Proof.PassTwoValue.lean ====
/-
  What the third pass leaves: block `t` of `mid` is the product of rows `1024 t …` of `adj` with all of
  `t1`, less the same rows of `support`; block `t` of the stacked array holds the rows of `low` in its slice
  `[:, 0, :]` and those of `mid` in `[:, 1, :]`; four blocks cover each array.
-/
import proofs.«179354_g65609920414006_cont_sun_m_687_5_alg».proof.Proof.PassTwoBody
import proofs.«179354_g65609920414006_cont_sun_m_687_5_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Frame
open Idealize.ShloMosaic Idealize.ShloMosaic.TcCoe Idealize.ShloMosaic.ValueIdx
open Idealize.SL Idealize.SL.Sem
open Idealize.ShloMosaic.Pipeline (Dat)

/-! ## The product of a block of rows with `t1`, entry by entry -/

/-- The left operand's row coordinate is the result's row, -/
theorem lhs_rowsTimesNode_0 (i : S1024x128.Idx) (q : dot_S1024x4096_S4096x128_S1024x128_1_0_0_1_n_n.contr.Idx) :
    (dot_S1024x4096_S4096x128_S1024x128_1_0_0_1_n_n.lhsIdx i q 0).val = (i 0).val := by
  unfold DotDims.lhsIdx
  rw [dif_neg (show ¬(0 : Fin S1024x4096.rank) ∈ dot_S1024x4096_S4096x128_S1024x128_1_0_0_1_n_n.lhsBatch by decide), dif_pos (show (0 : Fin S1024x4096.rank) ∈ dot_S1024x4096_S4096x128_S1024x128_1_0_0_1_n_n.lhsNonContracting by decide)]
  rfl
/-- its column coordinate the summation index; -/
theorem lhs_rowsTimesNode_1 (i : S1024x128.Idx) (q : dot_S1024x4096_S4096x128_S1024x128_1_0_0_1_n_n.contr.Idx) :
    (dot_S1024x4096_S4096x128_S1024x128_1_0_0_1_n_n.lhsIdx i q 1).val = (q ⟨0, by decide⟩).val :=
  dot_S1024x4096_S4096x128_S1024x128_1_0_0_1_n_n.lhsIdx_val_of_single rfl i q
/-- the right operand's row coordinate is the summation index, -/
theorem rhs_rowsTimesNode_0 (i : S1024x128.Idx) (q : dot_S1024x4096_S4096x128_S1024x128_1_0_0_1_n_n.contr.Idx) :
    (dot_S1024x4096_S4096x128_S1024x128_1_0_0_1_n_n.rhsIdx i q 0).val = (q ⟨0, by decide⟩).val :=
  dot_S1024x4096_S4096x128_S1024x128_1_0_0_1_n_n.rhsIdx_val_of_single rfl i q
/-- its column coordinate the result's column. -/
theorem rhs_rowsTimesNode_1 (i : S1024x128.Idx) (q : dot_S1024x4096_S4096x128_S1024x128_1_0_0_1_n_n.contr.Idx) :
    (dot_S1024x4096_S4096x128_S1024x128_1_0_0_1_n_n.rhsIdx i q 1).val = (i 1).val := by
  unfold DotDims.rhsIdx
  rw [dif_neg (show ¬(1 : Fin S4096x128.rank) ∈ dot_S1024x4096_S4096x128_S1024x128_1_0_0_1_n_n.rhsBatch by decide), dif_pos (show (1 : Fin S4096x128.rank) ∈ dot_S1024x4096_S4096x128_S1024x128_1_0_0_1_n_n.rhsNonContracting by decide)]
  rfl

/-- Entry `(p, q)` of the block of `mid`: the sum over `k` of `rows p k * t1 k q`, less `support p q`. -/
theorem midBlock_apply (x0 : Vec Ideal S1024x4096 .f32) (x1 : Vec Ideal S4096x128 .f32) (x2 : Vec Ideal S1024x128 .f32)
    (p : Fin 1024) (q : Fin 128) :
    k2_pay1 x0 x1 x2 (ix2 p q) = (∑ k : Fin 4096, x0 (ix2 p k) * x1 (ix2 k q)) - x2 (ix2 p q) := by
  unfold k2_pay1
  rw [shapeCast_self, shapeCast_self]
  refine (subf_apply _ _ _).trans ?_
  refine congrArg (· - x2 (ix2 p q)) ?_
  refine (Ideal.matmul_constant_zero_apply dot_S1024x4096_S4096x128_S1024x128_1_0_0_1_n_n none x0 x1 (ix2 p q)).trans ?_
  rw [← Equiv.sum_comp (ValueIdx.contrEquiv1 dot_S1024x4096_S4096x128_S1024x128_1_0_0_1_n_n 4096 rfl rfl).symm]
  refine Finset.sum_congr rfl fun k _ => ?_
  have hk := ValueIdx.contrEquiv1_symm_val dot_S1024x4096_S4096x128_S1024x128_1_0_0_1_n_n 4096 rfl rfl k
  have el : dot_S1024x4096_S4096x128_S1024x128_1_0_0_1_n_n.lhsIdx (ix2 p q) ((ValueIdx.contrEquiv1 dot_S1024x4096_S4096x128_S1024x128_1_0_0_1_n_n 4096 rfl rfl).symm k) = ix2 p k := funext fun a => Fin.ext (by
    match a with
    | ⟨0, _⟩ => exact lhs_rowsTimesNode_0 _ _
    | ⟨1, _⟩ => exact (lhs_rowsTimesNode_1 _ _).trans hk)
  have er : dot_S1024x4096_S4096x128_S1024x128_1_0_0_1_n_n.rhsIdx (ix2 p q) ((ValueIdx.contrEquiv1 dot_S1024x4096_S4096x128_S1024x128_1_0_0_1_n_n 4096 rfl rfl).symm k) = ix2 k q := funext fun a => Fin.ext (by
    match a with
    | ⟨0, _⟩ => exact (rhs_rowsTimesNode_0 _ _).trans hk
    | ⟨1, _⟩ => exact rhs_rowsTimesNode_1 _ _)
  rw [el, er]

-- the TensorCore's buffer contents when the region is entered, at the extended reals
variable (V : (c : Dev nD) → (b : Ref sig .tc) → Buf (Elt Ideal) ((c : Thread nD τ).loc b))

/-! ## The blocks the third pass reads, as rows of the arrays it finds -/

theorem zeroOffsets2 : (![0, 0] : Fin 2 → Nat) = fun _ => 0 := funext fun a => by fin_cases a <;> rfl

/-- The index maps over the four points: the row blocks move with the point, `t1` stays, and the stacked
    block's index is `(t, 0, 0)`. -/
theorem blockIndex_rows : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0
    ∧ win2_5.index t (0 : Fin 3) = t.val ∧ win2_5.index t (1 : Fin 3) = 0 ∧ win2_5.index t (2 : Fin 3) = 0 :=
  (by decide +kernel : ∀ t : Fin grid2.N, _)

/-- Row `p` of the block of `adj` at point `t` is row `1024 t + p` of `adj`. -/
theorem adjRows_apply (c : Dev nD) (t : Fin cfg2.N) (p : Fin 1024) (k : Fin 4096) (r : Fin 4096)
    (hr : r.val = t.val * 1024 + p.val) :
    (iblk2 V c 0 t : Vec Ideal S1024x4096 .f32) (ix2 p k) = (V c main_arg1 : S4096x4096.Idx → EReal) (ix2 r k) := by
  obtain ⟨e0, e1, -⟩ := blockIndex_rows t
  show V c main_arg1 (((cfg2.win 0).blk t).view.emb (ix2 p k)) = V c main_arg1 (ix2 r k)
  refine congrArg (V c main_arg1) ?_
  funext a; apply Fin.ext
  match a with
  | ⟨0, _⟩ => show win2_0.index t (0 : Fin 2) * 1024 + 1 * p.val = r.val; omega
  | ⟨1, _⟩ => show win2_0.index t (1 : Fin 2) * 4096 + 1 * k.val = k.val; omega

/-- The block of `t1` is all of `t1` at every point. -/
theorem nodeAll_apply (c : Dev nD) (t : Fin cfg2.N) (k : Fin 4096) (q : Fin 128) :
    (iblk2 V c 1 t : Vec Ideal S4096x128 .f32) (ix2 k q) = (V c main_call0_v1_0 : S4096x128.Idx → EReal) (ix2 k q) := by
  obtain ⟨-, -, e0, e1, -⟩ := blockIndex_rows t
  show V c main_call0_v1_0 (((cfg2.win 1).blk t).view.emb (ix2 k q)) = V c main_call0_v1_0 (ix2 k q)
  refine congrArg (V c main_call0_v1_0) ?_
  funext a; apply Fin.ext
  match a with
  | ⟨0, _⟩ => show win2_1.index t (0 : Fin 2) * 4096 + 1 * k.val = k.val; omega
  | ⟨1, _⟩ => show win2_1.index t (1 : Fin 2) * 128 + 1 * q.val = q.val; omega

/-- Row `p` of the block of `support` at point `t` is row `1024 t + p` of `support`. -/
theorem supportRows_apply (c : Dev nD) (t : Fin cfg2.N) (p : Fin 1024) (q : Fin 128) (r : Fin 4096)
    (hr : r.val = t.val * 1024 + p.val) :
    (iblk2 V c 2 t : Vec Ideal S1024x128 .f32) (ix2 p q) = (V c main_call0_v0 : S4096x128.Idx → EReal) (ix2 r q) := by
  obtain ⟨-, -, -, -, e0, e1, -⟩ := blockIndex_rows t
  show V c main_call0_v0 (((cfg2.win 2).blk t).view.emb (ix2 p q)) = V c main_call0_v0 (ix2 r q)
  refine congrArg (V c main_call0_v0) ?_
  funext a; apply Fin.ext
  match a with
  | ⟨0, _⟩ => show win2_2.index t (0 : Fin 2) * 1024 + 1 * p.val = r.val; omega
  | ⟨1, _⟩ => show win2_2.index t (1 : Fin 2) * 128 + 1 * q.val = q.val; omega

/-- Row `p` of the block of `low` at point `t` is row `1024 t + p` of `low`. -/
theorem lowRows_apply (c : Dev nD) (t : Fin cfg2.N) (p : Fin 1024) (q : Fin 128) (r : Fin 4096)
    (hr : r.val = t.val * 1024 + p.val) :
    (iblk2 V c 3 t : Vec Ideal S1024x128 .f32) (ix2 p q) = (V c main_v0_1 : S4096x128.Idx → EReal) (ix2 r q) := by
  obtain ⟨-, -, -, -, -, -, e0, e1, -⟩ := blockIndex_rows t
  show V c main_v0_1 (((cfg2.win 3).blk t).view.emb (ix2 p q)) = V c main_v0_1 (ix2 r q)
  refine congrArg (V c main_v0_1) ?_
  funext a; apply Fin.ext
  match a with
  | ⟨0, _⟩ => show win2_3.index t (0 : Fin 2) * 1024 + 1 * p.val = r.val; omega
  | ⟨1, _⟩ => show win2_3.index t (1 : Fin 2) * 128 + 1 * q.val = q.val; omega

/-! ## The block of `mid` is a block of `adj · t1 - support` -/

/-- `adj · t1 - support` at `(r, q)`, spelled out. -/
theorem subProd_apply (a : Cert.Spec.SAdj.Idx → EReal) (u s : Cert.Spec.SNode.Idx → EReal) (r : Fin 4096) (q : Fin 128) :
    Cert.Spec.subProd a u s (ix2 r q) = (∑ k : Fin 4096, a (ix2 r k) * u (ix2 k q)) - s (ix2 r q) := rfl

/-- Entry `(p, q)` of the block of `mid` at point `t` is entry `(1024 t + p, q)` of `adj · t1 - support`. -/
theorem midBlock_entry (c : Dev nD) (t : Fin cfg2.N) (p : Fin 1024) (q : Fin 128) (r : Fin 4096)
    (hr : r.val = t.val * 1024 + p.val) :
    k2_pay1 (iblk2 V c 0 t) (iblk2 V c 1 t) (iblk2 V c 2 t) (ix2 p q)
      = Cert.Spec.subProd (V c main_arg1) (V c main_call0_v1_0) (V c main_call0_v0) (ix2 r q) := by
  refine (midBlock_apply (iblk2 V c 0 t) (iblk2 V c 1 t) (iblk2 V c 2 t) p q).trans ?_
  refine Eq.trans ?_ (subProd_apply (V c main_arg1) (V c main_call0_v1_0) (V c main_call0_v0) r q).symm
  refine congrArg₂ (fun x y : EReal => x - y) (Finset.sum_congr rfl fun k _ => ?_) (supportRows_apply V c t p q r hr)
  exact congrArg₂ (fun x y : EReal => x * y) (adjRows_apply V c t p k r hr) (nodeAll_apply V c t k q)

/-- What point `t` writes back to `mid` is block `t` of `adj · t1 - support`. -/
theorem midFlushed (c : Dev nD) (t : Fin cfg2.N) :
    (dat2 V c).flushed 4 t = ((cfg2.win 4).blk t).view.read (Elt Ideal)
      (Cert.Spec.subProd (V c main_arg1) (V c main_call0_v1_0) (V c main_call0_v0)) := by
  show (cfg2.win 4).cut (grid2.coords t) ((dat2 V c).after 4 t) = _
  rw [after2_4]
  unfold out2_4
  rw [View.canon_unit_zero zeroOffsets2]
  simp only [View.ld_unit_zero (S := S1024x4096) zeroOffsets2, View.ld_unit_zero (S := S4096x128) zeroOffsets2, View.ld_unit_zero (S := S1024x128) zeroOffsets2]
  obtain ⟨-, -, -, -, -, -, -, -, e0, e1, -⟩ := blockIndex_rows t
  have ht : t.val < 4 := Nat.lt_of_lt_of_eq t.isLt N_2
  funext j
  have hj0 : (j 0).val < 1024 := (j 0).isLt
  have hj1 : (j 1).val < 128 := (j 1).isLt
  have hx : ((cfg2.win 4).xinj (grid2.coords t) j : S1024x128.Idx) = ix2 (⟨(j 0).val, hj0⟩ : Fin 1024) (⟨(j 1).val, hj1⟩ : Fin 128) :=
    funext fun a => Fin.ext (by match a with | ⟨0, _⟩ => rfl | ⟨1, _⟩ => rfl)
  have hy : (((cfg2.win 4).blk t).view.emb j : S4096x128.Idx) = ix2 (⟨t.val * 1024 + (j 0).val, by omega⟩ : Fin 4096) (⟨(j 1).val, hj1⟩ : Fin 128) :=
    funext fun a => Fin.ext (by
      match a with
      | ⟨0, _⟩ => show win2_4.index t (0 : Fin 2) * 1024 + 1 * (j 0).val = t.val * 1024 + (j 0).val; omega
      | ⟨1, _⟩ => show win2_4.index t (1 : Fin 2) * 128 + 1 * (j 1).val = (j 1).val; omega)
  show k2_pay1 (iblk2 V c 0 t) (iblk2 V c 1 t) (iblk2 V c 2 t) ((cfg2.win 4).xinj (grid2.coords t) j)
      = Cert.Spec.subProd (V c main_arg1) (V c main_call0_v1_0) (V c main_call0_v0) (((cfg2.win 4).blk t).view.emb j)
  refine (congrArg (k2_pay1 (iblk2 V c 0 t) (iblk2 V c 1 t) (iblk2 V c 2 t)) hx).trans ?_
  refine Eq.trans ?_ (congrArg (Cert.Spec.subProd (V c main_arg1) (V c main_call0_v1_0) (V c main_call0_v0)) hy).symm
  exact midBlock_entry V c t ⟨(j 0).val, hj0⟩ ⟨(j 1).val, hj1⟩ ⟨t.val * 1024 + (j 0).val, by omega⟩ rfl

/-- An index of the node array is in point `t`'s block of `mid` iff each coordinate is in the block's range. -/
theorem mem_midBlock (t : Fin cfg2.N) (i : S4096x128.Idx) :
    i ∈ ((cfg2.win 4).blk t).view.set ↔ ∀ a : Fin 2, win2_4.index t a * S1024x128.size a ≤ (i a).val ∧ (i a).val < win2_4.index t a * S1024x128.size a + S1024x128.size a := by
  show i ∈ ((View.whole main_v0_2).slice (win2_4.rect t)).set ↔ _
  rw [View.set_slice_whole, Rect.mem_set_unit]
  exact Iff.rfl

/-- Row `r` of `mid` is in the block of point `r / 1024`: the four blocks cover the array. -/
theorem midBlocks_cover (i : S4096x128.Idx) :
    ∃ t : Fin cfg2.N, (cfg2.win 4).flush t = true ∧ i ∈ ((cfg2.win 4).blk t).view.set := by
  have hi0 : (i 0).val < 4096 := (i 0).isLt
  have hi1 : (i 1).val < 128 := (i 1).isLt
  have hN : cfg2.N = 4 := N_2
  obtain ⟨t, ht⟩ : ∃ t : Fin cfg2.N, t.val = (i 0).val / 1024 := ⟨⟨(i 0).val / 1024, by rw [hN]; omega⟩, rfl⟩
  obtain ⟨-, -, -, -, -, -, -, -, e0, e1, -⟩ := blockIndex_rows t
  refine ⟨t, flush2_4 t, ?_⟩
  rw [mem_midBlock]
  intro a
  match a with
  | ⟨0, _⟩ => show win2_4.index t (0 : Fin 2) * 1024 ≤ (i 0).val ∧ (i 0).val < win2_4.index t (0 : Fin 2) * 1024 + 1024; omega
  | ⟨1, _⟩ => show win2_4.index t (1 : Fin 2) * 128 ≤ (i 1).val ∧ (i 1).val < win2_4.index t (1 : Fin 2) * 128 + 128; omega

/-- After the third pass the array `mid` is `adj · t1 - support` of the arrays the pass found, -/
theorem mid_final (c : Dev nD) :
    (dat2 V c).arrAt 4 cfg2.N = Cert.Spec.subProd (V c main_arg1) (V c main_call0_v1_0) (V c main_call0_v0) :=
  (dat2 V c).arrAt_eq_of_cover 4 (Cert.Spec.subProd (V c main_arg1) (V c main_call0_v1_0) (V c main_call0_v0))
    (fun t _ => midFlushed V c t) midBlocks_cover

/-! ## The stacked block: `low`'s rows in slice `[:, 0, :]`, `mid`'s in slice `[:, 1, :]` -/

/-- An `[a, b]` array cast to `[a, 1, b]` reads, at `(i, u, j)`, the operand at `(i, j)`. -/
theorem shapeCast_ab_a1b_apply {α : Type} {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- The rows of `low` with a middle axis of extent one, entry by entry. -/
theorem lowSlice_apply (x3 : Vec Ideal S1024x128 .f32) (p : Fin 1024) (u : Fin 1) (q : Fin 128) :
    k2_pay2 x3 (ix3 p u q) = x3 (ix2 p q) := by
  unfold k2_pay2
  rw [shapeCast_self]
  exact shapeCast_ab_a1b_apply x3 _ p u q

/-- The block of `mid` with a middle axis of extent one, entry by entry. -/
theorem midSlice_apply (x0 : Vec Ideal S1024x4096 .f32) (x1 : Vec Ideal S4096x128 .f32) (x2 : Vec Ideal S1024x128 .f32)
    (p : Fin 1024) (u : Fin 1) (q : Fin 128) :
    k2_pay3 x0 x1 x2 (ix3 p u q) = k2_pay1 x0 x1 x2 (ix2 p q) := by
  unfold k2_pay3
  exact shapeCast_ab_a1b_apply (k2_pay1 x0 x1 x2) _ p u q

/-- Two stores that tile a block of extent two on its middle axis: where the middle coordinate is `0` the block reads
    the earlier store's payload (the later store's slice `[:, 1, :]` does not hold the index), -/
theorem twoSlices_apply_zero (w1 w0 : S1024x1x128.Idx → Elt Ideal .f32) (p : Fin 1024) (q : Fin 128) :
    View.canon [(⟨slice1, w1⟩ : View.Piece (Elt Ideal) S1024x2x128 .f32), ⟨slice0, w0⟩] (ix3 p (0 : Fin 2) q)
      = w0 (ix3 p (0 : Fin 1) q) := by
  have hout : (ix3 p (0 : Fin 2) q : S1024x2x128.Idx) ∉ (⟨slice1, w1⟩ : View.Piece (Elt Ideal) S1024x2x128 .f32).1.set := by
    show (ix3 p (0 : Fin 2) q : S1024x2x128.Idx) ∉ slice1.set
    rw [Rect.mem_set_unit]
    intro hall
    have h1 : (1 : Nat) ≤ 0 := (hall 1).1
    omega
  have hin : (ix3 p (0 : Fin 2) q : S1024x2x128.Idx) = slice0.emb (ix3 p (0 : Fin 1) q) :=
    funext fun a => Fin.ext (by
      match a with
      | ⟨0, _⟩ => show p.val = 0 + 1 * p.val; omega
      | ⟨1, _⟩ => show (0 : Nat) = 0 + 1 * 0; rfl
      | ⟨2, _⟩ => show q.val = 0 + 1 * q.val; omega)
  refine (View.canon_cons_of_not_mem (⟨slice1, w1⟩ : View.Piece (Elt Ideal) S1024x2x128 .f32) [⟨slice0, w0⟩] hout).trans ?_
  refine (congrArg (View.canon [(⟨slice0, w0⟩ : View.Piece (Elt Ideal) S1024x2x128 .f32)]) hin).trans ?_
  exact View.canon_cons_emb slice0 w0 [] (ix3 p (0 : Fin 1) q)

/-- and where it is `1` the later store's. -/
theorem twoSlices_apply_one (w1 w0 : S1024x1x128.Idx → Elt Ideal .f32) (p : Fin 1024) (q : Fin 128) :
    View.canon [(⟨slice1, w1⟩ : View.Piece (Elt Ideal) S1024x2x128 .f32), ⟨slice0, w0⟩] (ix3 p (1 : Fin 2) q)
      = w1 (ix3 p (0 : Fin 1) q) := by
  have hin : (ix3 p (1 : Fin 2) q : S1024x2x128.Idx) = slice1.emb (ix3 p (0 : Fin 1) q) :=
    funext fun a => Fin.ext (by
      match a with
      | ⟨0, _⟩ => show p.val = 0 + 1 * p.val; omega
      | ⟨1, _⟩ => show (1 : Nat) = 1 + 1 * 0; rfl
      | ⟨2, _⟩ => show q.val = 0 + 1 * q.val; omega)
  refine (congrArg (View.canon [(⟨slice1, w1⟩ : View.Piece (Elt Ideal) S1024x2x128 .f32), ⟨slice0, w0⟩]) hin).trans ?_
  exact View.canon_cons_emb slice1 w1 [⟨slice0, w0⟩] (ix3 p (0 : Fin 1) q)

/-- Entry `(p, h, q)` of the stacked block: the row of `low` where `h = 0`, the block of `mid` where `h = 1`. -/
theorem stackedBlock_apply (x0 : Vec Ideal S1024x4096 .f32) (x1 : Vec Ideal S4096x128 .f32) (x2 x3 : Vec Ideal S1024x128 .f32)
    (p : Fin 1024) (h : Fin 2) (q : Fin 128) :
    out2_5 x0 x1 x2 x3 (ix3 p h q) = if h.val = 0 then x3 (ix2 p q) else k2_pay1 x0 x1 x2 (ix2 p q) := by
  unfold out2_5
  simp only [View.ld_unit_zero (S := S1024x4096) zeroOffsets2, View.ld_unit_zero (S := S4096x128) zeroOffsets2, View.ld_unit_zero (S := S1024x128) zeroOffsets2]
  match h with
  | ⟨0, _⟩ =>
    exact ((twoSlices_apply_zero (k2_pay3 x0 x1 x2) (k2_pay2 x3) p q).trans (lowSlice_apply x3 p 0 q)).trans (if_pos rfl).symm
  | ⟨1, _⟩ =>
    exact ((twoSlices_apply_one (k2_pay3 x0 x1 x2) (k2_pay2 x3) p q).trans (midSlice_apply x0 x1 x2 p 0 q)).trans (if_neg Nat.one_ne_zero).symm

/-- The stacked array at `(r, h, q)`, spelled out. -/
theorem stacked_apply (lo mi : Cert.Spec.SNode.Idx → EReal) (r : Fin 4096) (h : Fin 2) (q : Fin 128) :
    Cert.Spec.stacked lo mi (ix3 r h q) = if h.val = 0 then lo (ix2 r q) else mi (ix2 r q) := rfl

/-- What point `t` writes back to the stacked array is block `t` of `low` and `adj · t1 - support` side by side. -/
theorem stackedFlushed (c : Dev nD) (t : Fin cfg2.N) :
    (dat2 V c).flushed 5 t = ((cfg2.win 5).blk t).view.read (Elt Ideal)
      (Cert.Spec.stacked (V c main_v0_1) (Cert.Spec.subProd (V c main_arg1) (V c main_call0_v1_0) (V c main_call0_v0))) := by
  show (cfg2.win 5).cut (grid2.coords t) ((dat2 V c).after 5 t) = _
  rw [after2_5]
  obtain ⟨-, -, -, -, -, -, -, -, -, -, e0, e1, e2⟩ := blockIndex_rows t
  have ht : t.val < 4 := Nat.lt_of_lt_of_eq t.isLt N_2
  funext j
  have hj0 : (j 0).val < 1024 := (j 0).isLt
  have hj1 : (j 1).val < 2 := (j 1).isLt
  have hj2 : (j 2).val < 128 := (j 2).isLt
  have hx : ((cfg2.win 5).xinj (grid2.coords t) j : S1024x2x128.Idx)
      = ix3 (⟨(j 0).val, hj0⟩ : Fin 1024) (⟨(j 1).val, hj1⟩ : Fin 2) (⟨(j 2).val, hj2⟩ : Fin 128) :=
    funext fun a => Fin.ext (by match a with | ⟨0, _⟩ => rfl | ⟨1, _⟩ => rfl | ⟨2, _⟩ => rfl)
  have hy : (((cfg2.win 5).blk t).view.emb j : S4096x2x128.Idx)
      = ix3 (⟨t.val * 1024 + (j 0).val, by omega⟩ : Fin 4096) (⟨(j 1).val, hj1⟩ : Fin 2) (⟨(j 2).val, hj2⟩ : Fin 128) :=
    funext fun a => Fin.ext (by
      match a with
      | ⟨0, _⟩ => show win2_5.index t (0 : Fin 3) * 1024 + 1 * (j 0).val = t.val * 1024 + (j 0).val; omega
      | ⟨1, _⟩ => show win2_5.index t (1 : Fin 3) * 2 + 1 * (j 1).val = (j 1).val; omega
      | ⟨2, _⟩ => show win2_5.index t (2 : Fin 3) * 128 + 1 * (j 2).val = (j 2).val; omega)
  show out2_5 (iblk2 V c 0 t) (iblk2 V c 1 t) (iblk2 V c 2 t) (iblk2 V c 3 t) ((cfg2.win 5).xinj (grid2.coords t) j)
      = Cert.Spec.stacked (V c main_v0_1) (Cert.Spec.subProd (V c main_arg1) (V c main_call0_v1_0) (V c main_call0_v0)) (((cfg2.win 5).blk t).view.emb j)
  refine (congrArg (out2_5 (iblk2 V c 0 t) (iblk2 V c 1 t) (iblk2 V c 2 t) (iblk2 V c 3 t)) hx).trans ?_
  refine Eq.trans ?_ (congrArg (Cert.Spec.stacked (V c main_v0_1) (Cert.Spec.subProd (V c main_arg1) (V c main_call0_v1_0) (V c main_call0_v0))) hy).symm
  refine (stackedBlock_apply (iblk2 V c 0 t) (iblk2 V c 1 t) (iblk2 V c 2 t) (iblk2 V c 3 t) ⟨(j 0).val, hj0⟩ ⟨(j 1).val, hj1⟩ ⟨(j 2).val, hj2⟩).trans ?_
  refine Eq.trans ?_ (stacked_apply (V c main_v0_1) (Cert.Spec.subProd (V c main_arg1) (V c main_call0_v1_0) (V c main_call0_v0)) ⟨t.val * 1024 + (j 0).val, by omega⟩ ⟨(j 1).val, hj1⟩ ⟨(j 2).val, hj2⟩).symm
  exact if_congr Iff.rfl
    (lowRows_apply V c t ⟨(j 0).val, hj0⟩ ⟨(j 2).val, hj2⟩ ⟨t.val * 1024 + (j 0).val, by omega⟩ rfl)
    (midBlock_entry V c t ⟨(j 0).val, hj0⟩ ⟨(j 2).val, hj2⟩ ⟨t.val * 1024 + (j 0).val, by omega⟩ rfl)

/-- An index of the stacked array is in point `t`'s block iff each coordinate is in the block's range. -/
theorem mem_stackedBlock (t : Fin cfg2.N) (i : S4096x2x128.Idx) :
    i ∈ ((cfg2.win 5).blk t).view.set ↔ ∀ a : Fin 3, win2_5.index t a * S1024x2x128.size a ≤ (i a).val ∧ (i a).val < win2_5.index t a * S1024x2x128.size a + S1024x2x128.size a := by
  show i ∈ ((View.whole main_v0_0).slice (win2_5.rect t)).set ↔ _
  rw [View.set_slice_whole, Rect.mem_set_unit]
  exact Iff.rfl

/-- Row `r` of the stacked array is in the block of point `r / 1024`: the four blocks cover the array. -/
theorem stackedBlocks_cover (i : S4096x2x128.Idx) :
    ∃ t : Fin cfg2.N, (cfg2.win 5).flush t = true ∧ i ∈ ((cfg2.win 5).blk t).view.set := by
  have hi0 : (i 0).val < 4096 := (i 0).isLt
  have hi1 : (i 1).val < 2 := (i 1).isLt
  have hi2 : (i 2).val < 128 := (i 2).isLt
  have hN : cfg2.N = 4 := N_2
  obtain ⟨t, ht⟩ : ∃ t : Fin cfg2.N, t.val = (i 0).val / 1024 := ⟨⟨(i 0).val / 1024, by rw [hN]; omega⟩, rfl⟩
  obtain ⟨-, -, -, -, -, -, -, -, -, -, e0, e1, e2⟩ := blockIndex_rows t
  refine ⟨t, flush2_5 t, ?_⟩
  rw [mem_stackedBlock]
  intro a
  match a with
  | ⟨0, _⟩ => show win2_5.index t (0 : Fin 3) * 1024 ≤ (i 0).val ∧ (i 0).val < win2_5.index t (0 : Fin 3) * 1024 + 1024; omega
  | ⟨1, _⟩ => show win2_5.index t (1 : Fin 3) * 2 ≤ (i 1).val ∧ (i 1).val < win2_5.index t (1 : Fin 3) * 2 + 2; omega
  | ⟨2, _⟩ => show win2_5.index t (2 : Fin 3) * 128 ≤ (i 2).val ∧ (i 2).val < win2_5.index t (2 : Fin 3) * 128 + 128; omega

/-- and the stacked array holds `low` and that `mid` side by side. -/
theorem stacked_final (c : Dev nD) :
    (dat2 V c).arrAt 5 cfg2.N
      = Cert.Spec.stacked (V c main_v0_1) (Cert.Spec.subProd (V c main_arg1) (V c main_call0_v1_0) (V c main_call0_v0)) :=
  (dat2 V c).arrAt_eq_of_cover 5
    (Cert.Spec.stacked (V c main_v0_1) (Cert.Spec.subProd (V c main_arg1) (V c main_call0_v1_0) (V c main_call0_v0)))
    (fun t _ => stackedFlushed V c t) stackedBlocks_cover

end Cert.KernelIdeal.Val

end
-- ==== Proof.KernelValue.lean ====
/-
  The kernel program's three results as functions of its argument arrays, at the extended reals.
  With `a = adj` and `S = max (feature · W) 0`: the first pass leaves `S` in the `support` array; the second,
  entered with it, leaves `a · S` and `a · S + S`; the third, entered with those, leaves `a · (a · S) - S` and
  the two results side by side.  Each pass's closed form is stated at the contents the pass is entered with;
  here those contents are traced back, pass by pass, to the launch memory.
-/
import proofs.«179354_g65609920414006_cont_sun_m_687_5_alg».proof.Proof.Run
import proofs.«179354_g65609920414006_cont_sun_m_687_5_alg».proof.Proof.SupportValue
import proofs.«179354_g65609920414006_cont_sun_m_687_5_alg».proof.Proof.PassOneValue
import proofs.«179354_g65609920414006_cont_sun_m_687_5_alg».proof.Proof.PassTwoValue

noncomputable section

namespace Cert.KernelIdeal.Val

open Cert.KernelIdeal Cert.KernelIdeal.Gen Cert.KernelIdeal.Frame
open Idealize.ShloMosaic Idealize.ShloMosaic.TcCoe
open Idealize.SL Idealize.SL.Sem

variable (m : (ℓ : Loc nD τ sig) → Buf (Elt Ideal) ℓ) (ρ : Dev nD → PrngReg)

/-- `max (feature · W) 0` of the launch memory on core `c`. -/
abbrev S₀ (c : Dev nD) : Cert.Spec.SNode.Idx → EReal :=
  Cert.Spec.support (m ((c : Thread nD τ).loc main_arg0)) (m ((c : Thread nD τ).loc main_arg2))
/-- `adj` of the launch memory on core `c`. -/
abbrev a₀ (c : Dev nD) : Cert.Spec.SAdj.Idx → EReal := m ((c : Thread nD τ).loc main_arg1)

/-- The second pass is entered with `support = S`, -/
theorem support_value (c : Dev nD) : V1 m c main_call0_v0 = S₀ m c :=
  (V1_support m c).trans (support_final (V0 m) c)
/-- and leaves `low = a · S + S`, -/
theorem low_value (c : Dev nD) : V2 m c main_v0_1 = Cert.Spec.low (a₀ m c) (S₀ m c) := by
  rw [W2_low, low_final, V1_main_arg1, support_value]
/-- and `t1 = a · S`. -/
theorem t1_value (c : Dev nD) : V2 m c main_call0_v1_0 = Cert.Spec.prod (a₀ m c) (S₀ m c) := by
  rw [W2_t1, prod_final, V1_main_arg1, support_value]

/-- The run ends with `low = a · S + S`, -/
theorem final_low (c : Dev nD) : W3 m c (Proc.devRef .tc main_v0_1) = Cert.Spec.low (a₀ m c) (S₀ m c) := by
  rw [W3_low, low_final, V1_main_arg1, support_value]
/-- `mid = a · (a · S) - S`, -/
theorem final_mid (c : Dev nD) :
    W3 m c (Proc.devRef .tc main_v0_2) = Cert.Spec.subProd (a₀ m c) (Cert.Spec.prod (a₀ m c) (S₀ m c)) (S₀ m c) := by
  rw [W3_mid, mid_final, V2_main_arg1, t1_value, V2_support, support_value]
/-- and the two side by side. -/
theorem final_stacked (c : Dev nD) :
    W3 m c (Proc.devRef .tc main_v0_0)
      = Cert.Spec.stacked (Cert.Spec.low (a₀ m c) (S₀ m c)) (Cert.Spec.subProd (a₀ m c) (Cert.Spec.prod (a₀ m c) (S₀ m c)) (S₀ m c)) := by
  rw [W3_stacked, stacked_final, V2_main_arg1, t1_value, V2_support, support_value, low_value]

/-- THE VALUE RUN: every weakly fair execution of the kernel program from `m` terminates, with its three results
    at those functions of the argument arrays and the arguments unchanged. -/
theorem run : θ_run defs (onTc (τ := τ) (main (F := Ideal))) ⟨m, fun _ => 0, ρ⟩ (fun r => ∀ c : Dev nD,
      r.2.mem ((c.tc : Thread nD τ).loc main_v0_0)
          = Cert.Spec.stacked (Cert.Spec.low (a₀ m c) (S₀ m c)) (Cert.Spec.subProd (a₀ m c) (Cert.Spec.prod (a₀ m c) (S₀ m c)) (S₀ m c))
      ∧ r.2.mem ((c.tc : Thread nD τ).loc main_v0_1) = Cert.Spec.low (a₀ m c) (S₀ m c)
      ∧ r.2.mem ((c.tc : Thread nD τ).loc main_v0_2) = Cert.Spec.subProd (a₀ m c) (Cert.Spec.prod (a₀ m c) (S₀ m c)) (S₀ m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_v0_0 (by decide))).trans (final_stacked m c),
     (h c _ (mem_uc main_v0_1 (by decide))).trans (final_low m c),
     (h c _ (mem_uc main_v0_2 (by decide))).trans (final_mid m c),
     (h c _ (mem_uc main_arg0 (by decide))).trans (W3_main_arg0 m c),
     (h c _ (mem_uc main_arg1 (by decide))).trans (W3_main_arg1 m c),
     (h c _ (mem_uc main_arg2 (by decide))).trans (W3_main_arg2 m c)⟩) (run_main m ρ)

end Cert.KernelIdeal.Val

end
-- ==== Proof.RefValue.lean ====
/-
  The reference read back as the specification.  Its `relu (feature · W)` is `support`; its identity matrix is
  `convert (iota₀ + 0 == iota₁)`, whose entry is `1` on the diagonal and `0` off it; its two results are
  `(adj + I) · support` and `(adj · adj - I) · support` entry by entry, and its third the two side by side.
-/
import proofs.«179354_g65609920414006_cont_sun_m_687_5_alg».proof.Proof.Gen.ReferenceIdeal.Read
import proofs.«179354_g65609920414006_cont_sun_m_687_5_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Predicate

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem

variable (x0 : (⟨S4096x256, .f32⟩ : BufTy).Contents (Elt Ideal)) (x1 : (⟨S4096x4096, .f32⟩ : BufTy).Contents (Elt Ideal))
  (x2 : (⟨S256x128, .f32⟩ : BufTy).Contents (Elt Ideal))

/-! ## The composed index functions of the products, on explicit coordinates -/

/-- Row `k` of `feature` at column `j`. -/
theorem support_lidx (k : Fin 4096) (q : Fin 128) (j : Fin 256) : lidx_main_v0 (ix2 k q) j = ix2 k j :=
  funext fun a => Fin.ext (by match a with | ⟨0, _⟩ => rfl | ⟨1, _⟩ => rfl)
/-- Column `q` of `W` at row `j`. -/
theorem support_ridx (k : Fin 4096) (q : Fin 128) (j : Fin 256) : ridx_main_v0 (ix2 k q) j = ix2 j q :=
  funext fun a => Fin.ext (by match a with | ⟨0, _⟩ => rfl | ⟨1, _⟩ => rfl)
/-- Row `p` of the left factor of `output_low` at column `k`. -/
theorem low_lidx (p : Fin 4096) (q : Fin 128) (k : Fin 4096) : lidx_main_v9 (ix2 p q) k = ix2 p k :=
  funext fun a => Fin.ext (by match a with | ⟨0, _⟩ => rfl | ⟨1, _⟩ => rfl)
/-- Column `q` of `support` at row `k`. -/
theorem low_ridx (p : Fin 4096) (q : Fin 128) (k : Fin 4096) : ridx_main_v9 (ix2 p q) k = ix2 k q :=
  funext fun a => Fin.ext (by match a with | ⟨0, _⟩ => rfl | ⟨1, _⟩ => rfl)
/-- Row `p` of `adj` at column `l`, in `adj · adj`. -/
theorem sq_lidx (p k l : Fin 4096) : lidx_main_v10 (ix2 p k) l = ix2 p l :=
  funext fun a => Fin.ext (by match a with | ⟨0, _⟩ => rfl | ⟨1, _⟩ => rfl)
/-- Column `k` of `adj` at row `l`, in `adj · adj`. -/
theorem sq_ridx (p k l : Fin 4096) : ridx_main_v10 (ix2 p k) l = ix2 l k :=
  funext fun a => Fin.ext (by match a with | ⟨0, _⟩ => rfl | ⟨1, _⟩ => rfl)
/-- Row `p` of the left factor of `output_mid` at column `k`. -/
theorem mid_lidx (p : Fin 4096) (q : Fin 128) (k : Fin 4096) : lidx_main_v12 (ix2 p q) k = ix2 p k :=
  funext fun a => Fin.ext (by match a with | ⟨0, _⟩ => rfl | ⟨1, _⟩ => rfl)
/-- Column `q` of `support` at row `k`. -/
theorem mid_ridx (p : Fin 4096) (q : Fin 128) (k : Fin 4096) : ridx_main_v12 (ix2 p q) k = ix2 k q :=
  funext fun a => Fin.ext (by match a with | ⟨0, _⟩ => rfl | ⟨1, _⟩ => rfl)
/-- The unit middle axis dropped: entry `(p, 0, q)` of the widened `output_low` is its entry `(p, q)`. -/
theorem widen_low_idx (p : Fin 4096) (q : Fin 128) : idx_main_v13 (ix3 p (0 : Fin 1) q) = ix2 p q :=
  funext fun a => Fin.ext (by match a with | ⟨0, _⟩ => rfl | ⟨1, _⟩ => rfl)
/-- The same for `output_mid`. -/
theorem widen_mid_idx (p : Fin 4096) (q : Fin 128) : idx_main_v14 (ix3 p (0 : Fin 1) q) = ix2 p q :=
  funext fun a => Fin.ext (by match a with | ⟨0, _⟩ => rfl | ⟨1, _⟩ => rfl)

/-! ## The identity matrix -/

/-- Two row/column numbers below 4096 give equal 32-bit words exactly when they are equal: the compare of
    `iota₀ + 0` with `iota₁` is the bit "`p = k`". -/
theorem iotaWords_eq_iff (p k : Fin 4096) :
    IntOp.cmpi .eq (IntOp.addi (BitVec.ofNat 32 p.val) 0#32) (BitVec.ofNat 32 k.val) = 1#1 ↔ p = k := by
  rw [StableHlo.Predicate.cmpi_eq_iff]
  unfold IntOp.addi
  rw [BitVec.add_zero]
  constructor
  · intro h
    have h' := congrArg BitVec.toNat h
    simp only [BitVec.toNat_ofNat] at h'
    have hp := p.isLt
    have hk := k.isLt
    exact Fin.ext (by omega)
  · rintro rfl
    rfl

/-- The converted compare is `1` on the diagonal and `0` off it. -/
theorem eye_entry (p k : Fin 4096) : val_main_v7 (F := Ideal) (ix2 p k) = Cert.Spec.eye p k := by
  rw [val_main_v7_apply, val_main_v6_apply, val_main_v5_apply, val_main_v2_apply, val_main_v4_apply,
    val_main_c_apply, val_main_v3_apply]
  show (((IntOp.cmpi .eq (IntOp.addi (BitVec.ofNat 32 p.val) 0#32) (BitVec.ofNat 32 k.val)).toNat : ℝ) : EReal) = _
  unfold Cert.Spec.eye
  by_cases h : p = k
  · rw [(iotaWords_eq_iff p k).2 h, if_pos h]
    rfl
  · rw [eq_zero_of_ne_one (fun h1 => h ((iotaWords_eq_iff p k).1 h1)), if_neg h]
    rfl

/-! ## `relu (feature · W)` -/

/-- The maximum of the product's entry with the broadcast zero is `support`'s entry. -/
theorem support_entry (k : Fin 4096) (q : Fin 128) :
    val_main_v1 (F := Ideal) x0 x2 (ix2 k q) = Cert.Spec.support x0 x2 (ix2 k q) := by
  rw [val_main_v1_apply, val_main_v0_apply, val_main_call0_v0_apply, val_main_call0_cst_apply]
  simp only [support_lidx, support_ridx, Ideal.maximumf_def, Ideal.ofBits_def, Ideal.ofBits_zero_f32]
  rfl

/-! ## The two halves side by side -/

/-- A concatenation of two `4096 × 1 × 128` arrays along the middle axis, read at `(p, h, q)`: the first at
    `(p, 0, q)` when `h = 0`, the second there when `h = 1`. -/
theorem sideBySide_entry {α : Type} (y0 y1 : S4096x1x128.Idx → α)
    (hc : Shape.Concatenates [S4096x1x128, S4096x1x128] S4096x2x128 1) (p : Fin 4096) (h : Fin 2) (q : Fin 128) :
    concatenate S4096x2x128 1 [⟨S4096x1x128, y0⟩, ⟨S4096x1x128, y1⟩] hc (ix3 p h q)
      = if h.val = 0 then y0 (ix3 p (0 : Fin 1) q) else y1 (ix3 p (0 : Fin 1) q) := by
  match h with
  | ⟨0, _⟩ =>
    rw [if_pos rfl]
    exact concatenate_pair_apply_left 1 y0 y1 hc _ rfl (ix3 p (0 : Fin 1) q)
      (fun b => by match b with | ⟨0, _⟩ => rfl | ⟨1, _⟩ => rfl | ⟨2, _⟩ => rfl)
  | ⟨1, _⟩ =>
    refine (concatenate_pair_apply_right 1 y0 y1 hc _ rfl rfl (ix3 p (0 : Fin 1) q)
      (fun b hb => by match b with | ⟨0, _⟩ => rfl | ⟨1, _⟩ => exact absurd (Fin.ext rfl) hb | ⟨2, _⟩ => rfl) rfl).trans ?_
    exact (if_neg Nat.one_ne_zero).symm

/-- The reference's `output_low` is `(adj + I) · support`. -/
theorem ref_low : val_main_v9 (F := Ideal) x0 x1 x2 = Cert.Spec.refLow x1 (Cert.Spec.support x0 x2) := by
  funext i
  obtain ⟨p, q, rfl⟩ : ∃ (p : Fin 4096) (q : Fin 128), i = ix2 p q := ⟨i 0, i 1, eq_ix2 i⟩
  rw [val_main_v9_apply]
  show _ = ∑ k : Fin 4096, (x1 (ix2 p k) + Cert.Spec.eye p k) * Cert.Spec.support x0 x2 (ix2 k q)
  refine Finset.sum_congr rfl fun k _ => ?_
  rw [low_lidx, low_ridx, val_main_v8_apply, eye_entry, support_entry, Ideal.addf_def]

/-- The reference's `output_mid` is `(adj · adj - I) · support`. -/
theorem ref_mid : val_main_v12 (F := Ideal) x0 x1 x2 = Cert.Spec.refMid x1 (Cert.Spec.support x0 x2) := by
  funext i
  obtain ⟨p, q, rfl⟩ : ∃ (p : Fin 4096) (q : Fin 128), i = ix2 p q := ⟨i 0, i 1, eq_ix2 i⟩
  rw [val_main_v12_apply]
  show _ = ∑ k : Fin 4096, ((∑ l : Fin 4096, x1 (ix2 p l) * x1 (ix2 l k)) - Cert.Spec.eye p k)
    * Cert.Spec.support x0 x2 (ix2 k q)
  refine Finset.sum_congr rfl fun k _ => ?_
  rw [mid_lidx, mid_ridx, val_main_v11_apply, val_main_v10_apply, eye_entry, support_entry, Ideal.subf_def]
  simp only [sq_lidx, sq_ridx]

/-- The reference's stacked result holds its two others side by side. -/
theorem ref_stacked :
    val_main_v15 (F := Ideal) x0 x1 x2 = Cert.Spec.stacked (val_main_v9 (F := Ideal) x0 x1 x2) (val_main_v12 (F := Ideal) x0 x1 x2) := by
  funext i
  obtain ⟨p, h, q, rfl⟩ : ∃ (p : Fin 4096) (h : Fin 2) (q : Fin 128), i = ix3 p h q := ⟨i 0, i 1, i 2, eq_ix3 i⟩
  unfold val_main_v15
  rw [sideBySide_entry, val_main_v13_apply, val_main_v14_apply, widen_low_idx, widen_mid_idx]
  rfl

end Cert.ReferenceIdeal.RefValue

end
-- ==== Proof.Algebra.lean ====
/-
  The two spellings agree on real matrices.  With every entry of `a` and `s` a real number:
    ∑ k, (a p k + I p k) * s k q = (∑ k, a p k * s k q) + s p q         (distributivity; ∑ k, I p k * s k q = s p q),
    ∑ k, ((∑ l, a p l * a l k) - I p k) * s k q = (∑ l, a p l * (∑ k, a l k * s k q)) - s p q
                                                                          (distributivity and the exchange of two finite sums).
  On the extended reals neither law holds at the infinities, which is why the entries are first shown real;
  `max (∑ …) 0` of reals is real, so `support` of real arrays is real.
-/
import proofs.«179354_g65609920414006_cont_sun_m_687_5_alg».proof.Proof.Spec
import Mathlib.Algebra.BigOperators.Ring.Finset
import Mathlib.Data.EReal.Operations

noncomputable section

namespace Cert.Spec

open Idealize.ShloMosaic Idealize.ShloMosaic.ValueIdx

/-! ## Sums of real numbers inside the extended reals -/

/-- A finite sum of real numbers, each read as an extended real, is the real sum read as an extended real. -/
theorem sum_coe_real {ι : Type*} (t : Finset ι) (g : ι → ℝ) :
    (∑ k ∈ t, ((g k : ℝ) : EReal)) = ((∑ k ∈ t, g k : ℝ) : EReal) := by
  classical
  induction t using Finset.induction_on with
  | empty => simp only [Finset.sum_empty, EReal.coe_zero]
  | insert b t hb ih => rw [Finset.sum_insert hb, Finset.sum_insert hb, EReal.coe_add, ih]

/-- The larger of a real number and zero is a real number. -/
theorem max_coe_zero (x : ℝ) : max (x : EReal) 0 = ((max x 0 : ℝ) : EReal) := by
  rcases le_total x 0 with h | h
  · rw [max_eq_right h, max_eq_right (by exact_mod_cast h), EReal.coe_zero]
  · rw [max_eq_left h, max_eq_left (by exact_mod_cast h)]

/-! ## The two laws over the real numbers -/

/-- The identity matrix's entry as a real number. -/
def eyeR (p k : Fin 4096) : ℝ := ((if p = k then 1 else 0 : ℕ) : ℝ)

theorem eye_eq_coe (p k : Fin 4096) : eye p k = ((eyeR p k : ℝ) : EReal) := rfl

/-- Row `p` of the identity matrix picks entry `(p, q)`: `∑ k, I p k * s k q = s p q`. -/
theorem sum_eyeR_mul (rs : SNode.Idx → ℝ) (p : Fin 4096) (q : Fin 128) :
    ∑ k : Fin 4096, eyeR p k * rs (ix2 k q) = rs (ix2 p q) := by
  have h : ∀ k : Fin 4096, eyeR p k * rs (ix2 k q) = if p = k then rs (ix2 k q) else 0 := by
    intro k
    unfold eyeR
    by_cases hk : p = k
    · rw [if_pos hk, if_pos hk, Nat.cast_one, one_mul]
    · rw [if_neg hk, if_neg hk, Nat.cast_zero, zero_mul]
  rw [Finset.sum_congr rfl (fun k _ => h k), Finset.sum_ite_eq, if_pos (Finset.mem_univ p)]

/-- `(a + I) · s = a · s + s` at entry `(p, q)`, over the reals. -/
theorem refLowAt_real (ra : SAdj.Idx → ℝ) (rs : SNode.Idx → ℝ) (p : Fin 4096) (q : Fin 128) :
    ∑ k : Fin 4096, (ra (ix2 p k) + eyeR p k) * rs (ix2 k q)
      = (∑ k : Fin 4096, ra (ix2 p k) * rs (ix2 k q)) + rs (ix2 p q) := by
  simp only [add_mul, Finset.sum_add_distrib, sum_eyeR_mul]

/-- `(a · a) · s = a · (a · s)` at entry `(p, q)`, over the reals: the two finite sums change places. -/
theorem sum_sum_mul_assoc (ra : SAdj.Idx → ℝ) (rs : SNode.Idx → ℝ) (p : Fin 4096) (q : Fin 128) :
    ∑ k : Fin 4096, (∑ l : Fin 4096, ra (ix2 p l) * ra (ix2 l k)) * rs (ix2 k q)
      = ∑ l : Fin 4096, ra (ix2 p l) * ∑ k : Fin 4096, ra (ix2 l k) * rs (ix2 k q) := by
  simp only [Finset.sum_mul, Finset.mul_sum]
  rw [Finset.sum_comm]
  refine Finset.sum_congr rfl fun l _ => Finset.sum_congr rfl fun k _ => ?_
  rw [mul_assoc]

/-- `(a · a - I) · s = a · (a · s) - s` at entry `(p, q)`, over the reals. -/
theorem refMidAt_real (ra : SAdj.Idx → ℝ) (rs : SNode.Idx → ℝ) (p : Fin 4096) (q : Fin 128) :
    ∑ k : Fin 4096, ((∑ l : Fin 4096, ra (ix2 p l) * ra (ix2 l k)) - eyeR p k) * rs (ix2 k q)
      = (∑ l : Fin 4096, ra (ix2 p l) * ∑ k : Fin 4096, ra (ix2 l k) * rs (ix2 k q)) - rs (ix2 p q) := by
  simp only [sub_mul, Finset.sum_sub_distrib, sum_eyeR_mul, sum_sum_mul_assoc]

/-! ## Entries of real arrays are real -/

/-- With real entries, `max (f · w) 0` at `(p, q)` is the real number `max (∑ k, f p k * w k q) 0`. -/
theorem supportAt_coe (rf : SFeat.Idx → ℝ) (rwt : SWt.Idx → ℝ) (p : Fin 4096) (q : Fin 128) :
    supportAt (fun i => ((rf i : ℝ) : EReal)) (fun i => ((rwt i : ℝ) : EReal)) p q
      = ((max (∑ k : Fin 256, rf (ix2 p k) * rwt (ix2 k q)) 0 : ℝ) : EReal) := by
  unfold supportAt
  simp only [← EReal.coe_mul, sum_coe_real, max_coe_zero]

/-- With real entries, `a · s` at `(p, q)` is the real number `∑ k, a p k * s k q`. -/
theorem prodAt_coe (ra : SAdj.Idx → ℝ) (rs : SNode.Idx → ℝ) (p : Fin 4096) (q : Fin 128) :
    prodAt (fun i => ((ra i : ℝ) : EReal)) (fun i => ((rs i : ℝ) : EReal)) p q
      = ((∑ k : Fin 4096, ra (ix2 p k) * rs (ix2 k q) : ℝ) : EReal) := by
  unfold prodAt
  simp only [← EReal.coe_mul, sum_coe_real]

/-- An array of real entries is the entrywise reading of a real array. -/
theorem IsReal.exists_eq {s : Shape} {x : s.Idx → EReal} (hx : IsReal x) :
    ∃ r : s.Idx → ℝ, x = fun i => ((r i : ℝ) : EReal) := by
  choose r hr using hx
  exact ⟨r, funext hr⟩

theorem support_isReal {f : SFeat.Idx → EReal} {w : SWt.Idx → EReal} (hf : IsReal f) (hw : IsReal w) :
    IsReal (support f w) := by
  obtain ⟨rf, rfl⟩ := hf.exists_eq
  obtain ⟨rwt, rfl⟩ := hw.exists_eq
  intro i
  exact ⟨_, supportAt_coe rf rwt (i 0) (i 1)⟩

theorem prod_isReal {a : SAdj.Idx → EReal} {s : SNode.Idx → EReal} (ha : IsReal a) (hs : IsReal s) :
    IsReal (prod a s) := by
  obtain ⟨ra, rfl⟩ := ha.exists_eq
  obtain ⟨rs, rfl⟩ := hs.exists_eq
  intro i
  exact ⟨_, prodAt_coe ra rs (i 0) (i 1)⟩

/-! ## The two laws on real arrays -/

/-- `(a + I) · s = a · s + s` at entry `(p, q)`, for arrays of real entries. -/
theorem refLowAt_eq (ra : SAdj.Idx → ℝ) (rs : SNode.Idx → ℝ) (p : Fin 4096) (q : Fin 128) :
    ∑ k : Fin 4096, (((ra (ix2 p k) : ℝ) : EReal) + eye p k) * ((rs (ix2 k q) : ℝ) : EReal)
      = prodAt (fun i => ((ra i : ℝ) : EReal)) (fun i => ((rs i : ℝ) : EReal)) p q + ((rs (ix2 p q) : ℝ) : EReal) := by
  rw [prodAt_coe]
  simp only [eye_eq_coe, ← EReal.coe_add, ← EReal.coe_mul, sum_coe_real]
  rw [refLowAt_real]

/-- `(a · a - I) · s = a · (a · s) - s` at entry `(p, q)`, for arrays of real entries. -/
theorem refMidAt_eq (ra : SAdj.Idx → ℝ) (rs : SNode.Idx → ℝ) (p : Fin 4096) (q : Fin 128) :
    ∑ k : Fin 4096, ((∑ l : Fin 4096, ((ra (ix2 p l) : ℝ) : EReal) * ((ra (ix2 l k) : ℝ) : EReal)) - eye p k)
        * ((rs (ix2 k q) : ℝ) : EReal)
      = (∑ l : Fin 4096, ((ra (ix2 p l) : ℝ) : EReal)
          * prodAt (fun i => ((ra i : ℝ) : EReal)) (fun i => ((rs i : ℝ) : EReal)) l q) - ((rs (ix2 p q) : ℝ) : EReal) := by
  simp only [prodAt_coe, eye_eq_coe, ← EReal.coe_mul, sum_coe_real, ← EReal.coe_sub]
  rw [refMidAt_real]

/-- `(a + I) · s = a · s + s` on real arrays. -/
theorem refLow_eq {a : SAdj.Idx → EReal} {s : SNode.Idx → EReal} (ha : IsReal a) (hs : IsReal s) :
    refLow a s = low a s := by
  obtain ⟨ra, rfl⟩ := ha.exists_eq
  obtain ⟨rs, rfl⟩ := hs.exists_eq
  funext i
  obtain ⟨p, q, rfl⟩ : ∃ (p : Fin 4096) (q : Fin 128), i = ix2 p q := ⟨i 0, i 1, eq_ix2 i⟩
  exact refLowAt_eq ra rs p q

/-- `(a · a - I) · s = a · (a · s) - s` on real arrays. -/
theorem refMid_eq {a : SAdj.Idx → EReal} {s : SNode.Idx → EReal} (ha : IsReal a) (hs : IsReal s) :
    refMid a s = subProd a (prod a s) s := by
  obtain ⟨ra, rfl⟩ := ha.exists_eq
  obtain ⟨rs, rfl⟩ := hs.exists_eq
  funext i
  obtain ⟨p, q, rfl⟩ : ∃ (p : Fin 4096) (q : Fin 128), i = ix2 p q := ⟨i 0, i 1, eq_ix2 i⟩
  exact refMidAt_eq ra rs p q

end Cert.Spec

end
-- ==== Proof.PreFinite.lean ====
/-
  The precondition says, of each of the three argument arrays, that every entry's absolute value is below
  `+∞`: on the extended reals that is "every entry is a real number".
-/
import proofs.«179354_g65609920414006_cont_sun_m_687_5_alg».proof.Proof.Gen.Pre_finite_inputs
import proofs.«179354_g65609920414006_cont_sun_m_687_5_alg».proof.Proof.Spec
import Idealize.ShloMosaic.Lib.ReduceAll
import Idealize.ShloMosaic.Lib.ValueIdx
import Idealize.ShloMosaic.PureOps.Ideal.Laws

noncomputable section

namespace Cert.Spec

open Idealize.ShloMosaic

/-- The scalar shape has exactly one index. -/
instance scalarIdx_subsingleton : Subsingleton Cert.Pre_finite_inputs.S_.Idx :=
  ⟨fun _ _ => funext fun d => d.elim0⟩

/-- The single-precision pattern `0x7F800000` denotes `+∞`. -/
theorem ofBits_f32_inf : Ideal.ofBits .f32 0x7F800000#32 = (⊤ : EReal) := by
  simp [Ideal.ofBits, Ideal.ieee]

/-- A one-bit word made from a truth value is 1 exactly when the value is true. -/
theorem ofBool_eq_one_iff (b : Bool) : BitVec.ofBool b = 1#1 ↔ b = true := by cases b <;> decide

/-- The ordered comparison "less than" on the extended reals is 1 exactly when the strict inequality holds. -/
theorem cmp_olt_eq_one_iff (x y : EReal) : Ideal.cmp .olt x y = 1#1 ↔ x < y := by
  simp only [Ideal.cmp, ofBool_eq_one_iff, decide_eq_true_eq]

/-- An extended real whose absolute value `max x (-x)` is below `+∞` is a real number:
    both infinities have absolute value `+∞`. -/
theorem exists_real_of_abs_lt_top (x : EReal) (hx : max x (-x) < ⊤) : ∃ r : ℝ, x = (r : EReal) := by
  induction x using EReal.rec with
  | bot => simp at hx
  | coe r => exact ⟨r, rfl⟩
  | top => simp at hx

/-- One argument array: where the comparison `|x| < +∞` is 1 at every entry, every entry is real. -/
theorem isReal_of_abs_olt_inf {s : Shape} (x : FVec Ideal s .f32)
    (dims : Fin Cert.Pre_finite_inputs.S_.rank → Fin s.rank) (hb : Cert.Pre_finite_inputs.S_.BroadcastsInDim s dims)
    (hx : ∀ i, cmpf .olt (Host.absf x)
      (broadcastInDim s dims hb (constant (F := Ideal) Cert.Pre_finite_inputs.S_ .f32 0x7F800000#32)) i = 1#1) :
    IsReal x := by
  intro i
  have hi : Ideal.cmp .olt (max (x i) (-(x i))) (Ideal.ofBits .f32 0x7F800000#32) = 1#1 := hx i
  rw [ofBits_f32_inf, cmp_olt_eq_one_iff] at hi
  exact exists_real_of_abs_lt_top (x i) hi

/-- The printed precondition, all ones, makes each argument array real. -/
theorem isReal_of_finite_inputs (x0 : FVec Ideal Cert.Pre_finite_inputs.S4096x256 .f32) (x1 : FVec Ideal Cert.Pre_finite_inputs.S4096x4096 .f32)
    (x2 : FVec Ideal Cert.Pre_finite_inputs.S256x128 .f32)
    (h : Cert.Pre_finite_inputs.fn (F := Ideal) x0 x1 x2 = fun _ => 1#1) :
    IsReal (s := SFeat) x0 ∧ IsReal (s := SAdj) x1 ∧ IsReal (s := SWt) x2 := by
  have h0 := congrFun h ValueIdx.ix0
  dsimp only [Cert.Pre_finite_inputs.fn] at h0
  obtain ⟨h01, hc⟩ := IntOp.andi_eq_one.1 h0
  obtain ⟨ha, hb⟩ := IntOp.andi_eq_one.1 h01
  exact ⟨isReal_of_abs_olt_inf x0 _ _ (Host.reduce_andi_all _ _ _ _ _ ha),
    isReal_of_abs_olt_inf x1 _ _ (Host.reduce_andi_all _ _ _ _ _ hb),
    isReal_of_abs_olt_inf x2 _ _ (Host.reduce_andi_all _ _ _ _ _ hc)⟩

end Cert.Spec

end
-- ==== Proof.lean ====
/-
  The certificate of the graph-convolution kernel against its reference.

  Both programs compute, from `feature` (4096 × 256), `adj` (4096 × 4096) and `W` (256 × 128), with
  `S = max (feature · W) 0`:  `low = (adj + I) · S`,  `mid = (adj · adj - I) · S`, and the two side by side.
  The kernel never forms `adj · adj`: its three passes compute `S`, then `adj · S` and `adj · S + S`, then
  `adj · (adj · S) - S`.  The two agree because the matrix product distributes over the sum and is associative —
  laws of real matrices, which hold here because the precondition makes every input entry, hence every entry of
  `S`, a real number (on the extended reals they fail at the infinities).

  Frames: the kernel program's run (Proof/Run.lean, at both float instances) and the reference's generated run.
  `preserves`: the idealization rewrote nothing.  `algebraic`: the kernel's results as functions of the arguments
  (Proof/KernelValue.lean), the reference's read back (Proof/RefValue.lean), joined by Proof/Algebra.lean.
-/
import proofs.«179354_g65609920414006_cont_sun_m_687_5_alg».proof.Defs
import proofs.«179354_g65609920414006_cont_sun_m_687_5_alg».proof.Proof.Gen.Kernel
import proofs.«179354_g65609920414006_cont_sun_m_687_5_alg».proof.Proof.Gen.KernelIdeal
import proofs.«179354_g65609920414006_cont_sun_m_687_5_alg».proof.Proof.Gen.ReferenceIdeal
import proofs.«179354_g65609920414006_cont_sun_m_687_5_alg».proof.Proof.Gen.ReferenceIdeal.Run
import proofs.«179354_g65609920414006_cont_sun_m_687_5_alg».proof.Proof.Gen.ReferenceIdeal.Read
import proofs.«179354_g65609920414006_cont_sun_m_687_5_alg».proof.Proof.Gen.Pre_finite_inputs
import proofs.«179354_g65609920414006_cont_sun_m_687_5_alg».proof.Proof.BitsRun
import proofs.«179354_g65609920414006_cont_sun_m_687_5_alg».proof.Proof.Run
import proofs.«179354_g65609920414006_cont_sun_m_687_5_alg».proof.Proof.KernelValue
import proofs.«179354_g65609920414006_cont_sun_m_687_5_alg».proof.Proof.RefValue
import proofs.«179354_g65609920414006_cont_sun_m_687_5_alg».proof.Proof.Algebra
import proofs.«179354_g65609920414006_cont_sun_m_687_5_alg».proof.Proof.PreFinite
import Idealize.ShloMosaic.Adequacy
import Idealize.ShloMosaic.Init

noncomputable section

namespace Cert.Proof

open Idealize.ShloMosaic Idealize.SL.Sem

/-- The word-level kernel program runs and leaves its arguments as launched. -/
theorem frame_k : Cert.frame_Kernel := fun m ρ _ => Cert.Kernel.Frame.frame m ρ

/-- So does the idealized one. -/
theorem frame_ki : Cert.frame_KernelIdeal := fun m ρ _ => Cert.KernelIdeal.Frame.frame m ρ

/-- The reference's frame is its run with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- The idealization rewrote no operation. -/
theorem preserves : Cert.preserves_Kernel_KernelIdeal := trivial

/-- From memories agreeing on the arguments both programs end with `(low, mid)` side by side, `low` and `mid`: the
    kernel at `a · S + S` and `a · (a · S) - S`, the reference at `(a + I) · S` and `(a · a - I) · S`, equal where the
    entries are real. -/
theorem algebraic : Cert.algebraic_KernelIdeal_ReferenceIdeal := by
  intro m ρ m' ρ' hpre hagree
  refine ⟨_, _, _, Cert.KernelIdeal.Val.run m ρ, ?_⟩
  refine (θ_run Cert.ReferenceIdeal.defs _ _).mono (fun _ h c => ?_) (Cert.ReferenceIdeal.Value.run (F := Ideal) m' ρ')
  obtain ⟨h15, h9, h12, hargs⟩ := h c
  obtain ⟨e0, e1, e2⟩ := hagree c
  obtain ⟨r0, r1, r2⟩ := Cert.Spec.isReal_of_finite_inputs _ _ _ (hpre c)
  have rS := Cert.Spec.support_isReal r0 r2
  have hlow := (Cert.ReferenceIdeal.RefValue.ref_low _ _ _).trans (Cert.Spec.refLow_eq r1 rS)
  have hmid := (Cert.ReferenceIdeal.RefValue.ref_mid _ _ _).trans (Cert.Spec.refMid_eq r1 rS)
  refine ⟨?_, ?_, ?_, hargs⟩
  · rw [h15, e0, e1, e2]
    refine ((Cert.ReferenceIdeal.Read.val_main_v15_eq _ _ _).trans (Cert.ReferenceIdeal.RefValue.ref_stacked _ _ _)).trans ?_
    rw [hlow, hmid]
  · rw [h9, e0, e1, e2]
    exact (Cert.ReferenceIdeal.Read.val_main_v9_eq _ _ _).trans hlow
  · rw [h12, e0, e1, e2]
    exact (Cert.ReferenceIdeal.Read.val_main_v12_eq _ _ _).trans hmid

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
